-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x329 : Shape := ⟨2, ![131072, 329]⟩
abbrev S9x9 : Shape := ⟨2, ![9, 9]⟩
abbrev S9 : Shape := ⟨1, ![9]⟩
abbrev S9x17 : Shape := ⟨2, ![9, 17]⟩
abbrev S9x11 : Shape := ⟨2, ![9, 11]⟩
abbrev S_ : Shape := ⟨0, ![]⟩

class Facts : Prop where
  bcast_S_S131072x329 : S_.BroadcastsInDim S131072x329 (![] : Fin 0 → Fin S131072x329.rank)
  reducesTo_S131072x329_S_d0_1 : S131072x329.ReducesTo [0, 1] S_
  h_S_ : 0 < S_.numel
  bcast_S_S9x9 : S_.BroadcastsInDim S9x9 (![] : Fin 0 → Fin S9x9.rank)
  reducesTo_S9x9_S_d0_1 : S9x9.ReducesTo [0, 1] S_
  bcast_S_S9 : S_.BroadcastsInDim S9 (![] : Fin 0 → Fin S9.rank)
  reducesTo_S9_S_d0 : S9.ReducesTo [0] S_
  bcast_S_S9x17 : S_.BroadcastsInDim S9x17 (![] : Fin 0 → Fin S9x17.rank)
  reducesTo_S9x17_S_d0_1 : S9x17.ReducesTo [0, 1] S_
  bcast_S_S9x11 : S_.BroadcastsInDim S9x11 (![] : Fin 0 → Fin S9x11.rank)
  reducesTo_S9x11_S_d0_1 : S9x11.ReducesTo [0, 1] S_

variable [Facts]

def fn_part7 {F : FTy → Type} [FloatOps F] (main_arg25 : FVec F S9 .f32) (main_arg26 : FVec F S9 .f32) (main_v118 : IVec S_ 1) (main_v119 : FVec F S9 .f32) : IVec S_ 1 :=
  let main_cst_46 : FVec F S_ .f32 := constant S_ .f32 0x7F800000#32
  let main_v120 : FVec F S9 .f32 := broadcastInDim S9 ![] bcast_S_S9 main_cst_46
  let main_v121 : IVec S9 1 := cmpf .olt main_v119 main_v120
  let main_c_47 : IVec S_ 1 := constantI S_ 1 1#1
  let main_v122 : IVec S_ 1 := (fun x v => Host.reduce IntOp.andi x v reducesTo_S9_S_d0 h_S_) main_v121 main_c_47
  let main_v123 : IVec S_ 1 := andi main_v118 main_v122
  let main_v124 : FVec F S9 .f32 := Host.absf main_arg25
  let main_cst_48 : FVec F S_ .f32 := constant S_ .f32 0x7F800000#32
  let main_v125 : FVec F S9 .f32 := broadcastInDim S9 ![] bcast_S_S9 main_cst_48
  let main_v126 : IVec S9 1 := cmpf .olt main_v124 main_v125
  let main_c_49 : IVec S_ 1 := constantI S_ 1 1#1
  let main_v127 : IVec S_ 1 := (fun x v => Host.reduce IntOp.andi x v reducesTo_S9_S_d0 h_S_) main_v126 main_c_49
  let main_v128 : IVec S_ 1 := andi main_v123 main_v127
  let main_v129 : FVec F S9 .f32 := Host.absf main_arg26
  let main_cst_50 : FVec F S_ .f32 := constant S_ .f32 0x7F800000#32
  let main_v130 : FVec F S9 .f32 := broadcastInDim S9 ![] bcast_S_S9 main_cst_50
  let main_v131 : IVec S9 1 := cmpf .olt main_v129 main_v130
  let main_c_51 : IVec S_ 1 := constantI S_ 1 1#1
  let main_v132 : IVec S_ 1 := (fun x v => Host.reduce IntOp.andi x v reducesTo_S9_S_d0 h_S_) main_v131 main_c_51
  let main_v133 : IVec S_ 1 := andi main_v128 main_v132
  main_v133

def fn_part6 {F : FTy → Type} [FloatOps F] (main_arg21 : FVec F S9x11 .f32) (main_arg22 : FVec F S9 .f32) (main_arg23 : FVec F S9x11 .f32) (main_arg24 : FVec F S9 .f32) (main_arg25 : FVec F S9 .f32) (main_arg26 : FVec F S9 .f32) (main_v98 : IVec S_ 1) (main_v101 : IVec S9 1) (main_c_39 : IVec S_ 1) : IVec S_ 1 :=
  let main_v102 : IVec S_ 1 := (fun x v => Host.reduce IntOp.andi x v reducesTo_S9_S_d0 h_S_) main_v101 main_c_39
  let main_v103 : IVec S_ 1 := andi main_v98 main_v102
  let main_v104 : FVec F S9x11 .f32 := Host.absf main_arg21
  let main_cst_40 : FVec F S_ .f32 := constant S_ .f32 0x7F800000#32
  let main_v105 : FVec F S9x11 .f32 := broadcastInDim S9x11 ![] bcast_S_S9x11 main_cst_40
  let main_v106 : IVec S9x11 1 := cmpf .olt main_v104 main_v105
  let main_c_41 : IVec S_ 1 := constantI S_ 1 1#1
  let main_v107 : IVec S_ 1 := (fun x v => Host.reduce IntOp.andi x v reducesTo_S9x11_S_d0_1 h_S_) main_v106 main_c_41
  let main_v108 : IVec S_ 1 := andi main_v103 main_v107
  let main_v109 : FVec F S9 .f32 := Host.absf main_arg22
  let main_cst_42 : FVec F S_ .f32 := constant S_ .f32 0x7F800000#32
  let main_v110 : FVec F S9 .f32 := broadcastInDim S9 ![] bcast_S_S9 main_cst_42
  let main_v111 : IVec S9 1 := cmpf .olt main_v109 main_v110
  let main_c_43 : IVec S_ 1 := constantI S_ 1 1#1
  let main_v112 : IVec S_ 1 := (fun x v => Host.reduce IntOp.andi x v reducesTo_S9_S_d0 h_S_) main_v111 main_c_43
  let main_v113 : IVec S_ 1 := andi main_v108 main_v112
  let main_v114 : FVec F S9x11 .f32 := Host.absf main_arg23
  let main_cst_44 : FVec F S_ .f32 := constant S_ .f32 0x7F800000#32
  let main_v115 : FVec F S9x11 .f32 := broadcastInDim S9x11 ![] bcast_S_S9x11 main_cst_44
  let main_v116 : IVec S9x11 1 := cmpf .olt main_v114 main_v115
  let main_c_45 : IVec S_ 1 := constantI S_ 1 1#1
  let main_v117 : IVec S_ 1 := (fun x v => Host.reduce IntOp.andi x v reducesTo_S9x11_S_d0_1 h_S_) main_v116 main_c_45
  let main_v118 : IVec S_ 1 := andi main_v113 main_v117
  let main_v119 : FVec F S9 .f32 := Host.absf main_arg24
  fn_part7 (F := F) main_arg25 main_arg26 main_v118 main_v119

def fn_part5 {F : FTy → Type} [FloatOps F] (main_arg18 : FVec F S9 .f32) (main_arg19 : FVec F S9x17 .f32) (main_arg20 : FVec F S9 .f32) (main_arg21 : FVec F S9x11 .f32) (main_arg22 : FVec F S9 .f32) (main_arg23 : FVec F S9x11 .f32) (main_arg24 : FVec F S9 .f32) (main_arg25 : FVec F S9 .f32) (main_arg26 : FVec F S9 .f32) (main_v83 : IVec S_ 1) (main_v84 : FVec F S9x9 .f32) (main_cst_32 : FVec F S_ .f32) : IVec S_ 1 :=
  let main_v85 : FVec F S9x9 .f32 := broadcastInDim S9x9 ![] bcast_S_S9x9 main_cst_32
  let main_v86 : IVec S9x9 1 := cmpf .olt main_v84 main_v85
  let main_c_33 : IVec S_ 1 := constantI S_ 1 1#1
  let main_v87 : IVec S_ 1 := (fun x v => Host.reduce IntOp.andi x v reducesTo_S9x9_S_d0_1 h_S_) main_v86 main_c_33
  let main_v88 : IVec S_ 1 := andi main_v83 main_v87
  let main_v89 : FVec F S9 .f32 := Host.absf main_arg18
  let main_cst_34 : FVec F S_ .f32 := constant S_ .f32 0x7F800000#32
  let main_v90 : FVec F S9 .f32 := broadcastInDim S9 ![] bcast_S_S9 main_cst_34
  let main_v91 : IVec S9 1 := cmpf .olt main_v89 main_v90
  let main_c_35 : IVec S_ 1 := constantI S_ 1 1#1
  let main_v92 : IVec S_ 1 := (fun x v => Host.reduce IntOp.andi x v reducesTo_S9_S_d0 h_S_) main_v91 main_c_35
  let main_v93 : IVec S_ 1 := andi main_v88 main_v92
  let main_v94 : FVec F S9x17 .f32 := Host.absf main_arg19
  let main_cst_36 : FVec F S_ .f32 := constant S_ .f32 0x7F800000#32
  let main_v95 : FVec F S9x17 .f32 := broadcastInDim S9x17 ![] bcast_S_S9x17 main_cst_36
  let main_v96 : IVec S9x17 1 := cmpf .olt main_v94 main_v95
  let main_c_37 : IVec S_ 1 := constantI S_ 1 1#1
  let main_v97 : IVec S_ 1 := (fun x v => Host.reduce IntOp.andi x v reducesTo_S9x17_S_d0_1 h_S_) main_v96 main_c_37
  let main_v98 : IVec S_ 1 := andi main_v93 main_v97
  let main_v99 : FVec F S9 .f32 := Host.absf main_arg20
  let main_cst_38 : FVec F S_ .f32 := constant S_ .f32 0x7F800000#32
  let main_v100 : FVec F S9 .f32 := broadcastInDim S9 ![] bcast_S_S9 main_cst_38
  let main_v101 : IVec S9 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S9 .f32) (main_arg15 : FVec F S9x11 .f32) (main_arg16 : FVec F S9 .f32) (main_arg17 : FVec F S9x9 .f32) (main_arg18 : FVec F S9 .f32) (main_arg19 : FVec F S9x17 .f32) (main_arg20 : FVec F S9 .f32) (main_arg21 : FVec F S9x11 .f32) (main_arg22 : FVec F S9 .f32) (main_arg23 : FVec F S9x11 .f32) (main_arg24 : FVec F S9 .f32) (main_arg25 : FVec F S9 .f32) (main_arg26 : FVec F S9 .f32) (main_v63 : IVec S_ 1) (main_v67 : IVec S_ 1) : IVec S_ 1 :=
  let main_v68 : IVec S_ 1 := andi main_v63 main_v67
  let main_v69 : FVec F S9 .f32 := Host.absf main_arg14
  let main_cst_26 : FVec F S_ .f32 := constant S_ .f32 0x7F800000#32
  let main_v70 : FVec F S9 .f32 := broadcastInDim S9 ![] bcast_S_S9 main_cst_26
  let main_v71 : IVec S9 1 := cmpf .olt main_v69 main_v70
  let main_c_27 : IVec S_ 1 := constantI S_ 1 1#1
  let main_v72 : IVec S_ 1 := (fun x v => Host.reduce IntOp.andi x v reducesTo_S9_S_d0 h_S_) main_v71 main_c_27
  let main_v73 : IVec S_ 1 := andi main_v68 main_v72
  let main_v74 : FVec F S9x11 .f32 := Host.absf main_arg15
  let main_cst_28 : FVec F S_ .f32 := constant S_ .f32 0x7F800000#32
  let main_v75 : FVec F S9x11 .f32 := broadcastInDim S9x11 ![] bcast_S_S9x11 main_cst_28
  let main_v76 : IVec S9x11 1 := cmpf .olt main_v74 main_v75
  let main_c_29 : IVec S_ 1 := constantI S_ 1 1#1
  let main_v77 : IVec S_ 1 := (fun x v => Host.reduce IntOp.andi x v reducesTo_S9x11_S_d0_1 h_S_) main_v76 main_c_29
  let main_v78 : IVec S_ 1 := andi main_v73 main_v77
  let main_v79 : FVec F S9 .f32 := Host.absf main_arg16
  let main_cst_30 : FVec F S_ .f32 := constant S_ .f32 0x7F800000#32
  let main_v80 : FVec F S9 .f32 := broadcastInDim S9 ![] bcast_S_S9 main_cst_30
  let main_v81 : IVec S9 1 := cmpf .olt main_v79 main_v80
  let main_c_31 : IVec S_ 1 := constantI S_ 1 1#1
  let main_v82 : IVec S_ 1 := (fun x v => Host.reduce IntOp.andi x v reducesTo_S9_S_d0 h_S_) main_v81 main_c_31
  let main_v83 : IVec S_ 1 := andi main_v78 main_v82
  let main_v84 : FVec F S9x9 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S9x17 .f32) (main_arg12 : FVec F S9 .f32) (main_arg13 : FVec F S9x11 .f32) (main_arg14 : FVec F S9 .f32) (main_arg15 : FVec F S9x11 .f32) (main_arg16 : FVec F S9 .f32) (main_arg17 : FVec F S9x9 .f32) (main_arg18 : FVec F S9 .f32) (main_arg19 : FVec F S9x17 .f32) (main_arg20 : FVec F S9 .f32) (main_arg21 : FVec F S9x11 .f32) (main_arg22 : FVec F S9 .f32) (main_arg23 : FVec F S9x11 .f32) (main_arg24 : FVec F S9 .f32) (main_arg25 : FVec F S9 .f32) (main_arg26 : FVec F S9 .f32) (main_v48 : IVec S_ 1) (main_v49 : FVec F S9 .f32) (main_v50 : FVec F S9 .f32) : IVec S_ 1 :=
  let main_v51 : IVec S9 1 := cmpf .olt main_v49 main_v50
  let main_c_19 : IVec S_ 1 := constantI S_ 1 1#1
  let main_v52 : IVec S_ 1 := (fun x v => Host.reduce IntOp.andi x v reducesTo_S9_S_d0 h_S_) main_v51 main_c_19
  let main_v53 : IVec S_ 1 := andi main_v48 main_v52
  let main_v54 : FVec F S9x17 .f32 := Host.absf main_arg11
  let main_cst_20 : FVec F S_ .f32 := constant S_ .f32 0x7F800000#32
  let main_v55 : FVec F S9x17 .f32 := broadcastInDim S9x17 ![] bcast_S_S9x17 main_cst_20
  let main_v56 : IVec S9x17 1 := cmpf .olt main_v54 main_v55
  let main_c_21 : IVec S_ 1 := constantI S_ 1 1#1
  let main_v57 : IVec S_ 1 := (fun x v => Host.reduce IntOp.andi x v reducesTo_S9x17_S_d0_1 h_S_) main_v56 main_c_21
  let main_v58 : IVec S_ 1 := andi main_v53 main_v57
  let main_v59 : FVec F S9 .f32 := Host.absf main_arg12
  let main_cst_22 : FVec F S_ .f32 := constant S_ .f32 0x7F800000#32
  let main_v60 : FVec F S9 .f32 := broadcastInDim S9 ![] bcast_S_S9 main_cst_22
  let main_v61 : IVec S9 1 := cmpf .olt main_v59 main_v60
  let main_c_23 : IVec S_ 1 := constantI S_ 1 1#1
  let main_v62 : IVec S_ 1 := (fun x v => Host.reduce IntOp.andi x v reducesTo_S9_S_d0 h_S_) main_v61 main_c_23
  let main_v63 : IVec S_ 1 := andi main_v58 main_v62
  let main_v64 : FVec F S9x11 .f32 := Host.absf main_arg13
  let main_cst_24 : FVec F S_ .f32 := constant S_ .f32 0x7F800000#32
  let main_v65 : FVec F S9x11 .f32 := broadcastInDim S9x11 ![] bcast_S_S9x11 main_cst_24
  let main_v66 : IVec S9x11 1 := cmpf .olt main_v64 main_v65
  let main_c_25 : IVec S_ 1 := constantI S_ 1 1#1
  let main_v67 : IVec S_ 1 := (fun x v => Host.reduce IntOp.andi x v reducesTo_S9x11_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S9x11 .f32) (main_arg8 : FVec F S9 .f32) (main_arg9 : FVec F S9x9 .f32) (main_arg10 : FVec F S9 .f32) (main_arg11 : FVec F S9x17 .f32) (main_arg12 : FVec F S9 .f32) (main_arg13 : FVec F S9x11 .f32) (main_arg14 : FVec F S9 .f32) (main_arg15 : FVec F S9x11 .f32) (main_arg16 : FVec F S9 .f32) (main_arg17 : FVec F S9x9 .f32) (main_arg18 : FVec F S9 .f32) (main_arg19 : FVec F S9x17 .f32) (main_arg20 : FVec F S9 .f32) (main_arg21 : FVec F S9x11 .f32) (main_arg22 : FVec F S9 .f32) (main_arg23 : FVec F S9x11 .f32) (main_arg24 : FVec F S9 .f32) (main_arg25 : FVec F S9 .f32) (main_arg26 : FVec F S9 .f32) (main_v33 : IVec S_ 1) : IVec S_ 1 :=
  let main_v34 : FVec F S9x11 .f32 := Host.absf main_arg7
  let main_cst_12 : FVec F S_ .f32 := constant S_ .f32 0x7F800000#32
  let main_v35 : FVec F S9x11 .f32 := broadcastInDim S9x11 ![] bcast_S_S9x11 main_cst_12
  let main_v36 : IVec S9x11 1 := cmpf .olt main_v34 main_v35
  let main_c_13 : IVec S_ 1 := constantI S_ 1 1#1
  let main_v37 : IVec S_ 1 := (fun x v => Host.reduce IntOp.andi x v reducesTo_S9x11_S_d0_1 h_S_) main_v36 main_c_13
  let main_v38 : IVec S_ 1 := andi main_v33 main_v37
  let main_v39 : FVec F S9 .f32 := Host.absf main_arg8
  let main_cst_14 : FVec F S_ .f32 := constant S_ .f32 0x7F800000#32
  let main_v40 : FVec F S9 .f32 := broadcastInDim S9 ![] bcast_S_S9 main_cst_14
  let main_v41 : IVec S9 1 := cmpf .olt main_v39 main_v40
  let main_c_15 : IVec S_ 1 := constantI S_ 1 1#1
  let main_v42 : IVec S_ 1 := (fun x v => Host.reduce IntOp.andi x v reducesTo_S9_S_d0 h_S_) main_v41 main_c_15
  let main_v43 : IVec S_ 1 := andi main_v38 main_v42
  let main_v44 : FVec F S9x9 .f32 := Host.absf main_arg9
  let main_cst_16 : FVec F S_ .f32 := constant S_ .f32 0x7F800000#32
  let main_v45 : FVec F S9x9 .f32 := broadcastInDim S9x9 ![] bcast_S_S9x9 main_cst_16
  let main_v46 : IVec S9x9 1 := cmpf .olt main_v44 main_v45
  let main_c_17 : IVec S_ 1 := constantI S_ 1 1#1
  let main_v47 : IVec S_ 1 := (fun x v => Host.reduce IntOp.andi x v reducesTo_S9x9_S_d0_1 h_S_) main_v46 main_c_17
  let main_v48 : IVec S_ 1 := andi main_v43 main_v47
  let main_v49 : FVec F S9 .f32 := Host.absf main_arg10
  let main_cst_18 : FVec F S_ .f32 := constant S_ .f32 0x7F800000#32
  let main_v50 : FVec F S9 .f32 := broadcastInDim S9 ![] bcast_S_S9 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S9 .f32) (main_arg5 : FVec F S9x11 .f32) (main_arg6 : FVec F S9 .f32) (main_arg7 : FVec F S9x11 .f32) (main_arg8 : FVec F S9 .f32) (main_arg9 : FVec F S9x9 .f32) (main_arg10 : FVec F S9 .f32) (main_arg11 : FVec F S9x17 .f32) (main_arg12 : FVec F S9 .f32) (main_arg13 : FVec F S9x11 .f32) (main_arg14 : FVec F S9 .f32) (main_arg15 : FVec F S9x11 .f32) (main_arg16 : FVec F S9 .f32) (main_arg17 : FVec F S9x9 .f32) (main_arg18 : FVec F S9 .f32) (main_arg19 : FVec F S9x17 .f32) (main_arg20 : FVec F S9 .f32) (main_arg21 : FVec F S9x11 .f32) (main_arg22 : FVec F S9 .f32) (main_arg23 : FVec F S9x11 .f32) (main_arg24 : FVec F S9 .f32) (main_arg25 : FVec F S9 .f32) (main_arg26 : FVec F S9 .f32) (main_v13 : IVec S_ 1) (main_v16 : IVec S9x17 1) : IVec S_ 1 :=
  let main_c_5 : IVec S_ 1 := constantI S_ 1 1#1
  let main_v17 : IVec S_ 1 := (fun x v => Host.reduce IntOp.andi x v reducesTo_S9x17_S_d0_1 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  let main_v24 : FVec F S9x11 .f32 := Host.absf main_arg5
  let main_cst_8 : FVec F S_ .f32 := constant S_ .f32 0x7F800000#32
  let main_v25 : FVec F S9x11 .f32 := broadcastInDim S9x11 ![] bcast_S_S9x11 main_cst_8
  let main_v26 : IVec S9x11 1 := cmpf .olt main_v24 main_v25
  let main_c_9 : IVec S_ 1 := constantI S_ 1 1#1
  let main_v27 : IVec S_ 1 := (fun x v => Host.reduce IntOp.andi x v reducesTo_S9x11_S_d0_1 h_S_) main_v26 main_c_9
  let main_v28 : IVec S_ 1 := andi main_v23 main_v27
  let main_v29 : FVec F S9 .f32 := Host.absf main_arg6
  let main_cst_10 : FVec F S_ .f32 := constant S_ .f32 0x7F800000#32
  let main_v30 : FVec F S9 .f32 := broadcastInDim S9 ![] bcast_S_S9 main_cst_10
  let main_v31 : IVec S9 1 := cmpf .olt main_v29 main_v30
  let main_c_11 : IVec S_ 1 := constantI S_ 1 1#1
  let main_v32 : IVec S_ 1 := (fun x v => Host.reduce IntOp.andi x v reducesTo_S9_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S131072x329 .f32) (main_arg1 : FVec F S9x9 .f32) (main_arg2 : FVec F S9 .f32) (main_arg3 : FVec F S9x17 .f32) (main_arg4 : FVec F S9 .f32) (main_arg5 : FVec F S9x11 .f32) (main_arg6 : FVec F S9 .f32) (main_arg7 : FVec F S9x11 .f32) (main_arg8 : FVec F S9 .f32) (main_arg9 : FVec F S9x9 .f32) (main_arg10 : FVec F S9 .f32) (main_arg11 : FVec F S9x17 .f32) (main_arg12 : FVec F S9 .f32) (main_arg13 : FVec F S9x11 .f32) (main_arg14 : FVec F S9 .f32) (main_arg15 : FVec F S9x11 .f32) (main_arg16 : FVec F S9 .f32) (main_arg17 : FVec F S9x9 .f32) (main_arg18 : FVec F S9 .f32) (main_arg19 : FVec F S9x17 .f32) (main_arg20 : FVec F S9 .f32) (main_arg21 : FVec F S9x11 .f32) (main_arg22 : FVec F S9 .f32) (main_arg23 : FVec F S9x11 .f32) (main_arg24 : FVec F S9 .f32) (main_arg25 : FVec F S9 .f32) (main_arg26 : FVec F S9 .f32) : IVec S_ 1 :=
  let main_v0 : FVec F S131072x329 .f32 := Host.absf main_arg0
  let main_cst : FVec F S_ .f32 := constant S_ .f32 0x7F800000#32
  let main_v1 : FVec F S131072x329 .f32 := broadcastInDim S131072x329 ![] bcast_S_S131072x329 main_cst
  let main_v2 : IVec S131072x329 1 := cmpf .olt main_v0 main_v1
  let main_c : IVec S_ 1 := constantI S_ 1 1#1
  let main_v3 : IVec S_ 1 := (fun x v => Host.reduce IntOp.andi x v reducesTo_S131072x329_S_d0_1 h_S_) main_v2 main_c
  let main_v4 : FVec F S9x9 .f32 := Host.absf main_arg1
  let main_cst_0 : FVec F S_ .f32 := constant S_ .f32 0x7F800000#32
  let main_v5 : FVec F S9x9 .f32 := broadcastInDim S9x9 ![] bcast_S_S9x9 main_cst_0
  let main_v6 : IVec S9x9 1 := cmpf .olt main_v4 main_v5
  let main_c_1 : IVec S_ 1 := constantI S_ 1 1#1
  let main_v7 : IVec S_ 1 := (fun x v => Host.reduce IntOp.andi x v reducesTo_S9x9_S_d0_1 h_S_) main_v6 main_c_1
  let main_v8 : IVec S_ 1 := andi main_v3 main_v7
  let main_v9 : FVec F S9 .f32 := Host.absf main_arg2
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S9x17 .f32 := Host.absf main_arg3
  let main_cst_4 : FVec F S_ .f32 := constant S_ .f32 0x7F800000#32
  let main_v15 : FVec F S9x17 .f32 := broadcastInDim S9x17 ![] bcast_S_S9x17 main_cst_4
  let main_v16 : IVec S9x17 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S131072x329 : Shape := ⟨2, ![131072, 329]⟩
abbrev S9x9 : Shape := ⟨2, ![9, 9]⟩
abbrev S9 : Shape := ⟨1, ![9]⟩
abbrev S9x17 : Shape := ⟨2, ![9, 17]⟩
abbrev S9x11 : Shape := ⟨2, ![9, 11]⟩
abbrev S131072x27 : Shape := ⟨2, ![131072, 27]⟩
abbrev S131072x3x9 : Shape := ⟨3, ![131072, 3, 9]⟩
abbrev S131072x170 : Shape := ⟨2, ![131072, 170]⟩
abbrev S131072x10x17 : Shape := ⟨3, ![131072, 10, 17]⟩
abbrev S131072x110 : Shape := ⟨2, ![131072, 110]⟩
abbrev S131072x10x11 : Shape := ⟨3, ![131072, 10, 11]⟩
abbrev S131072x22 : Shape := ⟨2, ![131072, 22]⟩
abbrev S131072x2x11 : Shape := ⟨3, ![131072, 2, 11]⟩
abbrev S1x9 : Shape := ⟨2, ![1, 9]⟩
abbrev S131072x25x9 : Shape := ⟨3, ![131072, 25, 9]⟩
abbrev S64x3x9 : Shape := ⟨3, ![64, 3, 9]⟩
abbrev S64x10x17 : Shape := ⟨3, ![64, 10, 17]⟩
abbrev S64x10x11 : Shape := ⟨3, ![64, 10, 11]⟩
abbrev S64x2x11 : Shape := ⟨3, ![64, 2, 11]⟩
abbrev S64x25x9 : Shape := ⟨3, ![64, 25, 9]⟩
abbrev S192x9 : Shape := ⟨2, ![192, 9]⟩
abbrev S1x1x9 : Shape := ⟨3, ![1, 1, 9]⟩
abbrev S640x17 : Shape := ⟨2, ![640, 17]⟩
abbrev S17x9 : Shape := ⟨2, ![17, 9]⟩
abbrev S640x9 : Shape := ⟨2, ![640, 9]⟩
abbrev S64x10x9 : Shape := ⟨3, ![64, 10, 9]⟩
abbrev S640x11 : Shape := ⟨2, ![640, 11]⟩
abbrev S11x9 : Shape := ⟨2, ![11, 9]⟩
abbrev S128x11 : Shape := ⟨2, ![128, 11]⟩
abbrev S128x9 : Shape := ⟨2, ![128, 9]⟩
abbrev S64x2x9 : Shape := ⟨3, ![64, 2, 9]⟩
abbrev S64x25x25 : Shape := ⟨3, ![64, 25, 25]⟩
abbrev S64x25 : Shape := ⟨2, ![64, 25]⟩
abbrev S64x25x1 : Shape := ⟨3, ![64, 25, 1]⟩

abbrev nBuf : Space → Nat
  | .hbm => 62
  | .vmem => 36
  | .smem => 0
  | _ => 0

abbrev bufTy : (tb : Table) → Fin (tcTables nBuf tb) → BufTy
  | .hbm, ⟨0, _⟩ => ⟨S131072x329, .f32⟩
  | .hbm, ⟨1, _⟩ => ⟨S9x9, .f32⟩
  | .hbm, ⟨2, _⟩ => ⟨S9, .f32⟩
  | .hbm, ⟨3, _⟩ => ⟨S9x17, .f32⟩
  | .hbm, ⟨4, _⟩ => ⟨S9, .f32⟩
  | .hbm, ⟨5, _⟩ => ⟨S9x11, .f32⟩
  | .hbm, ⟨6, _⟩ => ⟨S9, .f32⟩
  | .hbm, ⟨7, _⟩ => ⟨S9x11, .f32⟩
  | .hbm, ⟨8, _⟩ => ⟨S9, .f32⟩
  | .hbm, ⟨9, _⟩ => ⟨S9x9, .f32⟩
  | .hbm, ⟨10, _⟩ => ⟨S9, .f32⟩
  | .hbm, ⟨11, _⟩ => ⟨S9x17, .f32⟩
  | .hbm, ⟨12, _⟩ => ⟨S9, .f32⟩
  | .hbm, ⟨13, _⟩ => ⟨S9x11, .f32⟩
  | .hbm, ⟨14, _⟩ => ⟨S9, .f32⟩
  | .hbm, ⟨15, _⟩ => ⟨S9x11, .f32⟩
  | .hbm, ⟨16, _⟩ => ⟨S9, .f32⟩
  | .hbm, ⟨17, _⟩ => ⟨S9x9, .f32⟩
  | .hbm, ⟨18, _⟩ => ⟨S9, .f32⟩
  | .hbm, ⟨19, _⟩ => ⟨S9x17, .f32⟩
  | .hbm, ⟨20, _⟩ => ⟨S9, .f32⟩
  | .hbm, ⟨21, _⟩ => ⟨S9x11, .f32⟩
  | .hbm, ⟨22, _⟩ => ⟨S9, .f32⟩
  | .hbm, ⟨23, _⟩ => ⟨S9x11, .f32⟩
  | .hbm, ⟨24, _⟩ => ⟨S9, .f32⟩
  | .hbm, ⟨25, _⟩ => ⟨S9, .f32⟩
  | .hbm, ⟨26, _⟩ => ⟨S9, .f32⟩
  | .hbm, ⟨27, _⟩ => ⟨S131072x27, .f32⟩
  | .hbm, ⟨28, _⟩ => ⟨S131072x3x9, .f32⟩
  | .hbm, ⟨29, _⟩ => ⟨S131072x170, .f32⟩
  | .hbm, ⟨30, _⟩ => ⟨S131072x10x17, .f32⟩
  | .hbm, ⟨31, _⟩ => ⟨S131072x110, .f32⟩
  | .hbm, ⟨32, _⟩ => ⟨S131072x10x11, .f32⟩
  | .hbm, ⟨33, _⟩ => ⟨S131072x22, .f32⟩
  | .hbm, ⟨34, _⟩ => ⟨S131072x2x11, .f32⟩
  | .hbm, ⟨35, _⟩ => ⟨S9x9, .bf16⟩
  | .hbm, ⟨36, _⟩ => ⟨S9x17, .bf16⟩
  | .hbm, ⟨37, _⟩ => ⟨S9x11, .bf16⟩
  | .hbm, ⟨38, _⟩ => ⟨S9x11, .bf16⟩
  | .hbm, ⟨39, _⟩ => ⟨S9x9, .bf16⟩
  | .hbm, ⟨40, _⟩ => ⟨S9x17, .bf16⟩
  | .hbm, ⟨41, _⟩ => ⟨S9x11, .bf16⟩
  | .hbm, ⟨42, _⟩ => ⟨S9x11, .bf16⟩
  | .hbm, ⟨43, _⟩ => ⟨S9x9, .bf16⟩
  | .hbm, ⟨44, _⟩ => ⟨S9x17, .bf16⟩
  | .hbm, ⟨45, _⟩ => ⟨S9x11, .bf16⟩
  | .hbm, ⟨46, _⟩ => ⟨S9x11, .bf16⟩
  | .hbm, ⟨47, _⟩ => ⟨S1x9, .f32⟩
  | .hbm, ⟨48, _⟩ => ⟨S1x9, .f32⟩
  | .hbm, ⟨49, _⟩ => ⟨S1x9, .f32⟩
  | .hbm, ⟨50, _⟩ => ⟨S1x9, .f32⟩
  | .hbm, ⟨51, _⟩ => ⟨S1x9, .f32⟩
  | .hbm, ⟨52, _⟩ => ⟨S1x9, .f32⟩
  | .hbm, ⟨53, _⟩ => ⟨S1x9, .f32⟩
  | .hbm, ⟨54, _⟩ => ⟨S1x9, .f32⟩
  | .hbm, ⟨55, _⟩ => ⟨S1x9, .f32⟩
  | .hbm, ⟨56, _⟩ => ⟨S1x9, .f32⟩
  | .hbm, ⟨57, _⟩ => ⟨S1x9, .f32⟩
  | .hbm, ⟨58, _⟩ => ⟨S1x9, .f32⟩
  | .hbm, ⟨59, _⟩ => ⟨S1x9, .f32⟩
  | .hbm, ⟨60, _⟩ => ⟨S1x9, .f32⟩
  | .hbm, ⟨61, _⟩ => ⟨S131072x25x9, .f32⟩
  | .local _ .vmem, ⟨0, _⟩ => ⟨S64x3x9, .f32⟩
  | .local _ .vmem, ⟨1, _⟩ => ⟨S64x3x9, .f32⟩
  | .local _ .vmem, ⟨2, _⟩ => ⟨S64x10x17, .f32⟩
  | .local _ .vmem, ⟨3, _⟩ => ⟨S64x10x17, .f32⟩
  | .local _ .vmem, ⟨4, _⟩ => ⟨S64x10x11, .f32⟩
  | .local _ .vmem, ⟨5, _⟩ => ⟨S64x10x11, .f32⟩
  | .local _ .vmem, ⟨6, _⟩ => ⟨S64x2x11, .f32⟩
  | .local _ .vmem, ⟨7, _⟩ => ⟨S64x2x11, .f32⟩
  | .local _ .vmem, ⟨8, _⟩ => ⟨S9x9, .bf16⟩
  | .local _ .vmem, ⟨9, _⟩ => ⟨S9x17, .bf16⟩
  | .local _ .vmem, ⟨10, _⟩ => ⟨S9x11, .bf16⟩
  | .local _ .vmem, ⟨11, _⟩ => ⟨S9x11, .bf16⟩
  | .local _ .vmem, ⟨12, _⟩ => ⟨S9x9, .bf16⟩
  | .local _ .vmem, ⟨13, _⟩ => ⟨S9x17, .bf16⟩
  | .local _ .vmem, ⟨14, _⟩ => ⟨S9x11, .bf16⟩
  | .local _ .vmem, ⟨15, _⟩ => ⟨S9x11, .bf16⟩
  | .local _ .vmem, ⟨16, _⟩ => ⟨S9x9, .bf16⟩
  | .local _ .vmem, ⟨17, _⟩ => ⟨S9x17, .bf16⟩
  | .local _ .vmem, ⟨18, _⟩ => ⟨S9x11, .bf16⟩
  | .local _ .vmem, ⟨19, _⟩ => ⟨S9x11, .bf16⟩
  | .local _ .vmem, ⟨20, _⟩ => ⟨S1x9, .f32⟩
  | .local _ .vmem, ⟨21, _⟩ => ⟨S1x9, .f32⟩
  | .local _ .vmem, ⟨22, _⟩ => ⟨S1x9, .f32⟩
  | .local _ .vmem, ⟨23, _⟩ => ⟨S1x9, .f32⟩
  | .local _ .vmem, ⟨24, _⟩ => ⟨S1x9, .f32⟩
  | .local _ .vmem, ⟨25, _⟩ => ⟨S1x9, .f32⟩
  | .local _ .vmem, ⟨26, _⟩ => ⟨S1x9, .f32⟩
  | .local _ .vmem, ⟨27, _⟩ => ⟨S1x9, .f32⟩
  | .local _ .vmem, ⟨28, _⟩ => ⟨S1x9, .f32⟩
  | .local _ .vmem, ⟨29, _⟩ => ⟨S1x9, .f32⟩
  | .local _ .vmem, ⟨30, _⟩ => ⟨S1x9, .f32⟩
  | .local _ .vmem, ⟨31, _⟩ => ⟨S1x9, .f32⟩
  | .local _ .vmem, ⟨32, _⟩ => ⟨S1x9, .f32⟩
  | .local _ .vmem, ⟨33, _⟩ => ⟨S1x9, .f32⟩
  | .local _ .vmem, ⟨34, _⟩ => ⟨S64x25x9, .f32⟩
  | .local _ .vmem, ⟨35, _⟩ => ⟨S64x25x9, .f32⟩
  | _, _ => ⟨S131072x329, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg30_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem30_1 : DmaSem sig := 35

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x3x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x10x17 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x10x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2x11 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9x9 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x17 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x11 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x11 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x9 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S9x17 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S9x11 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S9x11 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9x9 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S9x17 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S9x11 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S9x11 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x9 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x9 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x9 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x9 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x9 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x9 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x9 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x9 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x9 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x9 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x9 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x9 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x9 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x9 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 2 → Memref sig .tc .vmem S64x25x9 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

class Facts₀ : Prop where
  slices_S131072x329_S131072x27_0_0 : S131072x329.Slices ![0, 0] S131072x27
  shapeCasts_S131072x27_S131072x3x9 : S131072x27.ShapeCasts S131072x3x9
  slices_S131072x329_S131072x170_0_27 : S131072x329.Slices ![0, 27] S131072x170
  shapeCasts_S131072x170_S131072x10x17 : S131072x170.ShapeCasts S131072x10x17
  slices_S131072x329_S131072x110_0_197 : S131072x329.Slices ![0, 197] S131072x110
  shapeCasts_S131072x110_S131072x10x11 : S131072x110.ShapeCasts S131072x10x11
  slices_S131072x329_S131072x22_0_307 : S131072x329.Slices ![0, 307] S131072x22
  shapeCasts_S131072x22_S131072x2x11 : S131072x22.ShapeCasts S131072x2x11
  bitsLt_bf16_f32 : FTy.bits .bf16 < FTy.bits .f32
  shapeCasts_S9_S1x9 : S9.ShapeCasts S1x9
  inb_S64x3x9_S64x3x9_0_0_0 : ∀ a, (![0, 0, 0] : Fin 3 → Nat) a + S64x3x9.size a ≤ S64x3x9.size a
  h_S64x3x9 : 0 < S64x3x9.numel
  shapeCasts_S64x3x9_S64x3x9 : S64x3x9.ShapeCasts S64x3x9
  inb_S9x9_S9x9_0_0 : ∀ a, (![0, 0] : Fin 2 → Nat) a + S9x9.size a ≤ S9x9.size a
  h_S9x9 : 0 < S9x9.numel
  shapeCasts_S9x9_S9x9 : S9x9.ShapeCasts S9x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  shapeCasts_S64x3x9_S192x9 : S64x3x9.ShapeCasts S192x9
  transposes_S9x9_p1_0_S9x9 : S9x9.Transposes [1, 0] S9x9
  shapeCasts_S192x9_S64x3x9 : S192x9.ShapeCasts S64x3x9
  shapeCasts_S1x9_S1x1x9 : S1x9.ShapeCasts S1x1x9
  broadcasts_S1x1x9_S64x3x9 : S1x1x9.Broadcasts S64x3x9
  inb_S64x10x17_S64x10x17_0_0_0 : ∀ a, (![0, 0, 0] : Fin 3 → Nat) a + S64x10x17.size a ≤ S64x10x17.size a
  h_S64x10x17 : 0 < S64x10x17.numel
  shapeCasts_S64x10x17_S64x10x17 : S64x10x17.ShapeCasts S64x10x17
  inb_S9x17_S9x17_0_0 : ∀ a, (![0, 0] : Fin 2 → Nat) a + S9x17.size a ≤ S9x17.size a
  h_S9x17 : 0 < S9x17.numel
  shapeCasts_S9x17_S9x17 : S9x17.ShapeCasts S9x17
  shapeCasts_S64x10x17_S640x17 : S64x10x17.ShapeCasts S640x17
  transposes_S9x17_p1_0_S17x9 : S9x17.Transposes [1, 0] S17x9
  shapeCasts_S640x9_S64x10x9 : S640x9.ShapeCasts S64x10x9
  broadcasts_S1x1x9_S64x10x9 : S1x1x9.Broadcasts S64x10x9
  inb_S64x10x11_S64x10x11_0_0_0 : ∀ a, (![0, 0, 0] : Fin 3 → Nat) a + S64x10x11.size a ≤ S64x10x11.size a
  h_S64x10x11 : 0 < S64x10x11.numel
  shapeCasts_S64x10x11_S64x10x11 : S64x10x11.ShapeCasts S64x10x11
  inb_S9x11_S9x11_0_0 : ∀ a, (![0, 0] : Fin 2 → Nat) a + S9x11.size a ≤ S9x11.size a
  h_S9x11 : 0 < S9x11.numel
  shapeCasts_S9x11_S9x11 : S9x11.ShapeCasts S9x11
  shapeCasts_S64x10x11_S640x11 : S64x10x11.ShapeCasts S640x11
  transposes_S9x11_p1_0_S11x9 : S9x11.Transposes [1, 0] S11x9
  inb_S64x2x11_S64x2x11_0_0_0 : ∀ a, (![0, 0, 0] : Fin 3 → Nat) a + S64x2x11.size a ≤ S64x2x11.size a
  h_S64x2x11 : 0 < S64x2x11.numel
  shapeCasts_S64x2x11_S64x2x11 : S64x2x11.ShapeCasts S64x2x11
  shapeCasts_S64x2x11_S128x11 : S64x2x11.ShapeCasts S128x11
  shapeCasts_S128x9_S64x2x9 : S128x9.ShapeCasts S64x2x9
  broadcasts_S1x1x9_S64x2x9 : S1x1x9.Broadcasts S64x2x9
  concatenates_S64x3x9_S64x10x9_S64x10x9_S64x2x9_S64x25x9_d1 : Shape.Concatenates [S64x3x9, S64x10x9, S64x10x9, S64x2x9] S64x25x9 1
  reduces_S64x25x25_S64x25 : S64x25x25.Reduces [2] S64x25
  shapeCasts_S64x25_S64x25x1 : S64x25.ShapeCasts S64x25x1
  broadcasts_S64x25x1_S64x25x25 : S64x25x1.Broadcasts S64x25x25
  reduces_S64x25x9_S64x25 : S64x25x9.Reduces [2] S64x25
  broadcasts_S64x25x1_S64x25x9 : S64x25x1.Broadcasts S64x25x9
  broadcasts_S1x1x9_S64x25x9 : S1x1x9.Broadcasts S64x25x9
  inb_S64x25x9_S64x25x9_0_0_0 : ∀ a, (![0, 0, 0] : Fin 3 → Nat) a + S64x25x9.size a ≤ S64x25x9.size a
  h_S64x25x9 : 0 < S64x25x9.numel
  dot_S192x9_S9x9_S192x9_1_0_0_1_n_n_wf : DotDims.WF S192x9 S9x9 S192x9 [1] [0] [0] [1] [] []
  dot_S640x17_S17x9_S640x9_1_0_0_1_n_n_wf : DotDims.WF S640x17 S17x9 S640x9 [1] [0] [0] [1] [] []
  dot_S640x11_S11x9_S640x9_1_0_0_1_n_n_wf : DotDims.WF S640x11 S11x9 S640x9 [1] [0] [0] [1] [] []
  dot_S128x11_S11x9_S128x9_1_0_0_1_n_n_wf : DotDims.WF S128x11 S11x9 S128x9 [1] [0] [0] [1] [] []
  dot_S64x25x9_S64x25x9_S64x25x25_2_2_1_1_0_0_wf : DotDims.WF S64x25x9 S64x25x9 S64x25x25 [2] [2] [1] [1] [0] [0]
  dot_S64x25x25_S64x25x9_S64x25x9_2_1_1_2_0_0_wf : DotDims.WF S64x25x25 S64x25x9 S64x25x9 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3x9.size a ≤ S131072x3x9.size a
  hwx0_0 : ∀ i : grid0.Coords, EltTy.bits .f32 = 32 ∨ (Rect.block (s := S131072x3x9) S64x3x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x10x17.size a ≤ S131072x10x17.size a
  hwx0_1 : ∀ i : grid0.Coords, EltTy.bits .f32 = 32 ∨ (Rect.block (s := S131072x10x17) S64x10x17.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x10x11.size a ≤ S131072x10x11.size a
  hwx0_2 : ∀ i : grid0.Coords, EltTy.bits .f32 = 32 ∨ (Rect.block (s := S131072x10x11) S64x10x11.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2x11.size a ≤ S131072x2x11.size a
  hwx0_3 : ∀ i : grid0.Coords, EltTy.bits .f32 = 32 ∨ (Rect.block (s := S131072x2x11) S64x2x11.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x9.size a ≤ S9x9.size a
  hwx0_4 : ∀ i : grid0.Coords, EltTy.bits .bf16 = 32 ∨ (Rect.block (s := S9x9) S9x9.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x17.size a ≤ S9x17.size a
  hwx0_5 : ∀ i : grid0.Coords, EltTy.bits .bf16 = 32 ∨ (Rect.block (s := S9x17) S9x17.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x11.size a ≤ S9x11.size a
  hwx0_6 : ∀ i : grid0.Coords, EltTy.bits .bf16 = 32 ∨ (Rect.block (s := S9x11) S9x11.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S9x11.size a ≤ S9x11.size a
  hwx0_7 : ∀ i : grid0.Coords, EltTy.bits .bf16 = 32 ∨ (Rect.block (s := S9x11) S9x11.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S9x9.size a ≤ S9x9.size a
  hwx0_8 : ∀ i : grid0.Coords, EltTy.bits .bf16 = 32 ∨ (Rect.block (s := S9x9) S9x9.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S9x17.size a ≤ S9x17.size a
  hwx0_9 : ∀ i : grid0.Coords, EltTy.bits .bf16 = 32 ∨ (Rect.block (s := S9x17) S9x17.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S9x11.size a ≤ S9x11.size a
  hwx0_10 : ∀ i : grid0.Coords, EltTy.bits .bf16 = 32 ∨ (Rect.block (s := S9x11) S9x11.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S9x11.size a ≤ S9x11.size a
  hwx0_11 : ∀ i : grid0.Coords, EltTy.bits .bf16 = 32 ∨ (Rect.block (s := S9x11) S9x11.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S9x9.size a ≤ S9x9.size a
  hwx0_12 : ∀ i : grid0.Coords, EltTy.bits .bf16 = 32 ∨ (Rect.block (s := S9x9) S9x9.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S9x17.size a ≤ S9x17.size a
  hwx0_13 : ∀ i : grid0.Coords, EltTy.bits .bf16 = 32 ∨ (Rect.block (s := S9x17) S9x17.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S9x11.size a ≤ S9x11.size a
  hwx0_14 : ∀ i : grid0.Coords, EltTy.bits .bf16 = 32 ∨ (Rect.block (s := S9x11) S9x11.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S9x11.size a ≤ S9x11.size a
  hwx0_15 : ∀ i : grid0.Coords, EltTy.bits .bf16 = 32 ∨ (Rect.block (s := S9x11) S9x11.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x9.size a ≤ S1x9.size a
  hwx0_16 : ∀ i : grid0.Coords, EltTy.bits .f32 = 32 ∨ (Rect.block (s := S1x9) S1x9.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x9.size a ≤ S1x9.size a
  hwx0_17 : ∀ i : grid0.Coords, EltTy.bits .f32 = 32 ∨ (Rect.block (s := S1x9) S1x9.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x9.size a ≤ S1x9.size a
  hwx0_18 : ∀ i : grid0.Coords, EltTy.bits .f32 = 32 ∨ (Rect.block (s := S1x9) S1x9.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x9.size a ≤ S1x9.size a
  hwx0_19 : ∀ i : grid0.Coords, EltTy.bits .f32 = 32 ∨ (Rect.block (s := S1x9) S1x9.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x9.size a ≤ S1x9.size a
  hwx0_20 : ∀ i : grid0.Coords, EltTy.bits .f32 = 32 ∨ (Rect.block (s := S1x9) S1x9.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x9.size a ≤ S1x9.size a
  hwx0_21 : ∀ i : grid0.Coords, EltTy.bits .f32 = 32 ∨ (Rect.block (s := S1x9) S1x9.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x9.size a ≤ S1x9.size a
  hwx0_22 : ∀ i : grid0.Coords, EltTy.bits .f32 = 32 ∨ (Rect.block (s := S1x9) S1x9.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x9.size a ≤ S1x9.size a
  hwx0_23 : ∀ i : grid0.Coords, EltTy.bits .f32 = 32 ∨ (Rect.block (s := S1x9) S1x9.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x9.size a ≤ S1x9.size a
  hwx0_24 : ∀ i : grid0.Coords, EltTy.bits .f32 = 32 ∨ (Rect.block (s := S1x9) S1x9.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x9.size a ≤ S1x9.size a
  hwx0_25 : ∀ i : grid0.Coords, EltTy.bits .f32 = 32 ∨ (Rect.block (s := S1x9) S1x9.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x9.size a ≤ S1x9.size a
  hwx0_26 : ∀ i : grid0.Coords, EltTy.bits .f32 = 32 ∨ (Rect.block (s := S1x9) S1x9.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x9.size a ≤ S1x9.size a
  hwx0_27 : ∀ i : grid0.Coords, EltTy.bits .f32 = 32 ∨ (Rect.block (s := S1x9) S1x9.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x9.size a ≤ S1x9.size a
  hwx0_28 : ∀ i : grid0.Coords, EltTy.bits .f32 = 32 ∨ (Rect.block (s := S1x9) S1x9.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S1x9.size a ≤ S1x9.size a
  hwx0_29 : ∀ i : grid0.Coords, EltTy.bits .f32 = 32 ∨ (Rect.block (s := S1x9) S1x9.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S64x25x9.size a ≤ S131072x25x9.size a
  hwx0_30 : ∀ i : grid0.Coords, EltTy.bits .f32 = 32 ∨ (Rect.block (s := S131072x25x9) S64x25x9.size (cc0_transform_30 i) (hinb0_30 i)).WholeWords (EltTy.packing .f32)

variable [Facts₀]

def dot_S192x9_S9x9_S192x9_1_0_0_1_n_n : DotDims S192x9 S9x9 S192x9 where
  lhsContracting := [1]
  rhsContracting := [0]
  lhsNonContracting := [0]
  rhsNonContracting := [1]
  lhsBatch := []
  rhsBatch := []
  wf := dot_S192x9_S9x9_S192x9_1_0_0_1_n_n_wf
def dot_S640x17_S17x9_S640x9_1_0_0_1_n_n : DotDims S640x17 S17x9 S640x9 where
  lhsContracting := [1]
  rhsContracting := [0]
  lhsNonContracting := [0]
  rhsNonContracting := [1]
  lhsBatch := []
  rhsBatch := []
  wf := dot_S640x17_S17x9_S640x9_1_0_0_1_n_n_wf
def dot_S640x11_S11x9_S640x9_1_0_0_1_n_n : DotDims S640x11 S11x9 S640x9 where
  lhsContracting := [1]
  rhsContracting := [0]
  lhsNonContracting := [0]
  rhsNonContracting := [1]
  lhsBatch := []
  rhsBatch := []
  wf := dot_S640x11_S11x9_S640x9_1_0_0_1_n_n_wf
def dot_S128x11_S11x9_S128x9_1_0_0_1_n_n : DotDims S128x11 S11x9 S128x9 where
  lhsContracting := [1]
  rhsContracting := [0]
  lhsNonContracting := [0]
  rhsNonContracting := [1]
  lhsBatch := []
  rhsBatch := []
  wf := dot_S128x11_S11x9_S128x9_1_0_0_1_n_n_wf
def dot_S64x25x9_S64x25x9_S64x25x25_2_2_1_1_0_0 : DotDims S64x25x9 S64x25x9 S64x25x25 where
  lhsContracting := [2]
  rhsContracting := [2]
  lhsNonContracting := [1]
  rhsNonContracting := [1]
  lhsBatch := [0]
  rhsBatch := [0]
  wf := dot_S64x25x9_S64x25x9_S64x25x25_2_2_1_1_0_0_wf
def dot_S64x25x25_S64x25x9_S64x25x9_2_1_1_2_0_0 : DotDims S64x25x25 S64x25x9 S64x25x9 where
  lhsContracting := [2]
  rhsContracting := [1]
  lhsNonContracting := [1]
  rhsNonContracting := [2]
  lhsBatch := [0]
  rhsBatch := [0]
  wf := dot_S64x25x25_S64x25x9_S64x25x9_2_1_1_2_0_0_wf

abbrev win0_0 : Pipeline.Window sig grid0 :=
  Pipeline.Window.ofSpec (Memref.whole main_v1) S64x3x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x10x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x10x11.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x2x11.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S9x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S9x17.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S9x11.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S9x11.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S9x9.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S9x17.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S9x11.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S9x11.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S9x9.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S9x17.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S9x11.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S9x11.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v20) S1x9.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v21) S1x9.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v22) S1x9.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v23) S1x9.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v24) S1x9.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v25) S1x9.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v26) S1x9.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v27) S1x9.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v28) S1x9.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v29) S1x9.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v30) S1x9.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v31) S1x9.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v32) S1x9.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v33) S1x9.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v34) S64x25x9.size cc0_transform_30 reads0_30 true false 2 stage0_30 sem0_30
    hrank0 hreads0_30 hinb0_30 nbuf0_30 (Memref.isWhole_whole _) hwx0_30 hstage0_30

abbrev win0 : Fin 31 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | ⟨_ + 31, h⟩ => absurd h (Nat.not_lt.2 (Nat.le_add_left _ _))
abbrev spec0 : Fin 31 → Pipeline.WinSpec sig grid0.rank := fun w => (win0 w).toWinSpec

class Facts : Prop extends Facts₀ where

variable [Facts]
-- ==== ReferenceIdeal.lean ====
abbrev S131072x329 : Shape := ⟨2, ![131072, 329]⟩
abbrev S9x9 : Shape := ⟨2, ![9, 9]⟩
abbrev S9 : Shape := ⟨1, ![9]⟩
abbrev S9x17 : Shape := ⟨2, ![9, 17]⟩
abbrev S9x11 : Shape := ⟨2, ![9, 11]⟩
abbrev S131072x27 : Shape := ⟨2, ![131072, 27]⟩
abbrev S131072x3x9 : Shape := ⟨3, ![131072, 3, 9]⟩
abbrev S131072x170 : Shape := ⟨2, ![131072, 170]⟩
abbrev S131072x10x17 : Shape := ⟨3, ![131072, 10, 17]⟩
abbrev S131072x110 : Shape := ⟨2, ![131072, 110]⟩
abbrev S131072x10x11 : Shape := ⟨3, ![131072, 10, 11]⟩
abbrev S131072x22 : Shape := ⟨2, ![131072, 22]⟩
abbrev S131072x2x11 : Shape := ⟨3, ![131072, 2, 11]⟩
abbrev S1x1x9 : Shape := ⟨3, ![1, 1, 9]⟩
abbrev S131072x10x9 : Shape := ⟨3, ![131072, 10, 9]⟩
abbrev S131072x2x9 : Shape := ⟨3, ![131072, 2, 9]⟩
abbrev S131072x25x9 : Shape := ⟨3, ![131072, 25, 9]⟩
abbrev S131072x25x25 : Shape := ⟨3, ![131072, 25, 25]⟩
abbrev S_ : Shape := ⟨0, ![]⟩
abbrev S131072x25 : Shape := ⟨2, ![131072, 25]⟩
abbrev S131072x25x1 : Shape := ⟨3, ![131072, 25, 1]⟩

abbrev nBuf : Space → Nat
  | .hbm => 136
  | .vmem => 0
  | .smem => 0
  | _ => 0

abbrev hbmTy0_0 (i : Nat) : BufTy := match i % 128 with
  | 0 => ⟨S131072x329, .f32⟩
  | 1 => ⟨S9x9, .f32⟩
  | 2 => ⟨S9, .f32⟩
  | 3 => ⟨S9x17, .f32⟩
  | 4 => ⟨S9, .f32⟩
  | 5 => ⟨S9x11, .f32⟩
  | 6 => ⟨S9, .f32⟩
  | 7 => ⟨S9x11, .f32⟩
  | 8 => ⟨S9, .f32⟩
  | 9 => ⟨S9x9, .f32⟩
  | 10 => ⟨S9, .f32⟩
  | 11 => ⟨S9x17, .f32⟩
  | 12 => ⟨S9, .f32⟩
  | 13 => ⟨S9x11, .f32⟩
  | 14 => ⟨S9, .f32⟩
  | 15 => ⟨S9x11, .f32⟩
  | 16 => ⟨S9, .f32⟩
  | 17 => ⟨S9x9, .f32⟩
  | 18 => ⟨S9, .f32⟩
  | 19 => ⟨S9x17, .f32⟩
  | 20 => ⟨S9, .f32⟩
  | 21 => ⟨S9x11, .f32⟩
  | 22 => ⟨S9, .f32⟩
  | 23 => ⟨S9x11, .f32⟩
  | 24 => ⟨S9, .f32⟩
  | 25 => ⟨S9, .f32⟩
  | 26 => ⟨S9, .f32⟩
  | 27 => ⟨S131072x27, .f32⟩
  | 28 => ⟨S131072x3x9, .f32⟩
  | 29 => ⟨S131072x170, .f32⟩
  | 30 => ⟨S131072x10x17, .f32⟩
  | 31 => ⟨S131072x110, .f32⟩
  | 32 => ⟨S131072x10x11, .f32⟩
  | 33 => ⟨S131072x22, .f32⟩
  | 34 => ⟨S131072x2x11, .f32⟩
  | 35 => ⟨S131072x3x9, .f32⟩
  | 36 => ⟨S1x1x9, .f32⟩
  | 37 => ⟨S131072x3x9, .f32⟩
  | 38 => ⟨S131072x3x9, .f32⟩
  | 39 => ⟨S131072x10x9, .f32⟩
  | 40 => ⟨S1x1x9, .f32⟩
  | 41 => ⟨S131072x10x9, .f32⟩
  | 42 => ⟨S131072x10x9, .f32⟩
  | 43 => ⟨S131072x10x9, .f32⟩
  | 44 => ⟨S1x1x9, .f32⟩
  | 45 => ⟨S131072x10x9, .f32⟩
  | 46 => ⟨S131072x10x9, .f32⟩
  | 47 => ⟨S131072x2x9, .f32⟩
  | 48 => ⟨S1x1x9, .f32⟩
  | 49 => ⟨S131072x2x9, .f32⟩
  | 50 => ⟨S131072x2x9, .f32⟩
  | 51 => ⟨S131072x25x9, .f32⟩
  | 52 => ⟨S131072x3x9, .f32⟩
  | 53 => ⟨S1x1x9, .f32⟩
  | 54 => ⟨S131072x3x9, .f32⟩
  | 55 => ⟨S131072x3x9, .f32⟩
  | 56 => ⟨S131072x10x9, .f32⟩
  | 57 => ⟨S1x1x9, .f32⟩
  | 58 => ⟨S131072x10x9, .f32⟩
  | 59 => ⟨S131072x10x9, .f32⟩
  | 60 => ⟨S131072x10x9, .f32⟩
  | 61 => ⟨S1x1x9, .f32⟩
  | 62 => ⟨S131072x10x9, .f32⟩
  | 63 => ⟨S131072x10x9, .f32⟩
  | 64 => ⟨S131072x2x9, .f32⟩
  | 65 => ⟨S1x1x9, .f32⟩
  | 66 => ⟨S131072x2x9, .f32⟩
  | 67 => ⟨S131072x2x9, .f32⟩
  | 68 => ⟨S131072x25x9, .f32⟩
  | 69 => ⟨S131072x3x9, .f32⟩
  | 70 => ⟨S1x1x9, .f32⟩
  | 71 => ⟨S131072x3x9, .f32⟩
  | 72 => ⟨S131072x3x9, .f32⟩
  | 73 => ⟨S131072x10x9, .f32⟩
  | 74 => ⟨S1x1x9, .f32⟩
  | 75 => ⟨S131072x10x9, .f32⟩
  | 76 => ⟨S131072x10x9, .f32⟩
  | 77 => ⟨S131072x10x9, .f32⟩
  | 78 => ⟨S1x1x9, .f32⟩
  | 79 => ⟨S131072x10x9, .f32⟩
  | 80 => ⟨S131072x10x9, .f32⟩
  | 81 => ⟨S131072x2x9, .f32⟩
  | 82 => ⟨S1x1x9, .f32⟩
  | 83 => ⟨S131072x2x9, .f32⟩
  | 84 => ⟨S131072x2x9, .f32⟩
  | 85 => ⟨S131072x25x9, .f32⟩
  | 86 => ⟨S131072x25x25, .f32⟩
  | 87 => ⟨S_, .f32⟩
  | 88 => ⟨S_, .f32⟩
  | 89 => ⟨S131072x25x25, .f32⟩
  | 90 => ⟨S131072x25x25, .f32⟩
  | 91 => ⟨S_, .f32⟩
  | 92 => ⟨S131072x25, .f32⟩
  | 93 => ⟨S_, .f32⟩
  | 94 => ⟨S131072x25, .f32⟩
  | 95 => ⟨S131072x25, .f32⟩
  | 96 => ⟨S131072x25x1, .f32⟩
  | 97 => ⟨S131072x25x25, .f32⟩
  | 98 => ⟨S131072x25x25, .f32⟩
  | 99 => ⟨S131072x25x25, .f32⟩
  | 100 => ⟨S_, .f32⟩
  | 101 => ⟨S131072x25, .f32⟩
  | 102 => ⟨S131072x25x1, .f32⟩
  | 103 => ⟨S131072x25x25, .f32⟩
  | 104 => ⟨S131072x25x25, .f32⟩
  | 105 => ⟨S131072x25x9, .f32⟩
  | 106 => ⟨S131072x25x9, .f32⟩
  | 107 => ⟨S_, .f32⟩
  | 108 => ⟨S131072x25, .f32⟩
  | 109 => ⟨S131072x25x1, .f32⟩
  | 110 => ⟨S_, .f32⟩
  | 111 => ⟨S131072x25x1, .f32⟩
  | 112 => ⟨S131072x25x1, .f32⟩
  | 113 => ⟨S131072x25x9, .f32⟩
  | 114 => ⟨S131072x25x9, .f32⟩
  | 115 => ⟨S131072x25x9, .f32⟩
  | 116 => ⟨S_, .f32⟩
  | 117 => ⟨S131072x25, .f32⟩
  | 118 => ⟨S131072x25x1, .f32⟩
  | 119 => ⟨S_, .f32⟩
  | 120 => ⟨S131072x25x1, .f32⟩
  | 121 => ⟨S131072x25x1, .f32⟩
  | 122 => ⟨S131072x25x9, .f32⟩
  | 123 => ⟨S131072x25x9, .f32⟩
  | 124 => ⟨S_, .f32⟩
  | 125 => ⟨S131072x25x1, .f32⟩
  | 126 => ⟨S131072x25x1, .f32⟩
  | 127 => ⟨S131072x25x1, .f32⟩
  | _ => ⟨S131072x329, .f32⟩

abbrev hbmTy0_1 (i : Nat) : BufTy := match i % 128 with
  | 0 => ⟨S131072x25x9, .f32⟩
  | 1 => ⟨S131072x25x9, .f32⟩
  | 2 => ⟨S1x1x9, .f32⟩
  | 3 => ⟨S131072x25x9, .f32⟩
  | 4 => ⟨S131072x25x9, .f32⟩
  | 5 => ⟨S1x1x9, .f32⟩
  | 6 => ⟨S131072x25x9, .f32⟩
  | 7 => ⟨S131072x25x9, .f32⟩
  | _ => ⟨S131072x329, .f32⟩

abbrev hbmTy (i : Nat) : BufTy := match i / 128 with
  | 0 => hbmTy0_0 i
  | 1 => hbmTy0_1 i
  | _ => ⟨S131072x329, .f32⟩

abbrev bufTy : (tb : Table) → Fin (tcTables nBuf tb) → BufTy
  | .hbm, ⟨i, _⟩ => hbmTy i
  | _, _ => ⟨S131072x329, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_0 : Ref sig .tc := ⟨.hbm, 91, rfl⟩
abbrev main_v63 : Ref sig .tc := ⟨.hbm, 92, rfl⟩
abbrev main_cst_1 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_2 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_3 : Ref sig .tc := ⟨.hbm, 107, rfl⟩
abbrev main_v76 : Ref sig .tc := ⟨.hbm, 108, rfl⟩
abbrev main_v77 : Ref sig .tc := ⟨.hbm, 109, rfl⟩
abbrev main_cst_4 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_5 : Ref sig .tc := ⟨.hbm, 116, rfl⟩
abbrev main_v83 : Ref sig .tc := ⟨.hbm, 117, rfl⟩
abbrev main_v84 : Ref sig .tc := ⟨.hbm, 118, rfl⟩
abbrev main_cst_6 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_7 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]

class Facts₀ : Prop where
  slices_S131072x329_S131072x27_0_0 : S131072x329.Slices ![0, 0] S131072x27
  shapeCasts_S131072x27_S131072x3x9 : S131072x27.ShapeCasts S131072x3x9
  slices_S131072x329_S131072x170_0_27 : S131072x329.Slices ![0, 27] S131072x170
  shapeCasts_S131072x170_S131072x10x17 : S131072x170.ShapeCasts S131072x10x17
  slices_S131072x329_S131072x110_0_197 : S131072x329.Slices ![0, 197] S131072x110
  shapeCasts_S131072x110_S131072x10x11 : S131072x110.ShapeCasts S131072x10x11
  slices_S131072x329_S131072x22_0_307 : S131072x329.Slices ![0, 307] S131072x22
  shapeCasts_S131072x22_S131072x2x11 : S131072x22.ShapeCasts S131072x2x11
  bcast_S9_S1x1x9_2 : S9.BroadcastsInDim S1x1x9 (![2] : Fin 1 → Fin S1x1x9.rank)
  bcast_S1x1x9_S131072x3x9_0_1_2 : S1x1x9.BroadcastsInDim S131072x3x9 (![0, 1, 2] : Fin 3 → Fin S131072x3x9.rank)
  bcast_S1x1x9_S131072x10x9_0_1_2 : S1x1x9.BroadcastsInDim S131072x10x9 (![0, 1, 2] : Fin 3 → Fin S131072x10x9.rank)
  bcast_S1x1x9_S131072x2x9_0_1_2 : S1x1x9.BroadcastsInDim S131072x2x9 (![0, 1, 2] : Fin 3 → Fin S131072x2x9.rank)
  concatenates_S131072x3x9_S131072x10x9_S131072x10x9_S131072x2x9_S131072x25x9_d1 : Shape.Concatenates [S131072x3x9, S131072x10x9, S131072x10x9, S131072x2x9] S131072x25x9 1
  bcast_S_S131072x25x25 : S_.BroadcastsInDim S131072x25x25 (![] : Fin 0 → Fin S131072x25x25.rank)
  reducesTo_S131072x25x25_S131072x25_d2 : S131072x25x25.ReducesTo [2] S131072x25
  h_S_ : 0 < S_.numel
  bcast_S_S131072x25 : S_.BroadcastsInDim S131072x25 (![] : Fin 0 → Fin S131072x25.rank)
  bcast_S131072x25_S131072x25x1_0_1 : S131072x25.BroadcastsInDim S131072x25x1 (![0, 1] : Fin 2 → Fin S131072x25x1.rank)
  bcast_S131072x25x1_S131072x25x25_0_1_2 : S131072x25x1.BroadcastsInDim S131072x25x25 (![0, 1, 2] : Fin 3 → Fin S131072x25x25.rank)
  reducesTo_S131072x25x9_S131072x25_d2 : S131072x25x9.ReducesTo [2] S131072x25
  bcast_S_S131072x25x1 : S_.BroadcastsInDim S131072x25x1 (![] : Fin 0 → Fin S131072x25x1.rank)
  bcast_S131072x25x1_S131072x25x9_0_1_2 : S131072x25x1.BroadcastsInDim S131072x25x9 (![0, 1, 2] : Fin 3 → Fin S131072x25x9.rank)
  bcast_S1x1x9_S131072x25x9_0_1_2 : S1x1x9.BroadcastsInDim S131072x25x9 (![0, 1, 2] : Fin 3 → Fin S131072x25x9.rank)
  dot_S131072x3x9_S9x9_S131072x3x9_2_1_01_0_n_n_wf : DotDims.WF S131072x3x9 S9x9 S131072x3x9 [2] [1] [0, 1] [0] [] []
  dot_S131072x10x17_S9x17_S131072x10x9_2_1_01_0_n_n_wf : DotDims.WF S131072x10x17 S9x17 S131072x10x9 [2] [1] [0, 1] [0] [] []
  dot_S131072x10x11_S9x11_S131072x10x9_2_1_01_0_n_n_wf : DotDims.WF S131072x10x11 S9x11 S131072x10x9 [2] [1] [0, 1] [0] [] []
  dot_S131072x2x11_S9x11_S131072x2x9_2_1_01_0_n_n_wf : DotDims.WF S131072x2x11 S9x11 S131072x2x9 [2] [1] [0, 1] [0] [] []
  dot_S131072x25x9_S131072x25x9_S131072x25x25_2_2_1_1_0_0_wf : DotDims.WF S131072x25x9 S131072x25x9 S131072x25x25 [2] [2] [1] [1] [0] [0]
  dot_S131072x25x25_S131072x25x9_S131072x25x9_2_1_1_2_0_0_wf : DotDims.WF S131072x25x25 S131072x25x9 S131072x25x9 [2] [1] [1] [2] [0] [0]

variable [Facts₀]

def dot_S131072x3x9_S9x9_S131072x3x9_2_1_01_0_n_n : DotDims S131072x3x9 S9x9 S131072x3x9 where
  lhsContracting := [2]
  rhsContracting := [1]
  lhsNonContracting := [0, 1]
  rhsNonContracting := [0]
  lhsBatch := []
  rhsBatch := []
  wf := dot_S131072x3x9_S9x9_S131072x3x9_2_1_01_0_n_n_wf
def dot_S131072x10x17_S9x17_S131072x10x9_2_1_01_0_n_n : DotDims S131072x10x17 S9x17 S131072x10x9 where
  lhsContracting := [2]
  rhsContracting := [1]
  lhsNonContracting := [0, 1]
  rhsNonContracting := [0]
  lhsBatch := []
  rhsBatch := []
  wf := dot_S131072x10x17_S9x17_S131072x10x9_2_1_01_0_n_n_wf
def dot_S131072x10x11_S9x11_S131072x10x9_2_1_01_0_n_n : DotDims S131072x10x11 S9x11 S131072x10x9 where
  lhsContracting := [2]
  rhsContracting := [1]
  lhsNonContracting := [0, 1]
  rhsNonContracting := [0]
  lhsBatch := []
  rhsBatch := []
  wf := dot_S131072x10x11_S9x11_S131072x10x9_2_1_01_0_n_n_wf
def dot_S131072x2x11_S9x11_S131072x2x9_2_1_01_0_n_n : DotDims S131072x2x11 S9x11 S131072x2x9 where
  lhsContracting := [2]
  rhsContracting := [1]
  lhsNonContracting := [0, 1]
  rhsNonContracting := [0]
  lhsBatch := []
  rhsBatch := []
  wf := dot_S131072x2x11_S9x11_S131072x2x9_2_1_01_0_n_n_wf
def dot_S131072x25x9_S131072x25x9_S131072x25x25_2_2_1_1_0_0 : DotDims S131072x25x9 S131072x25x9 S131072x25x25 where
  lhsContracting := [2]
  rhsContracting := [2]
  lhsNonContracting := [1]
  rhsNonContracting := [1]
  lhsBatch := [0]
  rhsBatch := [0]
  wf := dot_S131072x25x9_S131072x25x9_S131072x25x25_2_2_1_1_0_0_wf
def dot_S131072x25x25_S131072x25x9_S131072x25x9_2_1_1_2_0_0 : DotDims S131072x25x25 S131072x25x9 S131072x25x9 where
  lhsContracting := [2]
  rhsContracting := [1]
  lhsNonContracting := [1]
  rhsNonContracting := [2]
  lhsBatch := [0]
  rhsBatch := [0]
  wf := dot_S131072x25x25_S131072x25x9_S131072x25x9_2_1_1_2_0_0_wf

class Facts : Prop extends Facts₀ where

variable [Facts]
-- ==== Proof.KStages.lean ====
/-
  The body of the kernel, cut into the stages its mathematics has, each as one function of vectors at the
  exact instance: the affine map of each of the four token groups, the four results laid end to end, the
  attention with its centring, and the final scaling.  The body's own operations are used, so that the
  body's value is these stages composed, and each stage can be read at an index on its own.
-/
import proofs.«406663_j42339787604121_3_alg».proof.KernelIdeal
import proofs.«406663_j42339787604121_3_alg».proof.Proof.Gen.KernelIdeal

noncomputable section

namespace Cert.KernelIdeal.Stages

open Idealize.ShloMosaic Cert.KernelIdeal Cert.KernelIdeal.Gen

/-- The affine map of the 3 tokens of width 9: the block's 64 x 3 tokens as 192 rows times the transposed weights,
    plus the bias row. -/
def linA (x : FVec Ideal S64x3x9 .f32) (w : FVec Ideal S9x9 .bf16) (b : FVec Ideal S1x9 .f32) : FVec Ideal S64x3x9 .f32 :=
  addf (shapeCast S64x3x9 (matmul dot_S192x9_S9x9_S192x9_1_0_0_1_n_n none
      (shapeCast S192x9 (truncf .bf16 x bitsLt_bf16_f32) shapeCasts_S64x3x9_S192x9)
      (transpose S9x9 [1, 0] w transposes_S9x9_p1_0_S9x9) (constant S192x9 .f32 0x00000000#32)) shapeCasts_S192x9_S64x3x9)
    (broadcastTo S64x3x9 (shapeCast S1x1x9 b shapeCasts_S1x9_S1x1x9) broadcasts_S1x1x9_S64x3x9)

/-- The affine map of the 10 tokens of width 17. -/
def linB (x : FVec Ideal S64x10x17 .f32) (w : FVec Ideal S9x17 .bf16) (b : FVec Ideal S1x9 .f32) : FVec Ideal S64x10x9 .f32 :=
  addf (shapeCast S64x10x9 (matmul dot_S640x17_S17x9_S640x9_1_0_0_1_n_n none
      (shapeCast S640x17 (truncf .bf16 x bitsLt_bf16_f32) shapeCasts_S64x10x17_S640x17)
      (transpose S17x9 [1, 0] w transposes_S9x17_p1_0_S17x9) (constant S640x9 .f32 0x00000000#32)) shapeCasts_S640x9_S64x10x9)
    (broadcastTo S64x10x9 (shapeCast S1x1x9 b shapeCasts_S1x9_S1x1x9) broadcasts_S1x1x9_S64x10x9)

/-- The affine map of the 10 tokens of width 11. -/
def linC (x : FVec Ideal S64x10x11 .f32) (w : FVec Ideal S9x11 .bf16) (b : FVec Ideal S1x9 .f32) : FVec Ideal S64x10x9 .f32 :=
  addf (shapeCast S64x10x9 (matmul dot_S640x11_S11x9_S640x9_1_0_0_1_n_n none
      (shapeCast S640x11 (truncf .bf16 x bitsLt_bf16_f32) shapeCasts_S64x10x11_S640x11)
      (transpose S11x9 [1, 0] w transposes_S9x11_p1_0_S11x9) (constant S640x9 .f32 0x00000000#32)) shapeCasts_S640x9_S64x10x9)
    (broadcastTo S64x10x9 (shapeCast S1x1x9 b shapeCasts_S1x9_S1x1x9) broadcasts_S1x1x9_S64x10x9)

/-- The affine map of the 2 tokens of width 11. -/
def linD (x : FVec Ideal S64x2x11 .f32) (w : FVec Ideal S9x11 .bf16) (b : FVec Ideal S1x9 .f32) : FVec Ideal S64x2x9 .f32 :=
  addf (shapeCast S64x2x9 (matmul dot_S128x11_S11x9_S128x9_1_0_0_1_n_n none
      (shapeCast S128x11 (truncf .bf16 x bitsLt_bf16_f32) shapeCasts_S64x2x11_S128x11)
      (transpose S11x9 [1, 0] w transposes_S9x11_p1_0_S11x9) (constant S128x9 .f32 0x00000000#32)) shapeCasts_S128x9_S64x2x9)
    (broadcastTo S64x2x9 (shapeCast S1x1x9 b shapeCasts_S1x9_S1x1x9) broadcasts_S1x1x9_S64x2x9)

/-- The four groups' results laid end to end along the token axis. -/
def cat (a : FVec Ideal S64x3x9 .f32) (b c : FVec Ideal S64x10x9 .f32) (d : FVec Ideal S64x2x9 .f32) : FVec Ideal S64x25x9 .f32 :=
  concatenate S64x25x9 1 [⟨S64x3x9, a⟩, ⟨S64x10x9, b⟩, ⟨S64x10x9, c⟩, ⟨S64x2x9, d⟩]
    concatenates_S64x3x9_S64x10x9_S64x10x9_S64x2x9_S64x25x9_d1

/-- Attention on a block: scores of keys against keys scaled by the named third, softmax over the last axis,
    the weights times the values plus the residuals, each token's mean taken off. -/
def centredV (K V R : FVec Ideal S64x25x9 .f32) : FVec Ideal S64x25x9 .f32 :=
  have v171 : FVec Ideal S64x25x9 .bf16 := truncf .bf16 K bitsLt_bf16_f32
  have cst_94 : FVec Ideal S64x25x25 .f32 := constant S64x25x25 .f32 0x00000000#32
  have v172 : FVec Ideal S64x25x25 .f32 := matmul dot_S64x25x9_S64x25x9_S64x25x25_2_2_1_1_0_0 none v171 v171 cst_94
  have cst_95 : Ideal .f32 := Named.named κ "inv_3" 0x3EAAAAAB#32
  have v173 : FVec Ideal S64x25x25 .f32 := broadcast S64x25x25 cst_95
  have v174 : FVec Ideal S64x25x25 .f32 := mulf v172 v173
  have v175 : FVec Ideal S64x25 .f32 := multiReduction .maximumf [2] S64x25 v174 0xFF800000#32 reduces_S64x25x25_S64x25 (.inl rfl) rfl
  have v176 : FVec Ideal S64x25x1 .f32 := shapeCast S64x25x1 v175 shapeCasts_S64x25_S64x25x1
  have v177 : FVec Ideal S64x25x25 .f32 := broadcastTo S64x25x25 v176 broadcasts_S64x25x1_S64x25x25
  have v178 : FVec Ideal S64x25x25 .f32 := subf v174 v177
  have v179 : FVec Ideal S64x25x25 .f32 := exp v178
  have v180 : FVec Ideal S64x25 .f32 := multiReduction .add [2] S64x25 v179 0x00000000#32 reduces_S64x25x25_S64x25 (.inl rfl) rfl
  have v181 : FVec Ideal S64x25x1 .f32 := shapeCast S64x25x1 v180 shapeCasts_S64x25_S64x25x1
  have v182 : FVec Ideal S64x25x25 .f32 := broadcastTo S64x25x25 v181 broadcasts_S64x25x1_S64x25x25
  have v183 : FVec Ideal S64x25x25 .f32 := divf v179 v182
  have v184 : FVec Ideal S64x25x25 .bf16 := truncf .bf16 v183 bitsLt_bf16_f32
  have v185 : FVec Ideal S64x25x9 .bf16 := truncf .bf16 V bitsLt_bf16_f32
  have cst_98 : FVec Ideal S64x25x9 .f32 := constant S64x25x9 .f32 0x00000000#32
  have v186 : FVec Ideal S64x25x9 .f32 := matmul dot_S64x25x25_S64x25x9_S64x25x9_2_1_1_2_0_0 none v184 v185 cst_98
  have v187 : FVec Ideal S64x25x9 .f32 := addf v186 R
  have v188 : FVec Ideal S64x25 .f32 := multiReduction .add [2] S64x25 v187 0x00000000#32 reduces_S64x25x9_S64x25 (.inl rfl) rfl
  have v189 : FVec Ideal S64x25x1 .f32 := shapeCast S64x25x1 v188 shapeCasts_S64x25_S64x25x1
  have cst_100 : Ideal .f32 := Scalar.ofBits .f32 0x41100000#32
  have v190 : FVec Ideal S64x25x1 .f32 := broadcast S64x25x1 cst_100
  have v191 : FVec Ideal S64x25x1 .f32 := divf v189 v190
  have v192 : FVec Ideal S64x25x9 .f32 := broadcastTo S64x25x9 v191 broadcasts_S64x25x1_S64x25x9
  subf v187 v192

/-- The last stage: the centred entries over the root of their mean square plus the small constant, scaled by one
    row and shifted by another. -/
def finishV (C : FVec Ideal S64x25x9 .f32) (g β : FVec Ideal S1x9 .f32) : FVec Ideal S64x25x9 .f32 :=
  have v194 : FVec Ideal S64x25x9 .f32 := mulf C C
  have v195 : FVec Ideal S64x25 .f32 := multiReduction .add [2] S64x25 v194 0x00000000#32 reduces_S64x25x9_S64x25 (.inl rfl) rfl
  have v196 : FVec Ideal S64x25x1 .f32 := shapeCast S64x25x1 v195 shapeCasts_S64x25_S64x25x1
  have cst_102 : Ideal .f32 := Scalar.ofBits .f32 0x41100000#32
  have v197 : FVec Ideal S64x25x1 .f32 := broadcast S64x25x1 cst_102
  have v198 : FVec Ideal S64x25x1 .f32 := divf v196 v197
  have cst_103 : Ideal .f32 := Scalar.ofBits .f32 0x3727C5AC#32
  have v199 : FVec Ideal S64x25x1 .f32 := broadcast S64x25x1 cst_103
  have v200 : FVec Ideal S64x25x1 .f32 := addf v198 v199
  have v201 : FVec Ideal S64x25x1 .f32 := rsqrt v200
  have v202 : FVec Ideal S64x25x9 .f32 := broadcastTo S64x25x9 v201 broadcasts_S64x25x1_S64x25x9
  have v203 : FVec Ideal S64x25x9 .f32 := mulf C v202
  have v206 : FVec Ideal S1x1x9 .f32 := shapeCast S1x1x9 g shapeCasts_S1x9_S1x1x9
  have v207 : FVec Ideal S64x25x9 .f32 := broadcastTo S64x25x9 v206 broadcasts_S1x1x9_S64x25x9
  have v208 : FVec Ideal S64x25x9 .f32 := mulf v203 v207
  have v211 : FVec Ideal S1x1x9 .f32 := shapeCast S1x1x9 β shapeCasts_S1x9_S1x1x9
  have v212 : FVec Ideal S64x25x9 .f32 := broadcastTo S64x25x9 v211 broadcasts_S1x1x9_S64x25x9
  addf v208 v212

end Cert.KernelIdeal.Stages

end
-- ==== Proof.KPayload.lean ====
/-
  The body's value is its stages composed: what the body leaves in the output block, as a function of the thirty
  input blocks, is the last stage of the attention stage of the three projections, each projection the four groups'
  affine maps laid end to end.  Nothing is computed here: the body's operations are regrouped, and the casts of a
  shape to itself dropped.
-/
import proofs.«406663_j42339787604121_3_alg».proof.Proof.KernelIdealFrame
import proofs.«406663_j42339787604121_3_alg».proof.Proof.KStages
import Idealize.ShloMosaic.Lib.Pipeline.Value

noncomputable section

namespace Cert.KernelIdeal.Payload

open Idealize.ShloMosaic Cert.KernelIdeal Cert.KernelIdeal.Gen Cert.KernelIdeal.GenP Cert.KernelIdeal.Stages

theorem hz3 : (![0, 0, 0] : Fin 3 → Nat) = fun _ => 0 := funext fun a => by fin_cases a <;> rfl
theorem hz2 : (![0, 0] : Fin 2 → Nat) = fun _ => 0 := funext fun a => by fin_cases a <;> rfl

/-! ## Each piece of the body is one stage (or part of one) -/

theorem pay2_eq (x : FVec Ideal S64x3x9 .f32) (w : FVec Ideal S9x9 .bf16) (b : FVec Ideal S1x9 .f32) :
    k0_pay2 (F := Ideal) x w b = linA x w b := by
  unfold k0_pay2 linA; simp only [shapeCast_self]
theorem pay8_eq (x : FVec Ideal S64x3x9 .f32) (w : FVec Ideal S9x9 .bf16) (b : FVec Ideal S1x9 .f32) :
    k0_pay8 (F := Ideal) x w b = linA x w b := by
  unfold k0_pay8 linA; simp only [shapeCast_self]
theorem pay11_eq (x : FVec Ideal S64x3x9 .f32) (w : FVec Ideal S9x9 .bf16) (b : FVec Ideal S1x9 .f32) :
    k0_pay11 (F := Ideal) x w b = linA x w b := by
  unfold k0_pay11 linA; simp only [shapeCast_self]
theorem pay3_eq (x : FVec Ideal S64x10x17 .f32) (w : FVec Ideal S9x17 .bf16) (b : FVec Ideal S1x9 .f32) :
    k0_pay3 (F := Ideal) x w b = linB x w b := by
  unfold k0_pay3 linB; simp only [shapeCast_self]
theorem pay12_eq (x : FVec Ideal S64x10x17 .f32) (w : FVec Ideal S9x17 .bf16) (b : FVec Ideal S1x9 .f32) :
    k0_pay12 (F := Ideal) x w b = linB x w b := by
  unfold k0_pay12 linB; simp only [shapeCast_self]

/-- The keys: the first two groups come in whole, the last two are finished here. -/
theorem pay7_eq (a : FVec Ideal S64x3x9 .f32) (b : FVec Ideal S64x10x9 .f32) (x2 : FVec Ideal S64x10x11 .f32)
    (w6 : FVec Ideal S9x11 .bf16) (b18 : FVec Ideal S1x9 .f32) (x3 : FVec Ideal S64x2x11 .f32) (w7 : FVec Ideal S9x11 .bf16)
    (b19 : FVec Ideal S1x9 .f32) :
    k0_pay7 (F := Ideal) a b (k0_pay4 w6) (k0_pay5 b18) (k0_pay6 x2) x3 w7 b19 = cat a b (linC x2 w6 b18) (linD x3 w7 b19) := by
  unfold k0_pay7 k0_pay4 k0_pay5 k0_pay6 cat linC linD
  dsimp only
  repeat rw [shapeCast_self]

/-- The values. -/
theorem pay10_eq (a : FVec Ideal S64x3x9 .f32) (x1 : FVec Ideal S64x10x17 .f32) (w9 : FVec Ideal S9x17 .bf16)
    (b21 : FVec Ideal S1x9 .f32) (x2 : FVec Ideal S64x10x11 .f32) (w10 : FVec Ideal S9x11 .bf16) (b22 : FVec Ideal S1x9 .f32)
    (x3 : FVec Ideal S64x2x11 .f32) (w11 : FVec Ideal S9x11 .bf16) (b23 : FVec Ideal S1x9 .f32) :
    k0_pay10 (F := Ideal) a (k0_pay9 x1) w9 b21 x2 w10 b22 x3 w11 b23
      = cat a (linB x1 w9 b21) (linC x2 w10 b22) (linD x3 w11 b23) := by
  unfold k0_pay10 k0_pay9 cat linB linC linD
  dsimp only
  repeat rw [shapeCast_self]

/-- The attention stage, its residuals finished inside it. -/
theorem pay16_eq (K V : FVec Ideal S64x25x9 .f32) (a : FVec Ideal S64x3x9 .f32) (b : FVec Ideal S64x10x9 .f32)
    (x2 : FVec Ideal S64x10x11 .f32) (w14 : FVec Ideal S9x11 .bf16) (b26 : FVec Ideal S1x9 .f32)
    (x3 : FVec Ideal S64x2x11 .f32) (w15 : FVec Ideal S9x11 .bf16) (b27 : FVec Ideal S1x9 .f32) :
    k0_pay16 (F := Ideal) K V a b (k0_pay13 b26) (k0_pay14 x2) (k0_pay15 w14) (constant S640x9 .f32 0x00000000#32) x3 w15 b27
      = centredV K V (cat a b (linC x2 w14 b26) (linD x3 w15 b27)) := by
  unfold k0_pay16 k0_pay13 k0_pay14 k0_pay15 centredV cat linC linD
  dsimp only
  repeat rw [shapeCast_self]

/-- The squares are of the attention stage's result. -/
theorem pay17_eq (K V : FVec Ideal S64x25x9 .f32) (a : FVec Ideal S64x3x9 .f32) (b : FVec Ideal S64x10x9 .f32)
    (p13 : FVec Ideal S1x9 .f32) (p14 : FVec Ideal S640x11 .bf16) (p15 : FVec Ideal S11x9 .bf16) (z : FVec Ideal S640x9 .f32)
    (x3 : FVec Ideal S64x2x11 .f32) (w15 : FVec Ideal S9x11 .bf16) (b27 : FVec Ideal S1x9 .f32) :
    k0_pay17 (F := Ideal) K V a b p13 p14 p15 z x3 w15 b27
      = mulf (k0_pay16 K V a b p13 p14 p15 z x3 w15 b27) (k0_pay16 K V a b p13 p14 p15 z x3 w15 b27) := by
  unfold k0_pay17; rfl

/-- The last stage. -/
theorem pay1_eq (C : FVec Ideal S64x25x9 .f32) (g β : FVec Ideal S1x9 .f32) :
    k0_pay1 (F := Ideal) C (mulf C C) g β = finishV C g β := by
  unfold k0_pay1 finishV; simp only [shapeCast_self]

/-! ## The body's value -/

theorem out_eq (x0 : Vec Ideal S64x3x9 .f32) (x1 : Vec Ideal S64x10x17 .f32) (x2 : Vec Ideal S64x10x11 .f32) (x3 : Vec Ideal S64x2x11 .f32) (x4 : Vec Ideal S9x9 .bf16) (x5 : Vec Ideal S9x17 .bf16) (x6 : Vec Ideal S9x11 .bf16) (x7 : Vec Ideal S9x11 .bf16) (x8 : Vec Ideal S9x9 .bf16) (x9 : Vec Ideal S9x17 .bf16) (x10 : Vec Ideal S9x11 .bf16) (x11 : Vec Ideal S9x11 .bf16) (x12 : Vec Ideal S9x9 .bf16) (x13 : Vec Ideal S9x17 .bf16) (x14 : Vec Ideal S9x11 .bf16) (x15 : Vec Ideal S9x11 .bf16) (x16 : Vec Ideal S1x9 .f32) (x17 : Vec Ideal S1x9 .f32) (x18 : Vec Ideal S1x9 .f32) (x19 : Vec Ideal S1x9 .f32) (x20 : Vec Ideal S1x9 .f32) (x21 : Vec Ideal S1x9 .f32) (x22 : Vec Ideal S1x9 .f32) (x23 : Vec Ideal S1x9 .f32) (x24 : Vec Ideal S1x9 .f32) (x25 : Vec Ideal S1x9 .f32) (x26 : Vec Ideal S1x9 .f32) (x27 : Vec Ideal S1x9 .f32) (x28 : Vec Ideal S1x9 .f32) (x29 : Vec Ideal S1x9 .f32) :
    out0_30 (F := Ideal) x0 x1 x2 x3 x4 x5 x6 x7 x8 x9 x10 x11 x12 x13 x14 x15 x16 x17 x18 x19 x20 x21 x22 x23 x24 x25 x26 x27 x28 x29
      = finishV (centredV (cat (linA x0 x4 x16) (linB x1 x5 x17) (linC x2 x6 x18) (linD x3 x7 x19))
        (cat (linA x0 x8 x20) (linB x1 x9 x21) (linC x2 x10 x22) (linD x3 x11 x23))
        (cat (linA x0 x12 x24) (linB x1 x13 x25) (linC x2 x14 x26) (linD x3 x15 x27))) x28 x29 := by
  unfold out0_30
  rw [View.canon_unit_zero hz3]
  simp only [View.ld_unit_zero (S := S64x3x9) hz3, View.ld_unit_zero (S := S64x10x17) hz3,
    View.ld_unit_zero (S := S64x10x11) hz3, View.ld_unit_zero (S := S64x2x11) hz3,
    View.ld_unit_zero (S := S9x9) hz2, View.ld_unit_zero (S := S9x17) hz2, View.ld_unit_zero (S := S9x11) hz2,
    View.ld_unit_zero (S := S1x9) hz2]
  rw [pay17_eq, pay2_eq, pay3_eq, pay8_eq, pay11_eq, pay12_eq, pay7_eq, pay10_eq, pay16_eq, pay1_eq]

end Cert.KernelIdeal.Payload

end
-- ==== Proof.RowMath.lean ====
/-
  The mathematics of one batch row, over the extended reals.

  A row of the input holds 25 tokens in four groups (3 of width 9, 10 of width 17, 10 of width 11,
  2 of width 11).  Each group goes through its own affine map into width 9, three times over
  (keys, values, residuals).  The keys attend to themselves: the score of tokens q and s is the
  inner product of their keys scaled by one third, a softmax over s turns scores into weights,
  the weights mix the values, and the residuals are added.  Each token's 9 outputs are then
  normalised to mean zero and unit variance (up to the small constant added under the root),
  scaled and shifted.

  Everything here is stated on plain functions of coordinates, so that a block of 64 rows and
  the whole array of 131072 rows read the same formula.
-/
import Idealize.ShloMosaic.PureOps.Ideal

noncomputable section

open scoped BigOperators

namespace Cert.RowMath

open Idealize.ShloMosaic

/-- The divisor of the two means: the word of 9.0, kept as the value its pattern denotes. -/
abbrev nine : EReal := Ideal.ofBits .f32 0x41100000#32
/-- The constant added to the variance under the root. -/
abbrev tiny : EReal := Ideal.ofBits .f32 0x3727C5AC#32

/-- An affine map applied to each of a group's tokens: the sum over the token's width of entry times weight, plus
    the bias. -/
def lin {N L : ℕ} (seg : Fin N → Fin L → EReal) (w : Fin 9 → Fin L → EReal) (b : Fin 9 → EReal)
    (n : Fin N) (k : Fin 9) : EReal :=
  (∑ d : Fin L, seg n d * w k d) + b k

/-- The four groups laid end to end along the token axis: 3 + 10 + 10 + 2 = 25. -/
def cat4 (a : Fin 3 → Fin 9 → EReal) (b c : Fin 10 → Fin 9 → EReal) (d : Fin 2 → Fin 9 → EReal)
    (n : Fin 25) (k : Fin 9) : EReal :=
  if h : n.val < 3 then a ⟨n.val, h⟩ k
  else if h2 : n.val < 13 then b ⟨n.val - 3, by omega⟩ k
  else if h3 : n.val < 23 then c ⟨n.val - 13, by omega⟩ k
  else d ⟨n.val - 23, by have := n.isLt; omega⟩ k

/-- The four groups of one row of 329 entries: where each token's entries sit in the row. -/
def grpA (xr : Fin 329 → EReal) (n : Fin 3) (d : Fin 9) : EReal :=
  xr ⟨n.val * 9 + d.val, by have := n.isLt; have := d.isLt; omega⟩
def grpB (xr : Fin 329 → EReal) (n : Fin 10) (d : Fin 17) : EReal :=
  xr ⟨27 + n.val * 17 + d.val, by have := n.isLt; have := d.isLt; omega⟩
def grpC (xr : Fin 329 → EReal) (n : Fin 10) (d : Fin 11) : EReal :=
  xr ⟨197 + n.val * 11 + d.val, by have := n.isLt; have := d.isLt; omega⟩
def grpD (xr : Fin 329 → EReal) (n : Fin 2) (d : Fin 11) : EReal :=
  xr ⟨307 + n.val * 11 + d.val, by have := n.isLt; have := d.isLt; omega⟩

/-- One of the three projections of a row: each group through its own affine map, the results laid end to end. -/
def proj (xr : Fin 329 → EReal)
    (wa : Fin 9 → Fin 9 → EReal) (ba : Fin 9 → EReal) (wb : Fin 9 → Fin 17 → EReal) (bb : Fin 9 → EReal)
    (wc : Fin 9 → Fin 11 → EReal) (bc : Fin 9 → EReal) (wd : Fin 9 → Fin 11 → EReal) (bd : Fin 9 → EReal) :
    Fin 25 → Fin 9 → EReal :=
  cat4 (lin (grpA xr) wa ba) (lin (grpB xr) wb bb) (lin (grpC xr) wc bc) (lin (grpD xr) wd bd)

/-- The score of tokens q and s: the inner product of their keys, times one third. -/
def score (K : Fin 25 → Fin 9 → EReal) (q s : Fin 25) : EReal :=
  (∑ k : Fin 9, K q k * K s k) * (((1 : ℝ) / 3 : ℝ) : EReal)

/-- The largest score of token q. -/
def top (S : Fin 25 → Fin 25 → EReal) (q : Fin 25) : EReal :=
  (Finset.univ : Finset (Fin 25)).fold max ⊥ (S q)

/-- The exponential of a score's distance below the row's largest. -/
def expo (S : Fin 25 → Fin 25 → EReal) (q s : Fin 25) : EReal := Ideal.exp (S q s - top S q)

/-- The softmax weight of s for q. -/
def weight (S : Fin 25 → Fin 25 → EReal) (q s : Fin 25) : EReal :=
  Ideal.div (expo S q s) (∑ s' : Fin 25, expo S q s')

/-- The weighted mix of the values plus the residual. -/
def mix (P : Fin 25 → Fin 25 → EReal) (V R : Fin 25 → Fin 9 → EReal) (q : Fin 25) (k : Fin 9) : EReal :=
  (∑ s : Fin 25, P q s * V s k) + R q k

/-- The mean of a token's 9 entries. -/
def mean (O : Fin 25 → Fin 9 → EReal) (q : Fin 25) : EReal := Ideal.div (∑ k : Fin 9, O q k) nine

/-- An entry's distance from its token's mean. -/
def cen (O : Fin 25 → Fin 9 → EReal) (q : Fin 25) (k : Fin 9) : EReal := O q k - mean O q

/-- From entries already centred: divide by the root of their mean square (plus the small constant), scale, shift. -/
def scaleShift (C : Fin 25 → Fin 9 → EReal) (g β : Fin 9 → EReal) (q : Fin 25) (k : Fin 9) : EReal :=
  C q k * Ideal.rsqrt (Ideal.div (∑ k' : Fin 9, C q k' * C q k') nine + tiny) * g k + β k

/-- The normalised entry, scaled and shifted. -/
def normed (O : Fin 25 → Fin 9 → EReal) (g β : Fin 9 → EReal) : Fin 25 → Fin 9 → EReal :=
  scaleShift (cen O) g β

/-- The centred output of attention: keys attend to keys, the weights mix the values, the residuals are added, and
    each token's mean is taken off. -/
def centred (K V R : Fin 25 → Fin 9 → EReal) : Fin 25 → Fin 9 → EReal :=
  cen (mix (weight (score K)) V R)

/-- Attention and normalisation of one row, from its keys, values and residuals. -/
def attend (K V R : Fin 25 → Fin 9 → EReal) (g β : Fin 9 → EReal) : Fin 25 → Fin 9 → EReal :=
  scaleShift (centred K V R) g β

/-- One of the three projections from the four groups themselves. -/
def projS (sa : Fin 3 → Fin 9 → EReal) (sb : Fin 10 → Fin 17 → EReal) (sc : Fin 10 → Fin 11 → EReal)
    (sd : Fin 2 → Fin 11 → EReal)
    (wa : Fin 9 → Fin 9 → EReal) (ba : Fin 9 → EReal) (wb : Fin 9 → Fin 17 → EReal) (bb : Fin 9 → EReal)
    (wc : Fin 9 → Fin 11 → EReal) (bc : Fin 9 → EReal) (wd : Fin 9 → Fin 11 → EReal) (bd : Fin 9 → EReal) :
    Fin 25 → Fin 9 → EReal :=
  cat4 (lin sa wa ba) (lin sb wb bb) (lin sc wc bc) (lin sd wd bd)

end Cert.RowMath

end
-- ==== Proof.KLin.lean ====
/-
  The affine stages of the kernel body read at an index: entry (r, n, k) of a group's result is the sum over the
  token's width of entry (r, n, d) of the block times weight (k, d), plus bias k; and the four results laid end to
  end read, at token n, the group that n falls in.
-/
import proofs.«406663_j42339787604121_3_alg».proof.Proof.KStages
import proofs.«406663_j42339787604121_3_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StackMember

noncomputable section

open scoped BigOperators

namespace Cert.KernelIdeal.Stages

open Idealize.ShloMosaic Idealize.ShloMosaic.ValueIdx Cert.KernelIdeal Cert.RowMath

/-- A block of rows times a matrix, accumulated from zero, read at row a and column b: the sum over the shared
    width of entry (a, c) of the block times entry (c, b) of the matrix.  (Accumulated from zero the body's product
    is the plain product, and the plain product read at an index is this sum.) -/
theorem rows_matmul_apply {M L N : ℕ} {φ₁ φ₂ : FTy} (D : DotDims ⟨2, ![M, L]⟩ ⟨2, ![L, N]⟩ ⟨2, ![M, N]⟩)
    (hD : D = DotDims.plain M L N) (A : FVec Ideal ⟨2, ![M, L]⟩ φ₁) (B : FVec Ideal ⟨2, ![L, N]⟩ φ₂)
    (a : Fin M) (b : Fin N) :
    matmul D none A B (constant ⟨2, ![M, N]⟩ .f32 0x00000000#32) (ix2 a b) = ∑ c : Fin L, A (ix2 a c) * B (ix2 c b) := by
  subst hD
  rw [matmul_zero_eq_dotGeneral]
  exact StackMember.dotGeneral_plain_apply none A B a b

/-- The affine map of a block of 64 rows of N tokens of width L, as the body computes it: the block's 64 x N tokens
    as M = 64 N rows, times the transposed weights, accumulated from zero, cut back into rows of N tokens, plus the
    bias row laid along every token.  Entry (r, n, k) is the sum over the width of entry (r, n, d) times weight
    (k, d), plus bias k. -/
theorem lin_block_apply {N L M : ℕ} (hM : M = 64 * N)
    (D : DotDims ⟨2, ![M, L]⟩ ⟨2, ![L, 9]⟩ ⟨2, ![M, 9]⟩) (hD : D = DotDims.plain M L 9)
    (hb : FTy.bf16.bits < FTy.f32.bits)
    (h₁ : (⟨3, ![64, N, L]⟩ : Shape).ShapeCasts ⟨2, ![M, L]⟩)
    (h₂ : (⟨2, ![9, L]⟩ : Shape).Transposes [1, 0] ⟨2, ![L, 9]⟩)
    (h₃ : (⟨2, ![M, 9]⟩ : Shape).ShapeCasts ⟨3, ![64, N, 9]⟩)
    (h₄ : S1x9.ShapeCasts S1x1x9) (h₅ : S1x1x9.Broadcasts ⟨3, ![64, N, 9]⟩)
    (x : FVec Ideal ⟨3, ![64, N, L]⟩ .f32) (w : FVec Ideal ⟨2, ![9, L]⟩ .bf16) (b : FVec Ideal S1x9 .f32)
    (r : Fin 64) (n : Fin N) (k : Fin 9) :
    addf (shapeCast ⟨3, ![64, N, 9]⟩ (matmul D none (shapeCast ⟨2, ![M, L]⟩ (truncf .bf16 x hb) h₁)
        (transpose ⟨2, ![L, 9]⟩ [1, 0] w h₂) (constant ⟨2, ![M, 9]⟩ .f32 0x00000000#32)) h₃)
      (broadcastTo ⟨3, ![64, N, 9]⟩ (shapeCast S1x1x9 b h₄) h₅) (ix3 r n k)
      = lin (fun n d => x (ix3 r n d)) (fun k d => w (ix2 k d)) (fun k => b (ix2 (0 : Fin 1) k)) n k := by
  subst hM
  -- token n of row r is row r N + n of the 64 N rows
  have hi : r.val * N + n.val < 64 * N :=
    Nat.lt_of_lt_of_le (Nat.add_lt_add_left n.isLt _) (by rw [← Nat.succ_mul]; exact Nat.mul_le_mul_right N r.isLt)
  unfold lin
  rw [addf_apply]
  refine congrArg₂ (· + ·) ?_ ?_
  · -- the product: cut back into tokens, then read as a sum over the width
    refine (shapeCast_apply _ h₃ (ix3 r n k) (ix2 ⟨r.val * N + n.val, hi⟩ k) ?_).trans ?_
    · rw [Shape.rowMajor_val_two, Shape.rowMajor_val_three]; rfl
    refine (rows_matmul_apply D hD _ _ _ _).trans ?_
    refine Finset.sum_congr rfl fun d _ => ?_
    refine congrArg₂ (· * ·) ?_ ?_
    · -- the block's row r N + n is token n of row r; the change of format keeps the entry
      refine (shapeCast_apply _ h₁ _ (ix3 r n d) ?_).trans rfl
      rw [Shape.rowMajor_val_two, Shape.rowMajor_val_three]; rfl
    · -- the transposed weights at (d, k) are the weights at (k, d)
      exact transpose_ix2_apply w h₂ d k
  · -- the bias row is the same for every row and token
    refine (broadcastTo_apply _ h₅ (ix3 r n k) (ix3 (0 : Fin 1) (0 : Fin 1) k) ?_).trans ?_
    · intro a; match a with | ⟨0, _⟩ => rfl | ⟨1, _⟩ => rfl | ⟨2, _⟩ => rfl
    · exact shapeCast_ab_1ab_apply b h₄ 0 0 k

theorem linA_apply (x : FVec Ideal S64x3x9 .f32) (w : FVec Ideal S9x9 .bf16) (b : FVec Ideal S1x9 .f32)
    (r : Fin 64) (n : Fin 3) (k : Fin 9) :
    linA x w b (ix3 r n k)
      = lin (fun n d => x (ix3 r n d)) (fun k d => w (ix2 k d)) (fun k => b (ix2 (0 : Fin 1) k)) n k :=
  -- 64 x 3 tokens of width 9 as 192 rows
  lin_block_apply rfl _ rfl _ _ _ _ _ _ x w b r n k

theorem linB_apply (x : FVec Ideal S64x10x17 .f32) (w : FVec Ideal S9x17 .bf16) (b : FVec Ideal S1x9 .f32)
    (r : Fin 64) (n : Fin 10) (k : Fin 9) :
    linB x w b (ix3 r n k)
      = lin (fun n d => x (ix3 r n d)) (fun k d => w (ix2 k d)) (fun k => b (ix2 (0 : Fin 1) k)) n k :=
  -- 64 x 10 tokens of width 17 as 640 rows
  lin_block_apply rfl _ rfl _ _ _ _ _ _ x w b r n k

theorem linC_apply (x : FVec Ideal S64x10x11 .f32) (w : FVec Ideal S9x11 .bf16) (b : FVec Ideal S1x9 .f32)
    (r : Fin 64) (n : Fin 10) (k : Fin 9) :
    linC x w b (ix3 r n k)
      = lin (fun n d => x (ix3 r n d)) (fun k d => w (ix2 k d)) (fun k => b (ix2 (0 : Fin 1) k)) n k :=
  -- 64 x 10 tokens of width 11 as 640 rows
  lin_block_apply rfl _ rfl _ _ _ _ _ _ x w b r n k

theorem linD_apply (x : FVec Ideal S64x2x11 .f32) (w : FVec Ideal S9x11 .bf16) (b : FVec Ideal S1x9 .f32)
    (r : Fin 64) (n : Fin 2) (k : Fin 9) :
    linD x w b (ix3 r n k)
      = lin (fun n d => x (ix3 r n d)) (fun k d => w (ix2 k d)) (fun k => b (ix2 (0 : Fin 1) k)) n k :=
  -- 64 x 2 tokens of width 11 as 128 rows
  lin_block_apply rfl _ rfl _ _ _ _ _ _ x w b r n k

/-- Off the token axis, index (r, m, k) of a group of N tokens and index (r, n, k) of the 25 tokens have the same
    coordinates: the row and the entry. -/
theorem off_token_axis {N : ℕ} (r : Fin 64) (m : Fin N) (n : Fin 25) (k : Fin 9)
    (hr : (⟨3, ![64, N, 9]⟩ : Shape).rank = S64x25x9.rank) (e : Fin (⟨3, ![64, N, 9]⟩ : Shape).rank)
    (he : e.cast hr ≠ 1) :
    ((ix3 r m k : (⟨3, ![64, N, 9]⟩ : Shape).Idx) e).val = ((ix3 r n k : S64x25x9.Idx) (e.cast hr)).val := by
  match e, he with
  | ⟨0, _⟩, _ => rfl
  | ⟨1, _⟩, he => exact absurd (Fin.ext rfl) he
  | ⟨2, _⟩, _ => rfl

theorem cat_apply (a : FVec Ideal S64x3x9 .f32) (b c : FVec Ideal S64x10x9 .f32) (d : FVec Ideal S64x2x9 .f32)
    (r : Fin 64) (n : Fin 25) (k : Fin 9) :
    cat a b c d (ix3 r n k)
      = cat4 (fun n k => a (ix3 r n k)) (fun n k => b (ix3 r n k)) (fun n k => c (ix3 r n k))
          (fun n k => d (ix3 r n k)) n k := by
  unfold cat cat4
  by_cases h1 : n.val < 3
  · -- the first group: tokens 0, 1, 2, with nothing before them
    rw [dif_pos h1]
    refine concatenate_apply_piece (t := S64x25x9) 1 _ _ (ix3 r n k) 0 ?_ S64x3x9 a rfl rfl 0 rfl
      (ix3 r ⟨n.val, h1⟩ k) (off_token_axis (N := 3) r _ n k rfl) ?_
    · show 0 < 4
      omega
    · show 0 + n.val = n.val
      omega
  · rw [dif_neg h1]
    by_cases h2 : n.val < 13
    · -- the second group: tokens 3 to 12, after the first group's 3
      rw [dif_pos h2]
      refine concatenate_apply_piece (t := S64x25x9) 1 _ _ (ix3 r n k) 1 ?_ S64x10x9 b rfl rfl 3 rfl
        (ix3 r ⟨n.val - 3, by omega⟩ k) (off_token_axis (N := 10) r _ n k rfl) ?_
      · show 1 < 4
        omega
      · show 3 + (n.val - 3) = n.val
        omega
    · rw [dif_neg h2]
      by_cases h3 : n.val < 23
      · -- the third group: tokens 13 to 22, after 3 + 10
        rw [dif_pos h3]
        refine concatenate_apply_piece (t := S64x25x9) 1 _ _ (ix3 r n k) 2 ?_ S64x10x9 c rfl rfl 13 rfl
          (ix3 r ⟨n.val - 13, by omega⟩ k) (off_token_axis (N := 10) r _ n k rfl) ?_
        · show 2 < 4
          omega
        · show 13 + (n.val - 13) = n.val
          omega
      · -- the last group: tokens 23 and 24, after 3 + 10 + 10
        rw [dif_neg h3]
        have hn := n.isLt
        refine concatenate_apply_piece (t := S64x25x9) 1 _ _ (ix3 r n k) 3 ?_ S64x2x9 d rfl rfl 23 rfl
          (ix3 r ⟨n.val - 23, by omega⟩ k) (off_token_axis (N := 2) r _ n k rfl) ?_
        · show 3 < 4
          omega
        · show 23 + (n.val - 23) = n.val
          omega

end Cert.KernelIdeal.Stages

end
-- ==== Proof.KAttn.lean ====
/-
  The attention stage and the last stage of the kernel body read at an index: row r of the block goes through
  the row's own formula, with the row's keys, values and residuals.
-/
import proofs.«406663_j42339787604121_3_alg».proof.Proof.KStages
import proofs.«406663_j42339787604121_3_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.PureOps.IdealRules

noncomputable section

open scoped BigOperators

namespace Cert.KernelIdeal.Stages

open Idealize.ShloMosaic Idealize.ShloMosaic.ValueIdx Cert.KernelIdeal Cert.RowMath

/-! ## The two batched products: operand indices by coordinates, and the sums they read -/

/-- The left operand's index of the scores' product at output (r, q, s): (r, q, k), k the contraction coordinate. -/
private theorem dotS_lhsIdx (r : Fin 64) (q s : Fin 25) (kk : dot_S64x25x9_S64x25x9_S64x25x25_2_2_1_1_0_0.contr.Idx) :
    dot_S64x25x9_S64x25x9_S64x25x25_2_2_1_1_0_0.lhsIdx (ix3 r q s) kk
      = ix3 r q (contrEquiv1 dot_S64x25x9_S64x25x9_S64x25x25_2_2_1_1_0_0 9 rfl rfl kk) := by
  funext a
  match a with
  | ⟨0, _⟩ => rfl
  | ⟨1, _⟩ => rfl
  | ⟨2, _⟩ => rfl

/-- The right operand's index there: (r, s, k). -/
private theorem dotS_rhsIdx (r : Fin 64) (q s : Fin 25) (kk : dot_S64x25x9_S64x25x9_S64x25x25_2_2_1_1_0_0.contr.Idx) :
    dot_S64x25x9_S64x25x9_S64x25x25_2_2_1_1_0_0.rhsIdx (ix3 r q s) kk
      = ix3 r s (contrEquiv1 dot_S64x25x9_S64x25x9_S64x25x25_2_2_1_1_0_0 9 rfl rfl kk) := by
  funext a
  match a with
  | ⟨0, _⟩ => rfl
  | ⟨1, _⟩ => rfl
  | ⟨2, _⟩ => rfl

/-- The batched product of keys against keys into the zero splat, at (r, q, s): the inner product of row r's
    keys of tokens q and s. -/
private theorem scores_apply (A B : FVec Ideal S64x25x9 .bf16) (r : Fin 64) (q s : Fin 25) :
    matmul dot_S64x25x9_S64x25x9_S64x25x25_2_2_1_1_0_0 none A B (constant S64x25x25 .f32 0x00000000#32) (ix3 r q s)
      = ∑ k : Fin 9, A (ix3 r q k) * B (ix3 r s k) := by
  refine (Ideal.matmul_constant_zero_apply dot_S64x25x9_S64x25x9_S64x25x25_2_2_1_1_0_0 none A B (ix3 r q s)).trans ?_
  rw [← Equiv.sum_comp (contrEquiv1 dot_S64x25x9_S64x25x9_S64x25x25_2_2_1_1_0_0 9 rfl rfl)
    (fun k : Fin 9 => A (ix3 r q k) * B (ix3 r s k))]
  refine Finset.sum_congr rfl fun kk _ => ?_
  show A (dot_S64x25x9_S64x25x9_S64x25x25_2_2_1_1_0_0.lhsIdx (ix3 r q s) kk)
      * B (dot_S64x25x9_S64x25x9_S64x25x25_2_2_1_1_0_0.rhsIdx (ix3 r q s) kk) = _
  rw [dotS_lhsIdx, dotS_rhsIdx]

/-- The left operand's index of the weights-times-values product at output (r, q, k): (r, q, s), s the contraction
    coordinate. -/
private theorem dotP_lhsIdx (r : Fin 64) (q : Fin 25) (k : Fin 9) (ss : dot_S64x25x25_S64x25x9_S64x25x9_2_1_1_2_0_0.contr.Idx) :
    dot_S64x25x25_S64x25x9_S64x25x9_2_1_1_2_0_0.lhsIdx (ix3 r q k) ss
      = ix3 r q (contrEquiv1 dot_S64x25x25_S64x25x9_S64x25x9_2_1_1_2_0_0 25 rfl rfl ss) := by
  funext a
  match a with
  | ⟨0, _⟩ => rfl
  | ⟨1, _⟩ => rfl
  | ⟨2, _⟩ => rfl

/-- The right operand's index there: (r, s, k). -/
private theorem dotP_rhsIdx (r : Fin 64) (q : Fin 25) (k : Fin 9) (ss : dot_S64x25x25_S64x25x9_S64x25x9_2_1_1_2_0_0.contr.Idx) :
    dot_S64x25x25_S64x25x9_S64x25x9_2_1_1_2_0_0.rhsIdx (ix3 r q k) ss
      = ix3 r (contrEquiv1 dot_S64x25x25_S64x25x9_S64x25x9_2_1_1_2_0_0 25 rfl rfl ss) k := by
  funext a
  match a with
  | ⟨0, _⟩ => rfl
  | ⟨1, _⟩ => rfl
  | ⟨2, _⟩ => rfl

/-- The batched product of weights and values into the zero splat, at (r, q, k): row r's weights of token q against
    the values' column k. -/
private theorem mixdot_apply (P : FVec Ideal S64x25x25 .bf16) (W : FVec Ideal S64x25x9 .bf16) (r : Fin 64) (q : Fin 25) (k : Fin 9) :
    matmul dot_S64x25x25_S64x25x9_S64x25x9_2_1_1_2_0_0 none P W (constant S64x25x9 .f32 0x00000000#32) (ix3 r q k)
      = ∑ s : Fin 25, P (ix3 r q s) * W (ix3 r s k) := by
  refine (Ideal.matmul_constant_zero_apply dot_S64x25x25_S64x25x9_S64x25x9_2_1_1_2_0_0 none P W (ix3 r q k)).trans ?_
  rw [← Equiv.sum_comp (contrEquiv1 dot_S64x25x25_S64x25x9_S64x25x9_2_1_1_2_0_0 25 rfl rfl)
    (fun s : Fin 25 => P (ix3 r q s) * W (ix3 r s k))]
  refine Finset.sum_congr rfl fun ss _ => ?_
  show P (dot_S64x25x25_S64x25x9_S64x25x9_2_1_1_2_0_0.lhsIdx (ix3 r q k) ss)
      * W (dot_S64x25x25_S64x25x9_S64x25x9_2_1_1_2_0_0.rhsIdx (ix3 r q k) ss) = _
  rw [dotP_lhsIdx, dotP_rhsIdx]

/-! ## Layout steps and reductions read at explicit coordinates -/

/-- The word of minus infinity denotes the bottom of the extended reals. -/
private theorem ofBits_neg_inf : Ideal.ofBits .f32 0xFF800000#32 = ⊥ := by
  simp [Ideal.ofBits, Ideal.ieee]

/-- A [64,25] array seen as [64,25,1], read at (r, q, 0): the entry (r, q). -/
private theorem cast1_apply {α : Type} (v : S64x25.Idx → α) (hc : S64x25.ShapeCasts S64x25x1) (r : Fin 64) (q : Fin 25) (z : Fin 1) :
    shapeCast S64x25x1 v hc (ix3 r q z) = v (ix2 r q) := by
  refine shapeCast_apply v hc (ix3 r q z) (ix2 r q) ?_
  rw [Shape.rowMajor_val_two, Shape.rowMajor_val_three]
  show r.val * 25 + q.val = (r.val * 25 + q.val) * 1 + z.val
  omega

/-- A [64,25,1] array spread along a last axis of 25, read at (r, q, s): the entry (r, q, 0). -/
private theorem bcast25_apply {α : Type} (w : S64x25x1.Idx → α) (hb : S64x25x1.Broadcasts S64x25x25) (r : Fin 64) (q s : Fin 25) :
    broadcastTo S64x25x25 w hb (ix3 r q s) = w (ix3 r q (0 : Fin 1)) := by
  refine broadcastTo_apply w hb (ix3 r q s) (ix3 r q (0 : Fin 1)) fun a => ?_
  match a with
  | ⟨0, _⟩ => rfl
  | ⟨1, _⟩ => rfl
  | ⟨2, _⟩ => rfl

/-- The same along a last axis of 9. -/
private theorem bcast9_apply {α : Type} (w : S64x25x1.Idx → α) (hb : S64x25x1.Broadcasts S64x25x9) (r : Fin 64) (q : Fin 25) (k : Fin 9) :
    broadcastTo S64x25x9 w hb (ix3 r q k) = w (ix3 r q (0 : Fin 1)) := by
  refine broadcastTo_apply w hb (ix3 r q k) (ix3 r q (0 : Fin 1)) fun a => ?_
  match a with
  | ⟨0, _⟩ => rfl
  | ⟨1, _⟩ => rfl
  | ⟨2, _⟩ => rfl

/-- The source index of a reduction over the last axis of [64,25,n], over (r, q) with coordinate s inserted. -/
private theorem lift_last {n : Nat} (h : (⟨3, ![64, 25, n]⟩ : Shape).Reduces [2] S64x25) (r : Fin 64) (q : Fin 25) (s : Fin n) :
    h.lift (ix2 r q) s = ix3 r q s := by
  funext a
  match a with
  | ⟨0, _⟩ => exact Fin.ext rfl
  | ⟨1, _⟩ => exact Fin.ext rfl
  | ⟨2, _⟩ => exact Fin.ext rfl

/-- The maximum over the last axis at (r, q): the largest of that row's 25 entries, starting from the bottom. -/
private theorem rowMax_apply (S : FVec Ideal S64x25x25 .f32) (h : S64x25x25.Reduces [2] S64x25) (hφ : FKind.Formats .f32)
    (hacc : (0xFF800000#32 : BitVec FTy.f32.bits) = FKind.maximumf.neutral .f32 hφ) (r : Fin 64) (q : Fin 25) :
    multiReduction (F := Ideal) .maximumf [2] S64x25 S 0xFF800000#32 h hφ hacc (ix2 r q)
      = (Finset.univ : Finset (Fin 25)).fold max ⊥ (fun s => S (ix3 r q s)) := by
  refine (Ideal.multiReduction_maximumf_single S _ h hφ hacc (ix2 r q)).trans ?_
  show (Finset.univ : Finset (Fin 25)).fold max (Ideal.ofBits .f32 0xFF800000#32) (S ∘ h.lift (ix2 r q)) = _
  rw [ofBits_neg_inf]
  have hf : (S ∘ h.lift (ix2 r q)) = fun s : Fin 25 => S (ix3 r q s) :=
    funext fun s => congrArg S (lift_last h r q s)
  exact congrArg (fun f => (Finset.univ : Finset (Fin 25)).fold max ⊥ f) hf

/-- The sum over the last axis of [64,25,25] at (r, q): the sum of that row's 25 entries. -/
private theorem rowSum25_apply (S : FVec Ideal S64x25x25 .f32) (h : S64x25x25.Reduces [2] S64x25) (hφ : FKind.Formats .f32)
    (hacc : (0x00000000#32 : BitVec FTy.f32.bits) = FKind.add.neutral .f32 hφ) (r : Fin 64) (q : Fin 25) :
    multiReduction (F := Ideal) .add [2] S64x25 S 0x00000000#32 h hφ hacc (ix2 r q) = ∑ s : Fin 25, S (ix3 r q s) := by
  refine (Ideal.multiReduction_add_single S _ h hφ hacc (ix2 r q)).trans ?_
  exact Finset.sum_congr rfl fun s _ => congrArg S (lift_last h r q s)

/-- The sum over the last axis of [64,25,9] at (r, q): the sum of that token's 9 entries. -/
private theorem rowSum9_apply (O : FVec Ideal S64x25x9 .f32) (h : S64x25x9.Reduces [2] S64x25) (hφ : FKind.Formats .f32)
    (hacc : (0x00000000#32 : BitVec FTy.f32.bits) = FKind.add.neutral .f32 hφ) (r : Fin 64) (q : Fin 25) :
    multiReduction (F := Ideal) .add [2] S64x25 O 0x00000000#32 h hφ hacc (ix2 r q) = ∑ k : Fin 9, O (ix3 r q k) := by
  refine (Ideal.multiReduction_add_single O _ h hφ hacc (ix2 r q)).trans ?_
  exact Finset.sum_congr rfl fun k _ => congrArg O (lift_last h r q k)

/-! ## The steps of the stage, each at (r, q, ·) -/

/-- Scores: the inner product of row r's keys of tokens q and s, times the named third. -/
private theorem scoreV_apply (K : FVec Ideal S64x25x9 .f32) (hlt : FTy.bits .bf16 < FTy.bits .f32) (r : Fin 64) (q s : Fin 25) :
    mulf (matmul dot_S64x25x9_S64x25x9_S64x25x25_2_2_1_1_0_0 none (truncf .bf16 K hlt) (truncf .bf16 K hlt)
        (constant S64x25x25 .f32 0x00000000#32))
      (broadcast S64x25x25 (Named.named (F := Ideal) κ "inv_3" (φ := .f32) 0x3EAAAAAB#32)) (ix3 r q s)
      = score (fun q k => K (ix3 r q k)) q s := by
  show matmul dot_S64x25x9_S64x25x9_S64x25x25_2_2_1_1_0_0 none (truncf .bf16 K hlt) (truncf .bf16 K hlt)
        (constant S64x25x25 .f32 0x00000000#32) (ix3 r q s)
      * Named.named (F := Ideal) κ "inv_3" (φ := .f32) 0x3EAAAAAB#32 = _
  rw [scores_apply, IdealRules.named_const.ideal_named_scalar _ _ _ _ rfl]
  rfl

/-- The exponential of each score's distance below its row's largest. -/
private theorem expoV_apply (S : FVec Ideal S64x25x25 .f32) (h : S64x25x25.Reduces [2] S64x25) (hφ : FKind.Formats .f32)
    (hacc : (0xFF800000#32 : BitVec FTy.f32.bits) = FKind.maximumf.neutral .f32 hφ)
    (hc : S64x25.ShapeCasts S64x25x1) (hb : S64x25x1.Broadcasts S64x25x25) (r : Fin 64) (q s : Fin 25) :
    exp (subf S (broadcastTo S64x25x25
        (shapeCast S64x25x1 (multiReduction (F := Ideal) .maximumf [2] S64x25 S 0xFF800000#32 h hφ hacc) hc) hb)) (ix3 r q s)
      = expo (fun q s => S (ix3 r q s)) q s := by
  show Ideal.exp (S (ix3 r q s) - broadcastTo S64x25x25
        (shapeCast S64x25x1 (multiReduction (F := Ideal) .maximumf [2] S64x25 S 0xFF800000#32 h hφ hacc) hc) hb (ix3 r q s)) = _
  rw [bcast25_apply, cast1_apply, rowMax_apply]
  rfl

/-- Each entry over its row's sum. -/
private theorem normV_apply (E : FVec Ideal S64x25x25 .f32) (h : S64x25x25.Reduces [2] S64x25) (hφ : FKind.Formats .f32)
    (hacc : (0x00000000#32 : BitVec FTy.f32.bits) = FKind.add.neutral .f32 hφ)
    (hc : S64x25.ShapeCasts S64x25x1) (hb : S64x25x1.Broadcasts S64x25x25) (r : Fin 64) (q s : Fin 25) :
    divf E (broadcastTo S64x25x25
        (shapeCast S64x25x1 (multiReduction (F := Ideal) .add [2] S64x25 E 0x00000000#32 h hφ hacc) hc) hb) (ix3 r q s)
      = Ideal.div (E (ix3 r q s)) (∑ s' : Fin 25, E (ix3 r q s')) := by
  show Ideal.div (E (ix3 r q s)) (broadcastTo S64x25x25
        (shapeCast S64x25x1 (multiReduction (F := Ideal) .add [2] S64x25 E 0x00000000#32 h hφ hacc) hc) hb (ix3 r q s)) = _
  rw [bcast25_apply, cast1_apply, rowSum25_apply]

/-- The weights against the values, plus the residuals. -/
private theorem mixV_apply (P : FVec Ideal S64x25x25 .f32) (V R : FVec Ideal S64x25x9 .f32) (hlt : FTy.bits .bf16 < FTy.bits .f32)
    (r : Fin 64) (q : Fin 25) (k : Fin 9) :
    addf (matmul dot_S64x25x25_S64x25x9_S64x25x9_2_1_1_2_0_0 none (truncf .bf16 P hlt) (truncf .bf16 V hlt)
        (constant S64x25x9 .f32 0x00000000#32)) R (ix3 r q k)
      = mix (fun q s => P (ix3 r q s)) (fun s k => V (ix3 r s k)) (fun q k => R (ix3 r q k)) q k := by
  show matmul dot_S64x25x25_S64x25x9_S64x25x9_2_1_1_2_0_0 none (truncf .bf16 P hlt) (truncf .bf16 V hlt)
        (constant S64x25x9 .f32 0x00000000#32) (ix3 r q k) + R (ix3 r q k) = _
  rw [mixdot_apply]
  rfl

/-- Each entry less its token's mean: the sum of the token's 9 entries over the word of nine. -/
private theorem cenV_apply (O : FVec Ideal S64x25x9 .f32) (h : S64x25x9.Reduces [2] S64x25) (hφ : FKind.Formats .f32)
    (hacc : (0x00000000#32 : BitVec FTy.f32.bits) = FKind.add.neutral .f32 hφ)
    (hc : S64x25.ShapeCasts S64x25x1) (hb : S64x25x1.Broadcasts S64x25x9) (r : Fin 64) (q : Fin 25) (k : Fin 9) :
    subf O (broadcastTo S64x25x9
        (divf (shapeCast S64x25x1 (multiReduction (F := Ideal) .add [2] S64x25 O 0x00000000#32 h hφ hacc) hc)
          (broadcast S64x25x1 (Scalar.ofBits (F := Ideal) .f32 0x41100000#32))) hb) (ix3 r q k)
      = cen (fun q k => O (ix3 r q k)) q k := by
  show O (ix3 r q k) - broadcastTo S64x25x9
        (divf (shapeCast S64x25x1 (multiReduction (F := Ideal) .add [2] S64x25 O 0x00000000#32 h hφ hacc) hc)
          (broadcast S64x25x1 (Scalar.ofBits (F := Ideal) .f32 0x41100000#32))) hb (ix3 r q k) = _
  rw [bcast9_apply]
  show O (ix3 r q k) - Ideal.div
        (shapeCast S64x25x1 (multiReduction (F := Ideal) .add [2] S64x25 O 0x00000000#32 h hφ hacc) hc (ix3 r q (0 : Fin 1)))
        (Ideal.ofBits .f32 0x41100000#32) = _
  rw [cast1_apply, rowSum9_apply]
  rfl

/-- The softmax weights: each exponential over its row's sum of exponentials. -/
private theorem weightV_apply (S : FVec Ideal S64x25x25 .f32) (h : S64x25x25.Reduces [2] S64x25) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : S64x25.ShapeCasts S64x25x1) (hb : S64x25x1.Broadcasts S64x25x25) (r : Fin 64) (q s : Fin 25) :
    divf (exp (subf S (broadcastTo S64x25x25
          (shapeCast S64x25x1 (multiReduction (F := Ideal) .maximumf [2] S64x25 S 0xFF800000#32 h hφ hmax) hc) hb)))
        (broadcastTo S64x25x25
          (shapeCast S64x25x1 (multiReduction (F := Ideal) .add [2] S64x25
            (exp (subf S (broadcastTo S64x25x25
              (shapeCast S64x25x1 (multiReduction (F := Ideal) .maximumf [2] S64x25 S 0xFF800000#32 h hφ hmax) hc) hb)))
            0x00000000#32 h hφ hadd) hc) hb) (ix3 r q s)
      = weight (fun q s => S (ix3 r q s)) q s := by
  refine (normV_apply _ h hφ hadd hc hb r q s).trans ?_
  rw [expoV_apply S h hφ hmax hc hb r q s]
  exact congrArg (Ideal.div (expo (fun q s => S (ix3 r q s)) q s))
    (Finset.sum_congr rfl fun s' _ => expoV_apply S h hφ hmax hc hb r q s')

/-! ## The stage -/
theorem centredV_apply (K V R : FVec Ideal S64x25x9 .f32) (r : Fin 64) (q : Fin 25) (k : Fin 9) :
    centredV K V R (ix3 r q k)
      = centred (fun q k => K (ix3 r q k)) (fun s k => V (ix3 r s k)) (fun q k => R (ix3 r q k)) q k := by
  unfold centredV
  -- the last step is the centring of the mixed values …
  refine (cenV_apply _ _ _ _ _ _ r q k).trans ?_
  show cen _ q k = cen (mix (weight (score fun q k => K (ix3 r q k))) (fun s k => V (ix3 r s k)) fun q k => R (ix3 r q k)) q k
  refine congrArg (fun O => cen O q k) (funext fun q₁ => funext fun k₁ => ?_)
  -- … which are the weights against the values plus the residuals …
  refine (mixV_apply _ V R _ r q₁ k₁).trans ?_
  refine congrArg (fun P => mix P (fun s k => V (ix3 r s k)) (fun q k => R (ix3 r q k)) q₁ k₁)
    (funext fun q₂ => funext fun s₂ => ?_)
  -- … the weights the softmax of the scores …
  refine (weightV_apply _ _ _ _ _ _ _ r q₂ s₂).trans ?_
  refine congrArg (fun S => weight S q₂ s₂) (funext fun q₃ => funext fun s₃ => ?_)
  -- … and the scores the scaled inner products of the keys.
  exact scoreV_apply K _ r q₃ s₃

end Cert.KernelIdeal.Stages

end
-- ==== Proof.KFinish.lean ====
/-
  The last stage of the kernel body read at an index: the centred entry over the root of its token's mean square
  (plus the small constant), times the scale row, plus the shift row.
-/
import proofs.«406663_j42339787604121_3_alg».proof.Proof.KStages
import proofs.«406663_j42339787604121_3_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.KernelIdeal.Stages

open Idealize.ShloMosaic Idealize.ShloMosaic.ValueIdx Cert.KernelIdeal Cert.RowMath

section Pieces

open Cert.KernelIdeal.Gen

/-- The sum of squares of token (r, q): the reduction over the last axis, read at (r, q). -/
theorem sumSq_apply (C : FVec Ideal S64x25x9 .f32) (r : Fin 64) (q : Fin 25) :
    multiReduction .add [2] S64x25 (mulf C C) 0x00000000#32 reduces_S64x25x9_S64x25 (.inl rfl) rfl (ix2 r q)
      = ∑ k' : Fin 9, C (ix3 r q k') * C (ix3 r q k') := by
  refine (Ideal.multiReduction_add_single _ _ _ _ _ _).trans ?_
  refine Finset.sum_congr rfl fun k' _ => ?_
  -- the index put back on the summed axis is (r, q, k')
  have hl : reduces_S64x25x9_S64x25.lift (ix2 r q) k' = ix3 r q k' := by
    funext a
    match a with
    | ⟨0, _⟩ => rfl
    | ⟨1, _⟩ => rfl
    | ⟨2, _⟩ => rfl
  rw [hl]
  rfl

/-- A row of 9 read through the added unit axis and the spreading over the block: at (r, q, k) it is the row at k. -/
theorem rowSpread_apply (g : FVec Ideal S1x9 .f32) (r : Fin 64) (q : Fin 25) (k : Fin 9) :
    broadcastTo S64x25x9 (shapeCast S1x1x9 g shapeCasts_S1x9_S1x1x9) broadcasts_S1x1x9_S64x25x9 (ix3 r q k)
      = g (ix2 (0 : Fin 1) k) := by
  refine (broadcastTo_apply _ _ (ix3 r q k) (ix3 (0 : Fin 1) (0 : Fin 1) k) ?_).trans ?_
  · intro a
    match a with
    | ⟨0, _⟩ => rfl
    | ⟨1, _⟩ => rfl
    | ⟨2, _⟩ => rfl
  · refine shapeCast_apply g _ _ (ix2 (0 : Fin 1) k) ?_
    rw [Shape.rowMajor_val_two, Shape.rowMajor_val_three]
    rfl

/-- The factor every entry of token (r, q) is multiplied by: the reciprocal root of the token's mean square plus the
    small constant, kept on a last axis of extent one and spread back over the 9 entries. -/
theorem invRoot_apply (C : FVec Ideal S64x25x9 .f32) (r : Fin 64) (q : Fin 25) (k : Fin 9) :
    broadcastTo S64x25x9
        (rsqrt (addf (divf (shapeCast S64x25x1
              (multiReduction .add [2] S64x25 (mulf C C) 0x00000000#32 reduces_S64x25x9_S64x25 (.inl rfl) rfl)
              shapeCasts_S64x25_S64x25x1)
            (broadcast S64x25x1 (Scalar.ofBits .f32 0x41100000#32)))
          (broadcast S64x25x1 (Scalar.ofBits .f32 0x3727C5AC#32))))
        broadcasts_S64x25x1_S64x25x9 (ix3 r q k)
      = Ideal.rsqrt (Ideal.div (∑ k' : Fin 9, C (ix3 r q k') * C (ix3 r q k')) nine + tiny) := by
  -- the spread reads the kept axis at 0
  refine (broadcastTo_apply _ _ (ix3 r q k) (ix3 r q (0 : Fin 1)) ?_).trans ?_
  · intro a
    match a with
    | ⟨0, _⟩ => rfl
    | ⟨1, _⟩ => rfl
    | ⟨2, _⟩ => rfl
  -- the kept axis adds nothing to the position: (r, q, 0) sits where (r, q) does
  · have h1 : shapeCast S64x25x1
          (multiReduction .add [2] S64x25 (mulf C C) 0x00000000#32 reduces_S64x25x9_S64x25 (.inl rfl) rfl)
          shapeCasts_S64x25_S64x25x1 (ix3 r q (0 : Fin 1))
        = ∑ k' : Fin 9, C (ix3 r q k') * C (ix3 r q k') := by
      refine (shapeCast_apply _ _ _ (ix2 r q) ?_).trans (sumSq_apply C r q)
      rw [Shape.rowMajor_val_two, Shape.rowMajor_val_three]
      show r.val * 25 + q.val = (r.val * 25 + q.val) * 1 + 0
      omega
    exact congrArg (fun t => Ideal.rsqrt (Ideal.div t nine + tiny)) h1

end Pieces

theorem finishV_apply (C : FVec Ideal S64x25x9 .f32) (g β : FVec Ideal S1x9 .f32) (r : Fin 64) (q : Fin 25) (k : Fin 9) :
    finishV C g β (ix3 r q k)
      = scaleShift (fun q k => C (ix3 r q k)) (fun k => g (ix2 (0 : Fin 1) k)) (fun k => β (ix2 (0 : Fin 1) k)) q k := by
  unfold finishV
  simp only [addf_apply, mulf_apply]
  rw [invRoot_apply C r q k, rowSpread_apply g r q k, rowSpread_apply β r q k]
  rfl

end Cert.KernelIdeal.Stages

end
-- ==== Proof.KBlock.lean ====
/-
  One entry of the output block: row r of the block goes through the row's formula, with the row's four token
  groups read off the four input blocks, the weights and biases read off theirs.
-/
import proofs.«406663_j42339787604121_3_alg».proof.Proof.KPayload
import proofs.«406663_j42339787604121_3_alg».proof.Proof.KLin
import proofs.«406663_j42339787604121_3_alg».proof.Proof.KAttn
import proofs.«406663_j42339787604121_3_alg».proof.Proof.KFinish

noncomputable section

namespace Cert.KernelIdeal.Payload

open Idealize.ShloMosaic Idealize.ShloMosaic.ValueIdx Cert.KernelIdeal Cert.KernelIdeal.Gen Cert.KernelIdeal.GenP Cert.KernelIdeal.Stages Cert.RowMath

/-- Row r of one projection of the block: the four groups' affine maps laid end to end. -/
theorem proj_row (x0 : FVec Ideal S64x3x9 .f32) (x1 : FVec Ideal S64x10x17 .f32) (x2 : FVec Ideal S64x10x11 .f32)
    (x3 : FVec Ideal S64x2x11 .f32) (wa : FVec Ideal S9x9 .bf16) (wb : FVec Ideal S9x17 .bf16) (wc wd : FVec Ideal S9x11 .bf16)
    (ba bb bc bd : FVec Ideal S1x9 .f32) (r : Fin 64) :
    (fun q k => cat (linA x0 wa ba) (linB x1 wb bb) (linC x2 wc bc) (linD x3 wd bd) (ix3 r q k))
      = projS (fun n d => x0 (ix3 r n d)) (fun n d => x1 (ix3 r n d)) (fun n d => x2 (ix3 r n d)) (fun n d => x3 (ix3 r n d))
          (fun k d => wa (ix2 k d)) (fun k => ba (ix2 (0 : Fin 1) k)) (fun k d => wb (ix2 k d)) (fun k => bb (ix2 (0 : Fin 1) k))
          (fun k d => wc (ix2 k d)) (fun k => bc (ix2 (0 : Fin 1) k)) (fun k d => wd (ix2 k d)) (fun k => bd (ix2 (0 : Fin 1) k)) := by
  have eA : (fun n k => linA x0 wa ba (ix3 r n k))
      = lin (fun n d => x0 (ix3 r n d)) (fun k d => wa (ix2 k d)) (fun k => ba (ix2 (0 : Fin 1) k)) := by
    funext n k; exact linA_apply x0 wa ba r n k
  have eB : (fun n k => linB x1 wb bb (ix3 r n k))
      = lin (fun n d => x1 (ix3 r n d)) (fun k d => wb (ix2 k d)) (fun k => bb (ix2 (0 : Fin 1) k)) := by
    funext n k; exact linB_apply x1 wb bb r n k
  have eC : (fun n k => linC x2 wc bc (ix3 r n k))
      = lin (fun n d => x2 (ix3 r n d)) (fun k d => wc (ix2 k d)) (fun k => bc (ix2 (0 : Fin 1) k)) := by
    funext n k; exact linC_apply x2 wc bc r n k
  have eD : (fun n k => linD x3 wd bd (ix3 r n k))
      = lin (fun n d => x3 (ix3 r n d)) (fun k d => wd (ix2 k d)) (fun k => bd (ix2 (0 : Fin 1) k)) := by
    funext n k; exact linD_apply x3 wd bd r n k
  funext q k
  rw [cat_apply, eA, eB, eC, eD]
  rfl

/-- Entry (r, q, k) of what the body leaves in the output block. -/
theorem out_apply (x0 : Vec Ideal S64x3x9 .f32) (x1 : Vec Ideal S64x10x17 .f32) (x2 : Vec Ideal S64x10x11 .f32) (x3 : Vec Ideal S64x2x11 .f32) (x4 : Vec Ideal S9x9 .bf16) (x5 : Vec Ideal S9x17 .bf16) (x6 : Vec Ideal S9x11 .bf16) (x7 : Vec Ideal S9x11 .bf16) (x8 : Vec Ideal S9x9 .bf16) (x9 : Vec Ideal S9x17 .bf16) (x10 : Vec Ideal S9x11 .bf16) (x11 : Vec Ideal S9x11 .bf16) (x12 : Vec Ideal S9x9 .bf16) (x13 : Vec Ideal S9x17 .bf16) (x14 : Vec Ideal S9x11 .bf16) (x15 : Vec Ideal S9x11 .bf16) (x16 : Vec Ideal S1x9 .f32) (x17 : Vec Ideal S1x9 .f32) (x18 : Vec Ideal S1x9 .f32) (x19 : Vec Ideal S1x9 .f32) (x20 : Vec Ideal S1x9 .f32) (x21 : Vec Ideal S1x9 .f32) (x22 : Vec Ideal S1x9 .f32) (x23 : Vec Ideal S1x9 .f32) (x24 : Vec Ideal S1x9 .f32) (x25 : Vec Ideal S1x9 .f32) (x26 : Vec Ideal S1x9 .f32) (x27 : Vec Ideal S1x9 .f32) (x28 : Vec Ideal S1x9 .f32) (x29 : Vec Ideal S1x9 .f32) (r : Fin 64) (q : Fin 25) (k : Fin 9) :
    out0_30 (F := Ideal) x0 x1 x2 x3 x4 x5 x6 x7 x8 x9 x10 x11 x12 x13 x14 x15 x16 x17 x18 x19 x20 x21 x22 x23 x24 x25 x26 x27 x28 x29 (ix3 r q k)
      = attend
          (projS (fun n d => x0 (ix3 r n d)) (fun n d => x1 (ix3 r n d)) (fun n d => x2 (ix3 r n d)) (fun n d => x3 (ix3 r n d))
            (fun k d => x4 (ix2 k d)) (fun k => x16 (ix2 (0 : Fin 1) k)) (fun k d => x5 (ix2 k d)) (fun k => x17 (ix2 (0 : Fin 1) k))
            (fun k d => x6 (ix2 k d)) (fun k => x18 (ix2 (0 : Fin 1) k)) (fun k d => x7 (ix2 k d)) (fun k => x19 (ix2 (0 : Fin 1) k)))
          (projS (fun n d => x0 (ix3 r n d)) (fun n d => x1 (ix3 r n d)) (fun n d => x2 (ix3 r n d)) (fun n d => x3 (ix3 r n d))
            (fun k d => x8 (ix2 k d)) (fun k => x20 (ix2 (0 : Fin 1) k)) (fun k d => x9 (ix2 k d)) (fun k => x21 (ix2 (0 : Fin 1) k))
            (fun k d => x10 (ix2 k d)) (fun k => x22 (ix2 (0 : Fin 1) k)) (fun k d => x11 (ix2 k d)) (fun k => x23 (ix2 (0 : Fin 1) k)))
          (projS (fun n d => x0 (ix3 r n d)) (fun n d => x1 (ix3 r n d)) (fun n d => x2 (ix3 r n d)) (fun n d => x3 (ix3 r n d))
            (fun k d => x12 (ix2 k d)) (fun k => x24 (ix2 (0 : Fin 1) k)) (fun k d => x13 (ix2 k d)) (fun k => x25 (ix2 (0 : Fin 1) k))
            (fun k d => x14 (ix2 k d)) (fun k => x26 (ix2 (0 : Fin 1) k)) (fun k d => x15 (ix2 k d)) (fun k => x27 (ix2 (0 : Fin 1) k)))
          (fun k => x28 (ix2 (0 : Fin 1) k)) (fun k => x29 (ix2 (0 : Fin 1) k)) q k := by
  rw [out_eq, finishV_apply]
  unfold attend
  refine congrArg (fun C => scaleShift C _ _ q k) ?_
  funext q k
  rw [centredV_apply, proj_row, proj_row, proj_row]

end Cert.KernelIdeal.Payload

end
-- ==== Proof.KIndex.lean ====
/-
  The pipeline's index maps, decided over the 2048 grid points: the four token groups' blocks and the output's block
  move with the point along the row axis, every other window's block stays at the origin.
-/
import proofs.«406663_j42339787604121_3_alg».proof.Proof.KernelIdealFrame

set_option maxRecDepth 16384

noncomputable section

namespace Cert.KernelIdeal.Reads

open Idealize.ShloMosaic Idealize.ShloMosaic.TcCoe Idealize.SL.Sem
open Cert.KernelIdeal Cert.KernelIdeal.Gen Cert.KernelIdeal.GenP

theorem idx_rows : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem idx_w1 : ∀ t : Fin cfg0.N,
    (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

theorem idx_w2 : ∀ t : Fin cfg0.N,
    (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = 0 ∧ win0_13.index t (1 : Fin 2) = 0)
    ∧ (win0_14.index t (0 : Fin 2) = 0 ∧ win0_14.index t (1 : Fin 2) = 0) ∧ (win0_15.index t (0 : Fin 2) = 0 ∧ win0_15.index t (1 : Fin 2) = 0) :=
  (by decide +kernel : ∀ t : Fin grid0.N, _)

theorem idx_b1 : ∀ t : Fin cfg0.N,
    (win0_16.index t (0 : Fin 2) = 0 ∧ win0_16.index t (1 : Fin 2) = 0) ∧ (win0_17.index t (0 : Fin 2) = 0 ∧ win0_17.index t (1 : Fin 2) = 0)
    ∧ (win0_18.index t (0 : Fin 2) = 0 ∧ win0_18.index t (1 : Fin 2) = 0) ∧ (win0_19.index t (0 : Fin 2) = 0 ∧ win0_19.index t (1 : Fin 2) = 0)
    ∧ (win0_20.index t (0 : Fin 2) = 0 ∧ win0_20.index t (1 : Fin 2) = 0) ∧ (win0_21.index t (0 : Fin 2) = 0 ∧ win0_21.index t (1 : Fin 2) = 0)
    ∧ (win0_22.index t (0 : Fin 2) = 0 ∧ win0_22.index t (1 : Fin 2) = 0) :=
  (by decide +kernel : ∀ t : Fin grid0.N, _)

theorem idx_b2 : ∀ t : Fin cfg0.N,
    (win0_23.index t (0 : Fin 2) = 0 ∧ win0_23.index t (1 : Fin 2) = 0) ∧ (win0_24.index t (0 : Fin 2) = 0 ∧ win0_24.index t (1 : Fin 2) = 0)
    ∧ (win0_25.index t (0 : Fin 2) = 0 ∧ win0_25.index t (1 : Fin 2) = 0) ∧ (win0_26.index t (0 : Fin 2) = 0 ∧ win0_26.index t (1 : Fin 2) = 0)
    ∧ (win0_27.index t (0 : Fin 2) = 0 ∧ win0_27.index t (1 : Fin 2) = 0) ∧ (win0_28.index t (0 : Fin 2) = 0 ∧ win0_28.index t (1 : Fin 2) = 0)
    ∧ (win0_29.index t (0 : Fin 2) = 0 ∧ win0_29.index t (1 : Fin 2) = 0) :=
  (by decide +kernel : ∀ t : Fin grid0.N, _)

/-- The output's block index is the point's number on the row axis and zero on the other two. -/
theorem idx_out : ∀ t : Fin cfg0.N,
    win0_30.index t (0 : Fin 3) = t.val ∧ win0_30.index t (1 : Fin 3) = 0 ∧ win0_30.index t (2 : Fin 3) = 0 :=
  (by decide +kernel : ∀ t : Fin grid0.N, _)

end Cert.KernelIdeal.Reads

end
-- ==== Proof.Groups.lean ====
/-
  Where the four token groups sit in a row of 329 entries, read through the slice and reshape that cut them out:
  entry (r, n, d) of a group's array is entry (r, offset + n * width + d) of the input.
-/
import proofs.«406663_j42339787604121_3_alg».proof.Proof.RowMath
import Idealize.ShloMosaic.Lib.ValueIdx
import Idealize.ShloMosaic.Lib.ValueLayout
import Idealize.ShloMosaic.Lib.Pipeline.Value

noncomputable section

namespace Cert.Groups

open Idealize.ShloMosaic Idealize.ShloMosaic.ValueIdx Cert.RowMath

theorem grpA_read (X : (⟨2, ![131072, 329]⟩ : Shape).Idx → EReal)
    (hs : (⟨2, ![131072, 329]⟩ : Shape).Slices ![0, 0] ⟨2, ![131072, 27]⟩)
    (hc : (⟨2, ![131072, 27]⟩ : Shape).ShapeCasts ⟨3, ![131072, 3, 9]⟩)
    (r : Fin 131072) (n : Fin 3) (d : Fin 9) :
    shapeCast ⟨3, ![131072, 3, 9]⟩ (extractStridedSlice ⟨2, ![131072, 27]⟩ ![0, 0] X hs) hc (ix3 r n d)
      = grpA (fun j => X (ix2 r j)) n d := by
  have hnd : n.val * 9 + d.val < 27 := by have := n.isLt; have := d.isLt; omega
  -- the reshape keeps the row-major position: (r, n, d) sits where (r, n * 9 + d) does
  refine (shapeCast_apply _ hc (ix3 r n d) (ix2 r ⟨n.val * 9 + d.val, hnd⟩) ?_).trans ?_
  · rw [Shape.rowMajor_val_two, Shape.rowMajor_val_three]
    show r.val * 27 + (n.val * 9 + d.val) = (r.val * 3 + n.val) * 9 + d.val
    omega
  -- the slice starts at column 0 of the row
  · refine (extractStridedSlice_apply _ X hs _ (ix2 r ⟨n.val * 9 + d.val, by omega⟩) ?_).trans rfl
    intro a
    match a with
    | ⟨0, _⟩ => show r.val = 0 + r.val; omega
    | ⟨1, _⟩ => show n.val * 9 + d.val = 0 + (n.val * 9 + d.val); omega

theorem grpB_read (X : (⟨2, ![131072, 329]⟩ : Shape).Idx → EReal)
    (hs : (⟨2, ![131072, 329]⟩ : Shape).Slices ![0, 27] ⟨2, ![131072, 170]⟩)
    (hc : (⟨2, ![131072, 170]⟩ : Shape).ShapeCasts ⟨3, ![131072, 10, 17]⟩)
    (r : Fin 131072) (n : Fin 10) (d : Fin 17) :
    shapeCast ⟨3, ![131072, 10, 17]⟩ (extractStridedSlice ⟨2, ![131072, 170]⟩ ![0, 27] X hs) hc (ix3 r n d)
      = grpB (fun j => X (ix2 r j)) n d := by
  have hnd : n.val * 17 + d.val < 170 := by have := n.isLt; have := d.isLt; omega
  -- the reshape keeps the row-major position: (r, n, d) sits where (r, n * 17 + d) does
  refine (shapeCast_apply _ hc (ix3 r n d) (ix2 r ⟨n.val * 17 + d.val, hnd⟩) ?_).trans ?_
  · rw [Shape.rowMajor_val_two, Shape.rowMajor_val_three]
    show r.val * 170 + (n.val * 17 + d.val) = (r.val * 10 + n.val) * 17 + d.val
    omega
  -- the slice starts at column 27 of the row
  · refine (extractStridedSlice_apply _ X hs _ (ix2 r ⟨27 + n.val * 17 + d.val, by omega⟩) ?_).trans rfl
    intro a
    match a with
    | ⟨0, _⟩ => show r.val = 0 + r.val; omega
    | ⟨1, _⟩ => show 27 + n.val * 17 + d.val = 27 + (n.val * 17 + d.val); omega

theorem grpC_read (X : (⟨2, ![131072, 329]⟩ : Shape).Idx → EReal)
    (hs : (⟨2, ![131072, 329]⟩ : Shape).Slices ![0, 197] ⟨2, ![131072, 110]⟩)
    (hc : (⟨2, ![131072, 110]⟩ : Shape).ShapeCasts ⟨3, ![131072, 10, 11]⟩)
    (r : Fin 131072) (n : Fin 10) (d : Fin 11) :
    shapeCast ⟨3, ![131072, 10, 11]⟩ (extractStridedSlice ⟨2, ![131072, 110]⟩ ![0, 197] X hs) hc (ix3 r n d)
      = grpC (fun j => X (ix2 r j)) n d := by
  have hnd : n.val * 11 + d.val < 110 := by have := n.isLt; have := d.isLt; omega
  -- the reshape keeps the row-major position: (r, n, d) sits where (r, n * 11 + d) does
  refine (shapeCast_apply _ hc (ix3 r n d) (ix2 r ⟨n.val * 11 + d.val, hnd⟩) ?_).trans ?_
  · rw [Shape.rowMajor_val_two, Shape.rowMajor_val_three]
    show r.val * 110 + (n.val * 11 + d.val) = (r.val * 10 + n.val) * 11 + d.val
    omega
  -- the slice starts at column 197 of the row
  · refine (extractStridedSlice_apply _ X hs _ (ix2 r ⟨197 + n.val * 11 + d.val, by omega⟩) ?_).trans rfl
    intro a
    match a with
    | ⟨0, _⟩ => show r.val = 0 + r.val; omega
    | ⟨1, _⟩ => show 197 + n.val * 11 + d.val = 197 + (n.val * 11 + d.val); omega

theorem grpD_read (X : (⟨2, ![131072, 329]⟩ : Shape).Idx → EReal)
    (hs : (⟨2, ![131072, 329]⟩ : Shape).Slices ![0, 307] ⟨2, ![131072, 22]⟩)
    (hc : (⟨2, ![131072, 22]⟩ : Shape).ShapeCasts ⟨3, ![131072, 2, 11]⟩)
    (r : Fin 131072) (n : Fin 2) (d : Fin 11) :
    shapeCast ⟨3, ![131072, 2, 11]⟩ (extractStridedSlice ⟨2, ![131072, 22]⟩ ![0, 307] X hs) hc (ix3 r n d)
      = grpD (fun j => X (ix2 r j)) n d := by
  have hnd : n.val * 11 + d.val < 22 := by have := n.isLt; have := d.isLt; omega
  -- the reshape keeps the row-major position: (r, n, d) sits where (r, n * 11 + d) does
  refine (shapeCast_apply _ hc (ix3 r n d) (ix2 r ⟨n.val * 11 + d.val, hnd⟩) ?_).trans ?_
  · rw [Shape.rowMajor_val_two, Shape.rowMajor_val_three]
    show r.val * 22 + (n.val * 11 + d.val) = (r.val * 2 + n.val) * 11 + d.val
    omega
  -- the slice starts at column 307 of the row
  · refine (extractStridedSlice_apply _ X hs _ (ix2 r ⟨307 + n.val * 11 + d.val, by omega⟩) ?_).trans rfl
    intro a
    match a with
    | ⟨0, _⟩ => show r.val = 0 + r.val; omega
    | ⟨1, _⟩ => show 307 + n.val * 11 + d.val = 307 + (n.val * 11 + d.val); omega

end Cert.Groups

end
-- ==== Proof.KReads.lean ====
/-
  What each input window's block holds at a grid point, read off the argument arrays: the four token groups' blocks
  are rows 64 t … 64 t + 63 of the groups cut out of the input; a weight window's block is its whole array, the
  weights themselves (the change of format is the identity on exact values); a bias, scale or shift window's block is
  its array as one row.
-/
import proofs.«406663_j42339787604121_3_alg».proof.Proof.KernelIdealFrame
import proofs.«406663_j42339787604121_3_alg».proof.Proof.KIndex
import proofs.«406663_j42339787604121_3_alg».proof.Proof.Groups
import Idealize.ShloMosaic.Lib.ValueIdx
import Idealize.ShloMosaic.Lib.ValueLayout
import Idealize.ShloMosaic.Lib.StableHlo.Run

set_option maxRecDepth 16384

noncomputable section

namespace Cert.KernelIdeal.Reads

open Idealize.ShloMosaic Idealize.ShloMosaic.TcCoe Idealize.ShloMosaic.ValueIdx Idealize.SL.Sem
open Cert.KernelIdeal Cert.KernelIdeal.Gen Cert.KernelIdeal.GenP Cert.RowMath

variable (m : (ℓ : Loc nD τ sig) → Buf (Elt Ideal) ℓ)

/-- The grid has 2048 points, so row r of point t's block is row 64 t + r of the array. -/
def rowOf (t : Fin cfg0.N) (r : Fin 64) : Fin 131072 :=
  ⟨64 * t.val + r.val, by have h1 := t.isLt; have h2 := r.isLt; have h3 : cfg0.N = 2048 := N_0; omega⟩

/-! ## The windows' blocks at their literal shapes -/

abbrev B0 (c : Dev nD) (t : Fin cfg0.N) : Vec Ideal S64x3x9 .f32 := iblk m c 0 t
abbrev B1 (c : Dev nD) (t : Fin cfg0.N) : Vec Ideal S64x10x17 .f32 := iblk m c 1 t
abbrev B2 (c : Dev nD) (t : Fin cfg0.N) : Vec Ideal S64x10x11 .f32 := iblk m c 2 t
abbrev B3 (c : Dev nD) (t : Fin cfg0.N) : Vec Ideal S64x2x11 .f32 := iblk m c 3 t
abbrev B4 (c : Dev nD) (t : Fin cfg0.N) : Vec Ideal S9x9 .bf16 := iblk m c 4 t
abbrev B5 (c : Dev nD) (t : Fin cfg0.N) : Vec Ideal S9x17 .bf16 := iblk m c 5 t
abbrev B6 (c : Dev nD) (t : Fin cfg0.N) : Vec Ideal S9x11 .bf16 := iblk m c 6 t
abbrev B7 (c : Dev nD) (t : Fin cfg0.N) : Vec Ideal S9x11 .bf16 := iblk m c 7 t
abbrev B8 (c : Dev nD) (t : Fin cfg0.N) : Vec Ideal S9x9 .bf16 := iblk m c 8 t
abbrev B9 (c : Dev nD) (t : Fin cfg0.N) : Vec Ideal S9x17 .bf16 := iblk m c 9 t
abbrev B10 (c : Dev nD) (t : Fin cfg0.N) : Vec Ideal S9x11 .bf16 := iblk m c 10 t
abbrev B11 (c : Dev nD) (t : Fin cfg0.N) : Vec Ideal S9x11 .bf16 := iblk m c 11 t
abbrev B12 (c : Dev nD) (t : Fin cfg0.N) : Vec Ideal S9x9 .bf16 := iblk m c 12 t
abbrev B13 (c : Dev nD) (t : Fin cfg0.N) : Vec Ideal S9x17 .bf16 := iblk m c 13 t
abbrev B14 (c : Dev nD) (t : Fin cfg0.N) : Vec Ideal S9x11 .bf16 := iblk m c 14 t
abbrev B15 (c : Dev nD) (t : Fin cfg0.N) : Vec Ideal S9x11 .bf16 := iblk m c 15 t
abbrev B16 (c : Dev nD) (t : Fin cfg0.N) : Vec Ideal S1x9 .f32 := iblk m c 16 t
abbrev B17 (c : Dev nD) (t : Fin cfg0.N) : Vec Ideal S1x9 .f32 := iblk m c 17 t
abbrev B18 (c : Dev nD) (t : Fin cfg0.N) : Vec Ideal S1x9 .f32 := iblk m c 18 t
abbrev B19 (c : Dev nD) (t : Fin cfg0.N) : Vec Ideal S1x9 .f32 := iblk m c 19 t
abbrev B20 (c : Dev nD) (t : Fin cfg0.N) : Vec Ideal S1x9 .f32 := iblk m c 20 t
abbrev B21 (c : Dev nD) (t : Fin cfg0.N) : Vec Ideal S1x9 .f32 := iblk m c 21 t
abbrev B22 (c : Dev nD) (t : Fin cfg0.N) : Vec Ideal S1x9 .f32 := iblk m c 22 t
abbrev B23 (c : Dev nD) (t : Fin cfg0.N) : Vec Ideal S1x9 .f32 := iblk m c 23 t
abbrev B24 (c : Dev nD) (t : Fin cfg0.N) : Vec Ideal S1x9 .f32 := iblk m c 24 t
abbrev B25 (c : Dev nD) (t : Fin cfg0.N) : Vec Ideal S1x9 .f32 := iblk m c 25 t
abbrev B26 (c : Dev nD) (t : Fin cfg0.N) : Vec Ideal S1x9 .f32 := iblk m c 26 t
abbrev B27 (c : Dev nD) (t : Fin cfg0.N) : Vec Ideal S1x9 .f32 := iblk m c 27 t
abbrev B28 (c : Dev nD) (t : Fin cfg0.N) : Vec Ideal S1x9 .f32 := iblk m c 28 t
abbrev B29 (c : Dev nD) (t : Fin cfg0.N) : Vec Ideal S1x9 .f32 := iblk m c 29 t

/-! ## The arrays the windows stage, as the host operations before the launch leave them -/

/-- The one way each such array is read off the operations before the launch. -/
local macro "host_read" : tactic => `(tactic| (dsimp only [GenP.V, Gen.hostOps0]; after_results <;> rfl))

theorem V_v1 (c : Dev nD) : (V m c main_v1 : S131072x3x9.Idx → EReal)
    = shapeCast S131072x3x9 (extractStridedSlice S131072x27 ![0, 0] (m (c, main_arg0)) slices_S131072x329_S131072x27_0_0) shapeCasts_S131072x27_S131072x3x9 := by host_read
theorem V_v3 (c : Dev nD) : (V m c main_v3 : S131072x10x17.Idx → EReal)
    = shapeCast S131072x10x17 (extractStridedSlice S131072x170 ![0, 27] (m (c, main_arg0)) slices_S131072x329_S131072x170_0_27) shapeCasts_S131072x170_S131072x10x17 := by host_read
theorem V_v5 (c : Dev nD) : (V m c main_v5 : S131072x10x11.Idx → EReal)
    = shapeCast S131072x10x11 (extractStridedSlice S131072x110 ![0, 197] (m (c, main_arg0)) slices_S131072x329_S131072x110_0_197) shapeCasts_S131072x110_S131072x10x11 := by host_read
theorem V_v7 (c : Dev nD) : (V m c main_v7 : S131072x2x11.Idx → EReal)
    = shapeCast S131072x2x11 (extractStridedSlice S131072x22 ![0, 307] (m (c, main_arg0)) slices_S131072x329_S131072x22_0_307) shapeCasts_S131072x22_S131072x2x11 := by host_read

theorem V_v8 (c : Dev nD) : @Eq (FVec Ideal S9x9 .bf16) (V m c main_v8) (truncf .bf16 (m (c, main_arg1) : FVec Ideal S9x9 .f32) bitsLt_bf16_f32) := by host_read
theorem V_v9 (c : Dev nD) : @Eq (FVec Ideal S9x17 .bf16) (V m c main_v9) (truncf .bf16 (m (c, main_arg3) : FVec Ideal S9x17 .f32) bitsLt_bf16_f32) := by host_read
theorem V_v10 (c : Dev nD) : @Eq (FVec Ideal S9x11 .bf16) (V m c main_v10) (truncf .bf16 (m (c, main_arg5) : FVec Ideal S9x11 .f32) bitsLt_bf16_f32) := by host_read
theorem V_v11 (c : Dev nD) : @Eq (FVec Ideal S9x11 .bf16) (V m c main_v11) (truncf .bf16 (m (c, main_arg7) : FVec Ideal S9x11 .f32) bitsLt_bf16_f32) := by host_read
theorem V_v12 (c : Dev nD) : @Eq (FVec Ideal S9x9 .bf16) (V m c main_v12) (truncf .bf16 (m (c, main_arg9) : FVec Ideal S9x9 .f32) bitsLt_bf16_f32) := by host_read
theorem V_v13 (c : Dev nD) : @Eq (FVec Ideal S9x17 .bf16) (V m c main_v13) (truncf .bf16 (m (c, main_arg11) : FVec Ideal S9x17 .f32) bitsLt_bf16_f32) := by host_read
theorem V_v14 (c : Dev nD) : @Eq (FVec Ideal S9x11 .bf16) (V m c main_v14) (truncf .bf16 (m (c, main_arg13) : FVec Ideal S9x11 .f32) bitsLt_bf16_f32) := by host_read
theorem V_v15 (c : Dev nD) : @Eq (FVec Ideal S9x11 .bf16) (V m c main_v15) (truncf .bf16 (m (c, main_arg15) : FVec Ideal S9x11 .f32) bitsLt_bf16_f32) := by host_read
theorem V_v16 (c : Dev nD) : @Eq (FVec Ideal S9x9 .bf16) (V m c main_v16) (truncf .bf16 (m (c, main_arg17) : FVec Ideal S9x9 .f32) bitsLt_bf16_f32) := by host_read
theorem V_v17 (c : Dev nD) : @Eq (FVec Ideal S9x17 .bf16) (V m c main_v17) (truncf .bf16 (m (c, main_arg19) : FVec Ideal S9x17 .f32) bitsLt_bf16_f32) := by host_read
theorem V_v18 (c : Dev nD) : @Eq (FVec Ideal S9x11 .bf16) (V m c main_v18) (truncf .bf16 (m (c, main_arg21) : FVec Ideal S9x11 .f32) bitsLt_bf16_f32) := by host_read
theorem V_v19 (c : Dev nD) : @Eq (FVec Ideal S9x11 .bf16) (V m c main_v19) (truncf .bf16 (m (c, main_arg23) : FVec Ideal S9x11 .f32) bitsLt_bf16_f32) := by host_read

theorem V_v20 (c : Dev nD) : (V m c main_v20 : S1x9.Idx → EReal) = shapeCast S1x9 (m (c, main_arg2) : FVec Ideal S9 .f32) shapeCasts_S9_S1x9 := by host_read
theorem V_v21 (c : Dev nD) : (V m c main_v21 : S1x9.Idx → EReal) = shapeCast S1x9 (m (c, main_arg4) : FVec Ideal S9 .f32) shapeCasts_S9_S1x9 := by host_read
theorem V_v22 (c : Dev nD) : (V m c main_v22 : S1x9.Idx → EReal) = shapeCast S1x9 (m (c, main_arg6) : FVec Ideal S9 .f32) shapeCasts_S9_S1x9 := by host_read
theorem V_v23 (c : Dev nD) : (V m c main_v23 : S1x9.Idx → EReal) = shapeCast S1x9 (m (c, main_arg8) : FVec Ideal S9 .f32) shapeCasts_S9_S1x9 := by host_read
theorem V_v24 (c : Dev nD) : (V m c main_v24 : S1x9.Idx → EReal) = shapeCast S1x9 (m (c, main_arg10) : FVec Ideal S9 .f32) shapeCasts_S9_S1x9 := by host_read
theorem V_v25 (c : Dev nD) : (V m c main_v25 : S1x9.Idx → EReal) = shapeCast S1x9 (m (c, main_arg12) : FVec Ideal S9 .f32) shapeCasts_S9_S1x9 := by host_read
theorem V_v26 (c : Dev nD) : (V m c main_v26 : S1x9.Idx → EReal) = shapeCast S1x9 (m (c, main_arg14) : FVec Ideal S9 .f32) shapeCasts_S9_S1x9 := by host_read
theorem V_v27 (c : Dev nD) : (V m c main_v27 : S1x9.Idx → EReal) = shapeCast S1x9 (m (c, main_arg16) : FVec Ideal S9 .f32) shapeCasts_S9_S1x9 := by host_read
theorem V_v28 (c : Dev nD) : (V m c main_v28 : S1x9.Idx → EReal) = shapeCast S1x9 (m (c, main_arg18) : FVec Ideal S9 .f32) shapeCasts_S9_S1x9 := by host_read
theorem V_v29 (c : Dev nD) : (V m c main_v29 : S1x9.Idx → EReal) = shapeCast S1x9 (m (c, main_arg20) : FVec Ideal S9 .f32) shapeCasts_S9_S1x9 := by host_read
theorem V_v30 (c : Dev nD) : (V m c main_v30 : S1x9.Idx → EReal) = shapeCast S1x9 (m (c, main_arg22) : FVec Ideal S9 .f32) shapeCasts_S9_S1x9 := by host_read
theorem V_v31 (c : Dev nD) : (V m c main_v31 : S1x9.Idx → EReal) = shapeCast S1x9 (m (c, main_arg24) : FVec Ideal S9 .f32) shapeCasts_S9_S1x9 := by host_read
theorem V_v32 (c : Dev nD) : (V m c main_v32 : S1x9.Idx → EReal) = shapeCast S1x9 (m (c, main_arg25) : FVec Ideal S9 .f32) shapeCasts_S9_S1x9 := by host_read
theorem V_v33 (c : Dev nD) : (V m c main_v33 : S1x9.Idx → EReal) = shapeCast S1x9 (m (c, main_arg26) : FVec Ideal S9 .f32) shapeCasts_S9_S1x9 := by host_read

/-- An array of 9 entries as one row, read at (0, k), is entry k. -/
theorem row_read (b : FVec Ideal S9 .f32) (k : Fin 9) : shapeCast S1x9 b shapeCasts_S9_S1x9 (ix2 (0 : Fin 1) k) = b (ix1 k) := by
  refine shapeCast_apply _ _ _ (ix1 k) ?_
  rw [Shape.rowMajor_val_one, Shape.rowMajor_val_two]
  show k.val = 0 * 9 + k.val
  omega

end Cert.KernelIdeal.Reads

end
-- ==== Proof.KBlocks.lean ====
/-
  The thirty input blocks at a grid point, read at an index off the argument arrays.  Row r of a token group's block
  at point t is that group of row 64 t + r of the input; a weight block is the weights; a bias, scale or shift block
  is its nine entries.
-/
import proofs.«406663_j42339787604121_3_alg».proof.Proof.KReads

set_option maxRecDepth 16384

noncomputable section

namespace Cert.KernelIdeal.Reads

open Idealize.ShloMosaic Idealize.ShloMosaic.TcCoe Idealize.ShloMosaic.ValueIdx Idealize.SL.Sem
open Cert.KernelIdeal Cert.KernelIdeal.Gen Cert.KernelIdeal.GenP Cert.RowMath

variable (m : (ℓ : Loc nD τ sig) → Buf (Elt Ideal) ℓ)

/-! ## The token groups: a block's coordinate is the block index times the block's extent plus the coordinate inside -/

theorem blk0 (c : Dev nD) (t : Fin cfg0.N) (r : Fin 64) :
    (fun (n : Fin 3) (d : Fin 9) => B0 m c t (ix3 r n d)) = grpA (fun j => (m ((c : Thread nD τ).loc main_arg0)) (ix2 (rowOf t r) j)) := by
  funext n d
  obtain ⟨e, -, -, -⟩ := idx_rows t
  have hemb : ((cfg0.win 0).blk t).view.emb (ix3 r n d) = (ix3 (rowOf t r) n d : S131072x3x9.Idx) := by
    funext a; apply Fin.ext
    match a with
    | ⟨0, _⟩ => show win0_0.index t (0 : Fin 3) * 64 + 1 * r.val = 64 * t.val + r.val; have := e.1; omega
    | ⟨1, _⟩ => show win0_0.index t (1 : Fin 3) * 3 + 1 * n.val = n.val; have := e.2.1; omega
    | ⟨2, _⟩ => show win0_0.index t (2 : Fin 3) * 9 + 1 * d.val = d.val; have := e.2.2; omega
  show V m c main_v1 (((cfg0.win 0).blk t).view.emb (ix3 r n d)) = _
  rw [hemb, V_v1]
  exact Cert.Groups.grpA_read _ _ _ (rowOf t r) n d

theorem blk1 (c : Dev nD) (t : Fin cfg0.N) (r : Fin 64) :
    (fun (n : Fin 10) (d : Fin 17) => B1 m c t (ix3 r n d)) = grpB (fun j => (m ((c : Thread nD τ).loc main_arg0)) (ix2 (rowOf t r) j)) := by
  funext n d
  obtain ⟨-, e, -, -⟩ := idx_rows t
  have hemb : ((cfg0.win 1).blk t).view.emb (ix3 r n d) = (ix3 (rowOf t r) n d : S131072x10x17.Idx) := by
    funext a; apply Fin.ext
    match a with
    | ⟨0, _⟩ => show win0_1.index t (0 : Fin 3) * 64 + 1 * r.val = 64 * t.val + r.val; have := e.1; omega
    | ⟨1, _⟩ => show win0_1.index t (1 : Fin 3) * 10 + 1 * n.val = n.val; have := e.2.1; omega
    | ⟨2, _⟩ => show win0_1.index t (2 : Fin 3) * 17 + 1 * d.val = d.val; have := e.2.2; omega
  show V m c main_v3 (((cfg0.win 1).blk t).view.emb (ix3 r n d)) = _
  rw [hemb, V_v3]
  exact Cert.Groups.grpB_read _ _ _ (rowOf t r) n d

theorem blk2 (c : Dev nD) (t : Fin cfg0.N) (r : Fin 64) :
    (fun (n : Fin 10) (d : Fin 11) => B2 m c t (ix3 r n d)) = grpC (fun j => (m ((c : Thread nD τ).loc main_arg0)) (ix2 (rowOf t r) j)) := by
  funext n d
  obtain ⟨-, -, e, -⟩ := idx_rows t
  have hemb : ((cfg0.win 2).blk t).view.emb (ix3 r n d) = (ix3 (rowOf t r) n d : S131072x10x11.Idx) := by
    funext a; apply Fin.ext
    match a with
    | ⟨0, _⟩ => show win0_2.index t (0 : Fin 3) * 64 + 1 * r.val = 64 * t.val + r.val; have := e.1; omega
    | ⟨1, _⟩ => show win0_2.index t (1 : Fin 3) * 10 + 1 * n.val = n.val; have := e.2.1; omega
    | ⟨2, _⟩ => show win0_2.index t (2 : Fin 3) * 11 + 1 * d.val = d.val; have := e.2.2; omega
  show V m c main_v5 (((cfg0.win 2).blk t).view.emb (ix3 r n d)) = _
  rw [hemb, V_v5]
  exact Cert.Groups.grpC_read _ _ _ (rowOf t r) n d

theorem blk3 (c : Dev nD) (t : Fin cfg0.N) (r : Fin 64) :
    (fun (n : Fin 2) (d : Fin 11) => B3 m c t (ix3 r n d)) = grpD (fun j => (m ((c : Thread nD τ).loc main_arg0)) (ix2 (rowOf t r) j)) := by
  funext n d
  obtain ⟨-, -, -, e⟩ := idx_rows t
  have hemb : ((cfg0.win 3).blk t).view.emb (ix3 r n d) = (ix3 (rowOf t r) n d : S131072x2x11.Idx) := by
    funext a; apply Fin.ext
    match a with
    | ⟨0, _⟩ => show win0_3.index t (0 : Fin 3) * 64 + 1 * r.val = 64 * t.val + r.val; have := e.1; omega
    | ⟨1, _⟩ => show win0_3.index t (1 : Fin 3) * 2 + 1 * n.val = n.val; have := e.2.1; omega
    | ⟨2, _⟩ => show win0_3.index t (2 : Fin 3) * 11 + 1 * d.val = d.val; have := e.2.2; omega
  show V m c main_v7 (((cfg0.win 3).blk t).view.emb (ix3 r n d)) = _
  rw [hemb, V_v7]
  exact Cert.Groups.grpD_read _ _ _ (rowOf t r) n d

/-! ## The weights: the block index is zero on both axes, so the block is the array; the format change is the identity -/

set_option hygiene false in
/-- A weight window: `e` its two index facts at the point, `w` its number, `Win` its window, `Vw` its array's reading,
    `a` × `b` its extents. -/
local macro "weight_block" e:term "," w:num "," Win:ident "," Vw:ident "," buf:ident "," a:num "," b:num : tactic => `(tactic| (
  funext k d
  have hidx := $e
  have hemb : ((cfg0.win $w).blk t).view.emb (ix2 k d) = ix2 k d := by
    funext ax; apply Fin.ext
    match ax with
    | ⟨0, _⟩ => show ($Win).index t (0 : Fin 2) * $a + 1 * k.val = k.val; have := hidx.1; omega
    | ⟨1, _⟩ => show ($Win).index t (1 : Fin 2) * $b + 1 * d.val = d.val; have := hidx.2; omega
  show V m c $buf (((cfg0.win $w).blk t).view.emb (ix2 k d)) = _
  rw [hemb, $Vw:ident]
  rfl))

theorem blk4 (c : Dev nD) (t : Fin cfg0.N) : (fun (k : Fin 9) (d : Fin 9) => B4 m c t (ix2 k d)) = fun k d => (m ((c : Thread nD τ).loc main_arg1)) (ix2 k d) := by
  weight_block (idx_w1 t).1, 4, win0_4, V_v8, main_v8, 9, 9
theorem blk5 (c : Dev nD) (t : Fin cfg0.N) : (fun (k : Fin 9) (d : Fin 17) => B5 m c t (ix2 k d)) = fun k d => (m ((c : Thread nD τ).loc main_arg3)) (ix2 k d) := by
  weight_block (idx_w1 t).2.1, 5, win0_5, V_v9, main_v9, 9, 17
theorem blk6 (c : Dev nD) (t : Fin cfg0.N) : (fun (k : Fin 9) (d : Fin 11) => B6 m c t (ix2 k d)) = fun k d => (m ((c : Thread nD τ).loc main_arg5)) (ix2 k d) := by
  weight_block (idx_w1 t).2.2.1, 6, win0_6, V_v10, main_v10, 9, 11
theorem blk7 (c : Dev nD) (t : Fin cfg0.N) : (fun (k : Fin 9) (d : Fin 11) => B7 m c t (ix2 k d)) = fun k d => (m ((c : Thread nD τ).loc main_arg7)) (ix2 k d) := by
  weight_block (idx_w1 t).2.2.2.1, 7, win0_7, V_v11, main_v11, 9, 11
theorem blk8 (c : Dev nD) (t : Fin cfg0.N) : (fun (k : Fin 9) (d : Fin 9) => B8 m c t (ix2 k d)) = fun k d => (m ((c : Thread nD τ).loc main_arg9)) (ix2 k d) := by
  weight_block (idx_w1 t).2.2.2.2.1, 8, win0_8, V_v12, main_v12, 9, 9
theorem blk9 (c : Dev nD) (t : Fin cfg0.N) : (fun (k : Fin 9) (d : Fin 17) => B9 m c t (ix2 k d)) = fun k d => (m ((c : Thread nD τ).loc main_arg11)) (ix2 k d) := by
  weight_block (idx_w1 t).2.2.2.2.2, 9, win0_9, V_v13, main_v13, 9, 17
theorem blk10 (c : Dev nD) (t : Fin cfg0.N) : (fun (k : Fin 9) (d : Fin 11) => B10 m c t (ix2 k d)) = fun k d => (m ((c : Thread nD τ).loc main_arg13)) (ix2 k d) := by
  weight_block (idx_w2 t).1, 10, win0_10, V_v14, main_v14, 9, 11
theorem blk11 (c : Dev nD) (t : Fin cfg0.N) : (fun (k : Fin 9) (d : Fin 11) => B11 m c t (ix2 k d)) = fun k d => (m ((c : Thread nD τ).loc main_arg15)) (ix2 k d) := by
  weight_block (idx_w2 t).2.1, 11, win0_11, V_v15, main_v15, 9, 11
theorem blk12 (c : Dev nD) (t : Fin cfg0.N) : (fun (k : Fin 9) (d : Fin 9) => B12 m c t (ix2 k d)) = fun k d => (m ((c : Thread nD τ).loc main_arg17)) (ix2 k d) := by
  weight_block (idx_w2 t).2.2.1, 12, win0_12, V_v16, main_v16, 9, 9
theorem blk13 (c : Dev nD) (t : Fin cfg0.N) : (fun (k : Fin 9) (d : Fin 17) => B13 m c t (ix2 k d)) = fun k d => (m ((c : Thread nD τ).loc main_arg19)) (ix2 k d) := by
  weight_block (idx_w2 t).2.2.2.1, 13, win0_13, V_v17, main_v17, 9, 17
theorem blk14 (c : Dev nD) (t : Fin cfg0.N) : (fun (k : Fin 9) (d : Fin 11) => B14 m c t (ix2 k d)) = fun k d => (m ((c : Thread nD τ).loc main_arg21)) (ix2 k d) := by
  weight_block (idx_w2 t).2.2.2.2.1, 14, win0_14, V_v18, main_v18, 9, 11
theorem blk15 (c : Dev nD) (t : Fin cfg0.N) : (fun (k : Fin 9) (d : Fin 11) => B15 m c t (ix2 k d)) = fun k d => (m ((c : Thread nD τ).loc main_arg23)) (ix2 k d) := by
  weight_block (idx_w2 t).2.2.2.2.2, 15, win0_15, V_v19, main_v19, 9, 11

/-! ## The biases, the scale and the shift: nine entries as one row -/

set_option hygiene false in
/-- A row window: `e` its two index facts at the point, `w` its number, `Win` its window, `Vw` its array's reading. -/
local macro "row_block" e:term "," w:num "," Win:ident "," Vw:ident "," buf:ident : tactic => `(tactic| (
  funext k
  have hidx := $e
  have hemb : ((cfg0.win $w).blk t).view.emb (ix2 (0 : Fin 1) k) = ix2 (0 : Fin 1) k := by
    funext ax; apply Fin.ext
    match ax with
    | ⟨0, _⟩ => show ($Win).index t (0 : Fin 2) * 1 + 1 * 0 = 0; have := hidx.1; omega
    | ⟨1, _⟩ => show ($Win).index t (1 : Fin 2) * 9 + 1 * k.val = k.val; have := hidx.2; omega
  show V m c $buf (((cfg0.win $w).blk t).view.emb (ix2 (0 : Fin 1) k)) = _
  rw [hemb, $Vw:ident]
  exact row_read _ k))

theorem blk16 (c : Dev nD) (t : Fin cfg0.N) : (fun (k : Fin 9) => B16 m c t (ix2 (0 : Fin 1) k)) = fun k => (m ((c : Thread nD τ).loc main_arg2)) (ix1 k) := by
  row_block (idx_b1 t).1, 16, win0_16, V_v20, main_v20
theorem blk17 (c : Dev nD) (t : Fin cfg0.N) : (fun (k : Fin 9) => B17 m c t (ix2 (0 : Fin 1) k)) = fun k => (m ((c : Thread nD τ).loc main_arg4)) (ix1 k) := by
  row_block (idx_b1 t).2.1, 17, win0_17, V_v21, main_v21
theorem blk18 (c : Dev nD) (t : Fin cfg0.N) : (fun (k : Fin 9) => B18 m c t (ix2 (0 : Fin 1) k)) = fun k => (m ((c : Thread nD τ).loc main_arg6)) (ix1 k) := by
  row_block (idx_b1 t).2.2.1, 18, win0_18, V_v22, main_v22
theorem blk19 (c : Dev nD) (t : Fin cfg0.N) : (fun (k : Fin 9) => B19 m c t (ix2 (0 : Fin 1) k)) = fun k => (m ((c : Thread nD τ).loc main_arg8)) (ix1 k) := by
  row_block (idx_b1 t).2.2.2.1, 19, win0_19, V_v23, main_v23
theorem blk20 (c : Dev nD) (t : Fin cfg0.N) : (fun (k : Fin 9) => B20 m c t (ix2 (0 : Fin 1) k)) = fun k => (m ((c : Thread nD τ).loc main_arg10)) (ix1 k) := by
  row_block (idx_b1 t).2.2.2.2.1, 20, win0_20, V_v24, main_v24
theorem blk21 (c : Dev nD) (t : Fin cfg0.N) : (fun (k : Fin 9) => B21 m c t (ix2 (0 : Fin 1) k)) = fun k => (m ((c : Thread nD τ).loc main_arg12)) (ix1 k) := by
  row_block (idx_b1 t).2.2.2.2.2.1, 21, win0_21, V_v25, main_v25
theorem blk22 (c : Dev nD) (t : Fin cfg0.N) : (fun (k : Fin 9) => B22 m c t (ix2 (0 : Fin 1) k)) = fun k => (m ((c : Thread nD τ).loc main_arg14)) (ix1 k) := by
  row_block (idx_b1 t).2.2.2.2.2.2, 22, win0_22, V_v26, main_v26
theorem blk23 (c : Dev nD) (t : Fin cfg0.N) : (fun (k : Fin 9) => B23 m c t (ix2 (0 : Fin 1) k)) = fun k => (m ((c : Thread nD τ).loc main_arg16)) (ix1 k) := by
  row_block (idx_b2 t).1, 23, win0_23, V_v27, main_v27
theorem blk24 (c : Dev nD) (t : Fin cfg0.N) : (fun (k : Fin 9) => B24 m c t (ix2 (0 : Fin 1) k)) = fun k => (m ((c : Thread nD τ).loc main_arg18)) (ix1 k) := by
  row_block (idx_b2 t).2.1, 24, win0_24, V_v28, main_v28
theorem blk25 (c : Dev nD) (t : Fin cfg0.N) : (fun (k : Fin 9) => B25 m c t (ix2 (0 : Fin 1) k)) = fun k => (m ((c : Thread nD τ).loc main_arg20)) (ix1 k) := by
  row_block (idx_b2 t).2.2.1, 25, win0_25, V_v29, main_v29
theorem blk26 (c : Dev nD) (t : Fin cfg0.N) : (fun (k : Fin 9) => B26 m c t (ix2 (0 : Fin 1) k)) = fun k => (m ((c : Thread nD τ).loc main_arg22)) (ix1 k) := by
  row_block (idx_b2 t).2.2.2.1, 26, win0_26, V_v30, main_v30
theorem blk27 (c : Dev nD) (t : Fin cfg0.N) : (fun (k : Fin 9) => B27 m c t (ix2 (0 : Fin 1) k)) = fun k => (m ((c : Thread nD τ).loc main_arg24)) (ix1 k) := by
  row_block (idx_b2 t).2.2.2.2.1, 27, win0_27, V_v31, main_v31
theorem blk28 (c : Dev nD) (t : Fin cfg0.N) : (fun (k : Fin 9) => B28 m c t (ix2 (0 : Fin 1) k)) = fun k => (m ((c : Thread nD τ).loc main_arg25)) (ix1 k) := by
  row_block (idx_b2 t).2.2.2.2.2.1, 28, win0_28, V_v32, main_v32
theorem blk29 (c : Dev nD) (t : Fin cfg0.N) : (fun (k : Fin 9) => B29 m c t (ix2 (0 : Fin 1) k)) = fun k => (m ((c : Thread nD τ).loc main_arg26)) (ix1 k) := by
  row_block (idx_b2 t).2.2.2.2.2.2, 29, win0_29, V_v33, main_v33

end Cert.KernelIdeal.Reads

end
-- ==== Proof.Whole.lean ====
/-
  The whole result as one function of the argument arrays, index by index: entry (b, q, k) is the row formula of
  row b of the input, at token q and output entry k, with the weights, biases, scale and shift read off their arrays.
-/
import proofs.«406663_j42339787604121_3_alg».proof.Proof.RowMath
import Idealize.ShloMosaic.Lib.ValueIdx

noncomputable section

namespace Cert.Whole

open Idealize.ShloMosaic Idealize.ShloMosaic.ValueIdx Cert.RowMath

/-- The row formula applied to row `b` of the input. -/
def rowOut (X : (⟨2, ![131072, 329]⟩ : Shape).Idx → EReal)
    (a1 : (⟨2, ![9, 9]⟩ : Shape).Idx → EReal)
    (a2 : (⟨1, ![9]⟩ : Shape).Idx → EReal)
    (a3 : (⟨2, ![9, 17]⟩ : Shape).Idx → EReal)
    (a4 : (⟨1, ![9]⟩ : Shape).Idx → EReal)
    (a5 : (⟨2, ![9, 11]⟩ : Shape).Idx → EReal)
    (a6 : (⟨1, ![9]⟩ : Shape).Idx → EReal)
    (a7 : (⟨2, ![9, 11]⟩ : Shape).Idx → EReal)
    (a8 : (⟨1, ![9]⟩ : Shape).Idx → EReal)
    (a9 : (⟨2, ![9, 9]⟩ : Shape).Idx → EReal)
    (a10 : (⟨1, ![9]⟩ : Shape).Idx → EReal)
    (a11 : (⟨2, ![9, 17]⟩ : Shape).Idx → EReal)
    (a12 : (⟨1, ![9]⟩ : Shape).Idx → EReal)
    (a13 : (⟨2, ![9, 11]⟩ : Shape).Idx → EReal)
    (a14 : (⟨1, ![9]⟩ : Shape).Idx → EReal)
    (a15 : (⟨2, ![9, 11]⟩ : Shape).Idx → EReal)
    (a16 : (⟨1, ![9]⟩ : Shape).Idx → EReal)
    (a17 : (⟨2, ![9, 9]⟩ : Shape).Idx → EReal)
    (a18 : (⟨1, ![9]⟩ : Shape).Idx → EReal)
    (a19 : (⟨2, ![9, 17]⟩ : Shape).Idx → EReal)
    (a20 : (⟨1, ![9]⟩ : Shape).Idx → EReal)
    (a21 : (⟨2, ![9, 11]⟩ : Shape).Idx → EReal)
    (a22 : (⟨1, ![9]⟩ : Shape).Idx → EReal)
    (a23 : (⟨2, ![9, 11]⟩ : Shape).Idx → EReal)
    (a24 : (⟨1, ![9]⟩ : Shape).Idx → EReal)
    (a25 a26 : (⟨1, ![9]⟩ : Shape).Idx → EReal)
    (b : Fin 131072) : Fin 25 → Fin 9 → EReal :=
  attend (proj (fun j => X (ix2 b j)) (fun k d => a1 (ix2 k d)) (fun k => a2 (ix1 k)) (fun k d => a3 (ix2 k d)) (fun k => a4 (ix1 k)) (fun k d => a5 (ix2 k d)) (fun k => a6 (ix1 k)) (fun k d => a7 (ix2 k d)) (fun k => a8 (ix1 k)))
    (proj (fun j => X (ix2 b j)) (fun k d => a9 (ix2 k d)) (fun k => a10 (ix1 k)) (fun k d => a11 (ix2 k d)) (fun k => a12 (ix1 k)) (fun k d => a13 (ix2 k d)) (fun k => a14 (ix1 k)) (fun k d => a15 (ix2 k d)) (fun k => a16 (ix1 k)))
    (proj (fun j => X (ix2 b j)) (fun k d => a17 (ix2 k d)) (fun k => a18 (ix1 k)) (fun k d => a19 (ix2 k d)) (fun k => a20 (ix1 k)) (fun k d => a21 (ix2 k d)) (fun k => a22 (ix1 k)) (fun k d => a23 (ix2 k d)) (fun k => a24 (ix1 k)))
    (fun k => a25 (ix1 k)) (fun k => a26 (ix1 k))

/-- The whole result array. -/
def G (X : (⟨2, ![131072, 329]⟩ : Shape).Idx → EReal)
    (a1 : (⟨2, ![9, 9]⟩ : Shape).Idx → EReal)
    (a2 : (⟨1, ![9]⟩ : Shape).Idx → EReal)
    (a3 : (⟨2, ![9, 17]⟩ : Shape).Idx → EReal)
    (a4 : (⟨1, ![9]⟩ : Shape).Idx → EReal)
    (a5 : (⟨2, ![9, 11]⟩ : Shape).Idx → EReal)
    (a6 : (⟨1, ![9]⟩ : Shape).Idx → EReal)
    (a7 : (⟨2, ![9, 11]⟩ : Shape).Idx → EReal)
    (a8 : (⟨1, ![9]⟩ : Shape).Idx → EReal)
    (a9 : (⟨2, ![9, 9]⟩ : Shape).Idx → EReal)
    (a10 : (⟨1, ![9]⟩ : Shape).Idx → EReal)
    (a11 : (⟨2, ![9, 17]⟩ : Shape).Idx → EReal)
    (a12 : (⟨1, ![9]⟩ : Shape).Idx → EReal)
    (a13 : (⟨2, ![9, 11]⟩ : Shape).Idx → EReal)
    (a14 : (⟨1, ![9]⟩ : Shape).Idx → EReal)
    (a15 : (⟨2, ![9, 11]⟩ : Shape).Idx → EReal)
    (a16 : (⟨1, ![9]⟩ : Shape).Idx → EReal)
    (a17 : (⟨2, ![9, 9]⟩ : Shape).Idx → EReal)
    (a18 : (⟨1, ![9]⟩ : Shape).Idx → EReal)
    (a19 : (⟨2, ![9, 17]⟩ : Shape).Idx → EReal)
    (a20 : (⟨1, ![9]⟩ : Shape).Idx → EReal)
    (a21 : (⟨2, ![9, 11]⟩ : Shape).Idx → EReal)
    (a22 : (⟨1, ![9]⟩ : Shape).Idx → EReal)
    (a23 : (⟨2, ![9, 11]⟩ : Shape).Idx → EReal)
    (a24 : (⟨1, ![9]⟩ : Shape).Idx → EReal)
    (a25 a26 : (⟨1, ![9]⟩ : Shape).Idx → EReal) :
    (⟨3, ![131072, 25, 9]⟩ : Shape).Idx → EReal :=
  fun i => rowOut X a1 a2 a3 a4 a5 a6 a7 a8 a9 a10 a11 a12 a13 a14 a15 a16 a17 a18 a19 a20 a21 a22 a23 a24 a25 a26 (i 0) (i 1) (i 2)

theorem G_apply (X : (⟨2, ![131072, 329]⟩ : Shape).Idx → EReal)
    (a1 : (⟨2, ![9, 9]⟩ : Shape).Idx → EReal)
    (a2 : (⟨1, ![9]⟩ : Shape).Idx → EReal)
    (a3 : (⟨2, ![9, 17]⟩ : Shape).Idx → EReal)
    (a4 : (⟨1, ![9]⟩ : Shape).Idx → EReal)
    (a5 : (⟨2, ![9, 11]⟩ : Shape).Idx → EReal)
    (a6 : (⟨1, ![9]⟩ : Shape).Idx → EReal)
    (a7 : (⟨2, ![9, 11]⟩ : Shape).Idx → EReal)
    (a8 : (⟨1, ![9]⟩ : Shape).Idx → EReal)
    (a9 : (⟨2, ![9, 9]⟩ : Shape).Idx → EReal)
    (a10 : (⟨1, ![9]⟩ : Shape).Idx → EReal)
    (a11 : (⟨2, ![9, 17]⟩ : Shape).Idx → EReal)
    (a12 : (⟨1, ![9]⟩ : Shape).Idx → EReal)
    (a13 : (⟨2, ![9, 11]⟩ : Shape).Idx → EReal)
    (a14 : (⟨1, ![9]⟩ : Shape).Idx → EReal)
    (a15 : (⟨2, ![9, 11]⟩ : Shape).Idx → EReal)
    (a16 : (⟨1, ![9]⟩ : Shape).Idx → EReal)
    (a17 : (⟨2, ![9, 9]⟩ : Shape).Idx → EReal)
    (a18 : (⟨1, ![9]⟩ : Shape).Idx → EReal)
    (a19 : (⟨2, ![9, 17]⟩ : Shape).Idx → EReal)
    (a20 : (⟨1, ![9]⟩ : Shape).Idx → EReal)
    (a21 : (⟨2, ![9, 11]⟩ : Shape).Idx → EReal)
    (a22 : (⟨1, ![9]⟩ : Shape).Idx → EReal)
    (a23 : (⟨2, ![9, 11]⟩ : Shape).Idx → EReal)
    (a24 : (⟨1, ![9]⟩ : Shape).Idx → EReal)
    (a25 a26 : (⟨1, ![9]⟩ : Shape).Idx → EReal)
    (b : Fin 131072) (q : Fin 25) (k : Fin 9) :
    G X a1 a2 a3 a4 a5 a6 a7 a8 a9 a10 a11 a12 a13 a14 a15 a16 a17 a18 a19 a20 a21 a22 a23 a24 a25 a26 (ix3 b q k)
      = rowOut X a1 a2 a3 a4 a5 a6 a7 a8 a9 a10 a11 a12 a13 a14 a15 a16 a17 a18 a19 a20 a21 a22 a23 a24 a25 a26 b q k := rfl

end Cert.Whole

end
-- ==== Proof.KArray.lean ====
/-
  From blocks to the array.  What point t writes back is block t of the whole-array function of the arguments: row r
  of the block is row 64 t + r of the array, and that row's entries are the row formula of the input's row.  The 2048
  blocks of 64 rows cover the 131072 rows, so after the run the output array is that function everywhere.
-/
import proofs.«406663_j42339787604121_3_alg».proof.Proof.KernelIdealValue
import proofs.«406663_j42339787604121_3_alg».proof.Proof.KBlock
import proofs.«406663_j42339787604121_3_alg».proof.Proof.KBlocks
import proofs.«406663_j42339787604121_3_alg».proof.Proof.Whole

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.GenP Cert.KernelIdeal.Reads Cert.RowMath
open Idealize.ShloMosaic.Pipeline (Dat)

variable (m : (ℓ : Loc nD τ sig) → Buf (Elt Ideal) ℓ) (ρ : Dev nD → PrngReg)

/-- The whole-array function at device c's argument arrays. -/
abbrev GK (c : Dev nD) : S131072x25x9.Idx → EReal :=
  Cert.Whole.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

/-- What point t writes back is block t of the whole-array function. -/
theorem flushed_eq (c : Dev nD) (t : Fin cfg0.N) :
    (dats m 0 c).flushed 30 t = ((cfg0.win 30).blk t).view.read (Elt Ideal) (GK m c) := by
  rw [Cert.KernelIdeal.ValueP.flushed30]
  refine funext fun (y : S64x25x9.Idx) => ?_
  obtain ⟨r, q, k, rfl⟩ : ∃ (r : Fin 64) (q : Fin 25) (k : Fin 9), y = ix3 r q k := ⟨y 0, y 1, y 2, eq_ix3 y⟩
  obtain ⟨e0, e1, e2⟩ := idx_out t
  have hemb : ((cfg0.win 30).blk t).view.emb (ix3 r q k) = (ix3 (rowOf t r) q k : S131072x25x9.Idx) := by
    funext a; apply Fin.ext
    match a with
    | ⟨0, _⟩ => show win0_30.index t (0 : Fin 3) * 64 + 1 * r.val = 64 * t.val + r.val; omega
    | ⟨1, _⟩ => show win0_30.index t (1 : Fin 3) * 25 + 1 * q.val = q.val; omega
    | ⟨2, _⟩ => show win0_30.index t (2 : Fin 3) * 9 + 1 * k.val = k.val; omega
  show out0_30 (F := Ideal) (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (B18 m c t) (B19 m c t) (B20 m c t) (B21 m c t) (B22 m c t) (B23 m c t) (B24 m c t) (B25 m c t) (B26 m c t) (B27 m c t) (B28 m c t) (B29 m c t) (ix3 r q k)
      = GK m c (((cfg0.win 30).blk t).view.emb (ix3 r q k))
  rw [hemb, Cert.KernelIdeal.Payload.out_apply]
  rw [blk0 m c t r, blk1 m c t r, blk2 m c t r, blk3 m c t r, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, blk25 m c t, blk26 m c t, blk27 m c t, blk28 m c t, blk29 m c t]
  rfl

/-- An index of the array is in point t's block iff each coordinate is in the block's range on its axis. -/
theorem mem_blk (t : Fin cfg0.N) (i : S131072x25x9.Idx) :
    i ∈ ((cfg0.win 30).blk t).view.set ↔ ∀ a : Fin 3, win0_30.index t a * S64x25x9.size a ≤ (i a).val
      ∧ (i a).val < win0_30.index t a * S64x25x9.size a + S64x25x9.size a := by
  show i ∈ ((View.whole main_v34).slice (win0_30.rect t)).set ↔ _
  rw [View.set_slice_whole, Rect.mem_set_unit]
  exact Iff.rfl

/-- Every row of the array is in the block of the point numbered by the row's quotient by 64. -/
theorem cover (i : S131072x25x9.Idx) :
    ∃ t : Fin cfg0.N, (cfg0.win 30).flush t = true ∧ i ∈ ((cfg0.win 30).blk t).view.set := by
  have h0 : (i 0).val < 131072 := (i 0).isLt
  have h1 : (i 1).val < 25 := (i 1).isLt
  have h2 : (i 2).val < 9 := (i 2).isLt
  have hN : cfg0.N = 2048 := N_0
  refine ⟨⟨(i 0).val / 64, by omega⟩, flush0_30 _, ?_⟩
  rw [mem_blk]
  obtain ⟨e0, e1, e2⟩ := idx_out ⟨(i 0).val / 64, by omega⟩
  intro a
  match a with
  | ⟨0, _⟩ => show win0_30.index _ (0 : Fin 3) * 64 ≤ (i 0).val ∧ (i 0).val < win0_30.index _ (0 : Fin 3) * 64 + 64; rw [e0]; show (i 0).val / 64 * 64 ≤ (i 0).val ∧ (i 0).val < (i 0).val / 64 * 64 + 64; omega
  | ⟨1, _⟩ => show win0_30.index _ (1 : Fin 3) * 25 ≤ (i 1).val ∧ (i 1).val < win0_30.index _ (1 : Fin 3) * 25 + 25; rw [e1]; omega
  | ⟨2, _⟩ => show win0_30.index _ (2 : Fin 3) * 9 ≤ (i 2).val ∧ (i 2).val < win0_30.index _ (2 : Fin 3) * 9 + 9; rw [e2]; omega

/-- After the run the output array is the whole-array function of the arguments. -/
theorem final (c : Dev nD) : (dats m 0 c).arrAt 30 cfg0.N = GK m c :=
  (dats m 0 c).arrAt_eq_of_cover 30 (GK m c) (fun t _ => flushed_eq m c t) (cover)

/-- The run, read: the result array at the whole-array function, the arguments unchanged. -/
theorem run : θ_run defs (onTc (τ := τ) (main (F := Ideal))) ⟨m, fun _ => 0, ρ⟩ fun r => ∀ c : Dev nD,
      r.2.mem ((c : Thread nD τ).loc main_v34) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final m c), (h c).2⟩)
    (Cert.KernelIdeal.ValueP.run_blocks m ρ)

end Cert.KernelIdeal.Whole

end
-- ==== Proof.RStages.lean ====
/-
  The reference, cut into the same stages as the kernel body, each as one function of whole arrays at the exact
  instance: the affine map of each token group, the four results laid end to end, the attention with its centring,
  and the final scaling.  The reference's own operations are used, so that its result is these stages composed.
-/
import proofs.«406663_j42339787604121_3_alg».proof.ReferenceIdeal
import proofs.«406663_j42339787604121_3_alg».proof.Proof.Gen.ReferenceIdeal
import Idealize.ShloMosaic.PureOps.Ideal

noncomputable section

namespace Cert.ReferenceIdeal.Stages

open Idealize.ShloMosaic Cert.ReferenceIdeal Cert.ReferenceIdeal.Gen

/-- The affine map of the 3 tokens of width 9, on every row: tokens times weights over the width, plus the bias
    spread over rows and tokens. -/
def linA (x : FVec Ideal S131072x3x9 .f32) (w : FVec Ideal S9x9 .f32) (b : FVec Ideal S9 .f32) : FVec Ideal S131072x3x9 .f32 :=
  addf (Host.dotGeneral (F := Ideal) dot_S131072x3x9_S9x9_S131072x3x9_2_1_01_0_n_n none x w)
    (broadcastInDim S131072x3x9 ![0, 1, 2] bcast_S1x1x9_S131072x3x9_0_1_2 (broadcastInDim S1x1x9 ![2] bcast_S9_S1x1x9_2 b))

/-- The affine map of the 10 tokens of width 17. -/
def linB (x : FVec Ideal S131072x10x17 .f32) (w : FVec Ideal S9x17 .f32) (b : FVec Ideal S9 .f32) : FVec Ideal S131072x10x9 .f32 :=
  addf (Host.dotGeneral (F := Ideal) dot_S131072x10x17_S9x17_S131072x10x9_2_1_01_0_n_n none x w)
    (broadcastInDim S131072x10x9 ![0, 1, 2] bcast_S1x1x9_S131072x10x9_0_1_2 (broadcastInDim S1x1x9 ![2] bcast_S9_S1x1x9_2 b))

/-- The affine map of the 10 tokens of width 11. -/
def linC (x : FVec Ideal S131072x10x11 .f32) (w : FVec Ideal S9x11 .f32) (b : FVec Ideal S9 .f32) : FVec Ideal S131072x10x9 .f32 :=
  addf (Host.dotGeneral (F := Ideal) dot_S131072x10x11_S9x11_S131072x10x9_2_1_01_0_n_n none x w)
    (broadcastInDim S131072x10x9 ![0, 1, 2] bcast_S1x1x9_S131072x10x9_0_1_2 (broadcastInDim S1x1x9 ![2] bcast_S9_S1x1x9_2 b))

/-- The affine map of the 2 tokens of width 11. -/
def linD (x : FVec Ideal S131072x2x11 .f32) (w : FVec Ideal S9x11 .f32) (b : FVec Ideal S9 .f32) : FVec Ideal S131072x2x9 .f32 :=
  addf (Host.dotGeneral (F := Ideal) dot_S131072x2x11_S9x11_S131072x2x9_2_1_01_0_n_n none x w)
    (broadcastInDim S131072x2x9 ![0, 1, 2] bcast_S1x1x9_S131072x2x9_0_1_2 (broadcastInDim S1x1x9 ![2] bcast_S9_S1x1x9_2 b))

/-- The four groups' results laid end to end along the token axis. -/
def cat (a : FVec Ideal S131072x3x9 .f32) (b c : FVec Ideal S131072x10x9 .f32) (d : FVec Ideal S131072x2x9 .f32) :
    FVec Ideal S131072x25x9 .f32 :=
  concatenate S131072x25x9 1 [⟨S131072x3x9, a⟩, ⟨S131072x10x9, b⟩, ⟨S131072x10x9, c⟩, ⟨S131072x2x9, d⟩]
    concatenates_S131072x3x9_S131072x10x9_S131072x10x9_S131072x2x9_S131072x25x9_d1

/-- The scores: keys against keys over the width, divided by the root of nine. -/
def scoresV (K : FVec Ideal S131072x25x9 .f32) : FVec Ideal S131072x25x25 .f32 :=
  Host.divf (F := Ideal) (Host.dotGeneral (F := Ideal) dot_S131072x25x9_S131072x25x9_S131072x25x25_2_2_1_1_0_0 none K K)
    (broadcastInDim S131072x25x25 ![] bcast_S_S131072x25x25 (Host.sqrt (F := Ideal) (constant (F := Ideal) S_ .f32 0x41100000#32)))

/-- The exponentials of the scores' distances below each token's largest score. -/
def exposV (S : FVec Ideal S131072x25x25 .f32) : FVec Ideal S131072x25x25 .f32 :=
  Host.exp (F := Ideal) (subf S (broadcastInDim S131072x25x25 ![0, 1, 2] bcast_S131072x25x1_S131072x25x25_0_1_2
    (broadcastInDim S131072x25x1 ![0, 1] bcast_S131072x25_S131072x25x1_0_1
      (maximumf (broadcastInDim S131072x25 ![] bcast_S_S131072x25 (constant (F := Ideal) S_ .f32 0xFF800000#32))
        (Host.reduce FloatOps.maximumf S (constant (F := Ideal) S_ .f32 0xFF800000#32) reducesTo_S131072x25x25_S131072x25_d2 h_S_)))))

/-- The softmax weights times the values, plus the residuals. -/
def mixedV (E : FVec Ideal S131072x25x25 .f32) (V R : FVec Ideal S131072x25x9 .f32) : FVec Ideal S131072x25x9 .f32 :=
  addf (Host.dotGeneral (F := Ideal) dot_S131072x25x25_S131072x25x9_S131072x25x9_2_1_1_2_0_0 none
      (Host.divf (F := Ideal) E (broadcastInDim S131072x25x25 ![0, 1, 2] bcast_S131072x25x1_S131072x25x25_0_1_2
        (broadcastInDim S131072x25x1 ![0, 1] bcast_S131072x25_S131072x25x1_0_1
          (Host.reduceAdd (F := Ideal) E (constant (F := Ideal) S_ .f32 0x00000000#32) reducesTo_S131072x25x25_S131072x25_d2 h_S_)))) V) R

/-- Each token's mean, kept as a last axis of extent one. -/
def meanV (O : FVec Ideal S131072x25x9 .f32) : FVec Ideal S131072x25x1 .f32 :=
  Host.divf (F := Ideal) (broadcastInDim S131072x25x1 ![0, 1] bcast_S131072x25_S131072x25x1_0_1
      (Host.reduceAdd (F := Ideal) O (constant (F := Ideal) S_ .f32 0x00000000#32) reducesTo_S131072x25x9_S131072x25_d2 h_S_))
    (broadcastInDim S131072x25x1 ![] bcast_S_S131072x25x1 (constant (F := Ideal) S_ .f32 0x41100000#32))

/-- The entries with their token's mean taken off. -/
def centredOf (O : FVec Ideal S131072x25x9 .f32) : FVec Ideal S131072x25x9 .f32 :=
  subf O (broadcastInDim S131072x25x9 ![0, 1, 2] bcast_S131072x25x1_S131072x25x9_0_1_2 (meanV O))

/-- Attention on the whole array, from keys, values and residuals, centred. -/
def centredV (K V R : FVec Ideal S131072x25x9 .f32) : FVec Ideal S131072x25x9 .f32 :=
  centredOf (mixedV (exposV (scoresV K)) V R)

/-- The last stage: centred entries over the root of their mean square plus the small constant, scaled and shifted. -/
def finishV (C : FVec Ideal S131072x25x9 .f32) (g β : FVec Ideal S9 .f32) : FVec Ideal S131072x25x9 .f32 :=
  addf (mulf (mulf C (broadcastInDim S131072x25x9 ![0, 1, 2] bcast_S131072x25x1_S131072x25x9_0_1_2
      (Host.rsqrt (F := Ideal) (addf (Host.divf (F := Ideal) (broadcastInDim S131072x25x1 ![0, 1] bcast_S131072x25_S131072x25x1_0_1
          (Host.reduceAdd (F := Ideal) (mulf C C) (constant (F := Ideal) S_ .f32 0x00000000#32) reducesTo_S131072x25x9_S131072x25_d2 h_S_))
        (broadcastInDim S131072x25x1 ![] bcast_S_S131072x25x1 (constant (F := Ideal) S_ .f32 0x41100000#32)))
        (broadcastInDim S131072x25x1 ![] bcast_S_S131072x25x1 (constant (F := Ideal) S_ .f32 0x3727C5AC#32))))))
      (broadcastInDim S131072x25x9 ![0, 1, 2] bcast_S1x1x9_S131072x25x9_0_1_2 (broadcastInDim S1x1x9 ![2] bcast_S9_S1x1x9_2 g)))
    (broadcastInDim S131072x25x9 ![0, 1, 2] bcast_S1x1x9_S131072x25x9_0_1_2 (broadcastInDim S1x1x9 ![2] bcast_S9_S1x1x9_2 β))

end Cert.ReferenceIdeal.Stages

end
-- ==== Proof.RResult.lean ====
/-
  The reference's result is its stages composed: the term its run ends at, as a function of the argument arrays,
  is the last stage of the attention stage of the three projections.  Nothing is computed here: the named
  intermediate terms are opened and the operations regrouped.
-/
import proofs.«406663_j42339787604121_3_alg».proof.Proof.Gen.ReferenceIdeal.Run
import proofs.«406663_j42339787604121_3_alg».proof.Proof.RStages

noncomputable section

namespace Cert.ReferenceIdeal.Result

open Idealize.ShloMosaic Idealize.ShloMosaic.TcCoe Idealize.ShloMosaic.StableHlo Cert.ReferenceIdeal Cert.ReferenceIdeal.Gen
  Cert.ReferenceIdeal.Value Cert.ReferenceIdeal.Stages

set_option maxRecDepth 8192 in
theorem result_eq (V0 : Valuation τ sig (Elt Ideal)) :
    (addf (mulf (mulf (subf (res_main_v75 V0) (broadcastInDim S131072x25x9 ![0, 1, 2] bcast_S131072x25x1_S131072x25x9_0_1_2 (res_main_v79 V0))) (broadcastInDim S131072x25x9 ![0, 1, 2] bcast_S131072x25x1_S131072x25x9_0_1_2 (Host.rsqrt (F := Ideal) (addf (Host.divf (F := Ideal) (broadcastInDim S131072x25x1 ![0, 1] bcast_S131072x25_S131072x25x1_0_1 (Host.reduceAdd (F := Ideal) (mulf (res_main_v81 V0) (res_main_v81 V0)) (constant (F := Ideal) S_ .f32 0x00000000#32) reducesTo_S131072x25x9_S131072x25_d2 h_S_)) (broadcastInDim S131072x25x1 ![] bcast_S_S131072x25x1 (constant (F := Ideal) S_ .f32 0x41100000#32))) (broadcastInDim S131072x25x1 ![] bcast_S_S131072x25x1 (constant (F := Ideal) S_ .f32 0x3727C5AC#32)))))) (broadcastInDim S131072x25x9 ![0, 1, 2] bcast_S1x1x9_S131072x25x9_0_1_2 (broadcastInDim S1x1x9 ![2] bcast_S9_S1x1x9_2 (V0 (Proc.devRef .tc main_arg25))))) (broadcastInDim S131072x25x9 ![0, 1, 2] bcast_S1x1x9_S131072x25x9_0_1_2 (broadcastInDim S1x1x9 ![2] bcast_S9_S1x1x9_2 (V0 (Proc.devRef .tc main_arg26)))) : FVec Ideal S131072x25x9 .f32)
      = finishV (centredV
        (cat (linA (res_main_v1 V0) (V0 (Proc.devRef .tc main_arg1)) (V0 (Proc.devRef .tc main_arg2))) (linB (res_main_v3 V0) (V0 (Proc.devRef .tc main_arg3)) (V0 (Proc.devRef .tc main_arg4)))
          (linC (res_main_v5 V0) (V0 (Proc.devRef .tc main_arg5)) (V0 (Proc.devRef .tc main_arg6))) (linD (res_main_v7 V0) (V0 (Proc.devRef .tc main_arg7)) (V0 (Proc.devRef .tc main_arg8))))
        (cat (linA (res_main_v1 V0) (V0 (Proc.devRef .tc main_arg9)) (V0 (Proc.devRef .tc main_arg10))) (linB (res_main_v3 V0) (V0 (Proc.devRef .tc main_arg11)) (V0 (Proc.devRef .tc main_arg12)))
          (linC (res_main_v5 V0) (V0 (Proc.devRef .tc main_arg13)) (V0 (Proc.devRef .tc main_arg14))) (linD (res_main_v7 V0) (V0 (Proc.devRef .tc main_arg15)) (V0 (Proc.devRef .tc main_arg16))))
        (cat (linA (res_main_v1 V0) (V0 (Proc.devRef .tc main_arg17)) (V0 (Proc.devRef .tc main_arg18))) (linB (res_main_v3 V0) (V0 (Proc.devRef .tc main_arg19)) (V0 (Proc.devRef .tc main_arg20)))
          (linC (res_main_v5 V0) (V0 (Proc.devRef .tc main_arg21)) (V0 (Proc.devRef .tc main_arg22))) (linD (res_main_v7 V0) (V0 (Proc.devRef .tc main_arg23)) (V0 (Proc.devRef .tc main_arg24)))))
      (V0 (Proc.devRef .tc main_arg25)) (V0 (Proc.devRef .tc main_arg26)) := by
  unfold finishV centredV centredOf meanV mixedV exposV scoresV cat linA linB linC linD
  unfold res_main_v81 res_main_v79 res_main_v75 res_main_v69 res_main_v62 res_main_v24
  rfl

end Cert.ReferenceIdeal.Result

end
-- ==== Proof.RLin.lean ====
/-
  The affine stages of the reference read at an index: entry (r, n, k) of a group's result is the sum over the
  token's width of entry (r, n, d) times weight (k, d), plus bias k; and the four results laid end to end read, at
  token n, the group that n falls in.
-/
import proofs.«406663_j42339787604121_3_alg».proof.Proof.RStages
import proofs.«406663_j42339787604121_3_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.ReferenceIdeal.Stages

open Idealize.ShloMosaic Idealize.ShloMosaic.ValueIdx Cert.ReferenceIdeal Cert.ReferenceIdeal.Gen Cert.RowMath

/-- Tokens times weights: a product of [R, N, L] with [K, L] contracting the last axis of each, no batch axis, read
    at (r, n, k), is the sum over the width of entry (r, n, d) times weight (k, d). -/
theorem dot_rows_apply {R N K L : Nat} {φ₁ φ₂ : FTy}
    (wf : DotDims.WF ⟨3, ![R, N, L]⟩ ⟨2, ![K, L]⟩ ⟨3, ![R, N, K]⟩ [2] [1] [0, 1] [0] [] [])
    (x : FVec Ideal ⟨3, ![R, N, L]⟩ φ₁) (w : FVec Ideal ⟨2, ![K, L]⟩ φ₂) (r : Fin R) (n : Fin N) (k : Fin K) :
    Host.dotGeneral (F := Ideal) (⟨[2], [1], [0, 1], [0], [], [], wf⟩ : DotDims _ _ _) none x w (ix3 r n k)
      = ∑ d : Fin L, x (ix3 r n d) * w (ix2 k d) := by
  show FloatOps.dotGeneral _ none _ x w (ix3 r n k) = _
  -- the sum over the contraction index, re-indexed by its one coordinate
  rw [Ideal.dotGeneral_apply,
    ← Equiv.sum_comp (contrEquiv1 (⟨[2], [1], [0, 1], [0], [], [], wf⟩ : DotDims _ _ _) L rfl rfl).symm]
  refine Finset.sum_congr rfl fun d _ => ?_
  have cd := contrEquiv1_symm_val
    (⟨[2], [1], [0, 1], [0], [], [], wf⟩ : DotDims ⟨3, ![R, N, L]⟩ ⟨2, ![K, L]⟩ ⟨3, ![R, N, K]⟩) L rfl rfl d
  -- the left operand is read at (r, n, d): its two free axes follow the result's first two, its last the contraction
  have hl : (⟨[2], [1], [0, 1], [0], [], [], wf⟩ : DotDims ⟨3, ![R, N, L]⟩ ⟨2, ![K, L]⟩ ⟨3, ![R, N, K]⟩).lhsIdx (ix3 r n k)
      ((contrEquiv1 _ L rfl rfl).symm d) = ix3 r n d := by
    funext ax; apply Fin.ext
    match ax with
    | ⟨0, _⟩ => simp [DotDims.lhsIdx]; rfl
    | ⟨1, _⟩ => simp [DotDims.lhsIdx]; rfl
    | ⟨2, _⟩ => simp [DotDims.lhsIdx]; exact cd
  -- the right operand is read at (k, d): its free axis follows the result's last, its second the contraction
  have hr : (⟨[2], [1], [0, 1], [0], [], [], wf⟩ : DotDims ⟨3, ![R, N, L]⟩ ⟨2, ![K, L]⟩ ⟨3, ![R, N, K]⟩).rhsIdx (ix3 r n k)
      ((contrEquiv1 _ L rfl rfl).symm d) = ix2 k d := by
    funext ax; apply Fin.ext
    match ax with
    | ⟨0, _⟩ => simp [DotDims.rhsIdx]; rfl
    | ⟨1, _⟩ => simp [DotDims.rhsIdx]; exact cd
  rw [hl, hr]

/-- The bias spread over rows and tokens: a vector of 9 entries placed on the last axis of [1, 1, 9], then repeated
    along the two unit axes to [R, N, 9], read at (r, n, k), is entry k of the vector. -/
theorem bias_rows_apply {R N : Nat} {α : Type}
    (h1 : (⟨1, ![9]⟩ : Shape).BroadcastsInDim ⟨3, ![1, 1, 9]⟩ ![2])
    (h2 : (⟨3, ![1, 1, 9]⟩ : Shape).BroadcastsInDim ⟨3, ![R, N, 9]⟩ ![0, 1, 2])
    (b : (⟨1, ![9]⟩ : Shape).Idx → α) (r : Fin R) (n : Fin N) (k : Fin 9) :
    broadcastInDim ⟨3, ![R, N, 9]⟩ ![0, 1, 2] h2 (broadcastInDim ⟨3, ![1, 1, 9]⟩ ![2] h1 b) (ix3 r n k) = b (ix1 k) := by
  -- the outer repeat reads the inner array at (0, 0, k): its first two axes have extent one
  refine (broadcastInDim_apply _ h2 _ (ix3 r n k) (ix3 (0 : Fin 1) (0 : Fin 1) k) fun a => ?_).trans ?_
  · match a with
    | ⟨0, _⟩ => rfl
    | ⟨1, _⟩ => rfl
    | ⟨2, _⟩ => rfl
  -- the inner placement reads the vector at k: its one axis is the last axis of [1, 1, 9]
  · refine broadcastInDim_apply _ h1 _ (ix3 (0 : Fin 1) (0 : Fin 1) k) (ix1 k) fun a => ?_
    match a with
    | ⟨0, _⟩ => rfl

theorem linA_apply (x : FVec Ideal S131072x3x9 .f32) (w : FVec Ideal S9x9 .f32) (b : FVec Ideal S9 .f32)
    (r : Fin 131072) (n : Fin 3) (k : Fin 9) :
    linA x w b (ix3 r n k) = lin (fun n d => x (ix3 r n d)) (fun k d => w (ix2 k d)) (fun k => b (ix1 k)) n k := by
  -- the stage is the product plus the spread bias; read each at (r, n, k)
  unfold linA lin
  rw [addf_apply]
  exact congrArg₂ (· + ·) (dot_rows_apply _ x w r n k) (bias_rows_apply _ _ b r n k)

theorem linB_apply (x : FVec Ideal S131072x10x17 .f32) (w : FVec Ideal S9x17 .f32) (b : FVec Ideal S9 .f32)
    (r : Fin 131072) (n : Fin 10) (k : Fin 9) :
    linB x w b (ix3 r n k) = lin (fun n d => x (ix3 r n d)) (fun k d => w (ix2 k d)) (fun k => b (ix1 k)) n k := by
  -- the stage is the product plus the spread bias; read each at (r, n, k)
  unfold linB lin
  rw [addf_apply]
  exact congrArg₂ (· + ·) (dot_rows_apply _ x w r n k) (bias_rows_apply _ _ b r n k)

theorem linC_apply (x : FVec Ideal S131072x10x11 .f32) (w : FVec Ideal S9x11 .f32) (b : FVec Ideal S9 .f32)
    (r : Fin 131072) (n : Fin 10) (k : Fin 9) :
    linC x w b (ix3 r n k) = lin (fun n d => x (ix3 r n d)) (fun k d => w (ix2 k d)) (fun k => b (ix1 k)) n k := by
  -- the stage is the product plus the spread bias; read each at (r, n, k)
  unfold linC lin
  rw [addf_apply]
  exact congrArg₂ (· + ·) (dot_rows_apply _ x w r n k) (bias_rows_apply _ _ b r n k)

theorem linD_apply (x : FVec Ideal S131072x2x11 .f32) (w : FVec Ideal S9x11 .f32) (b : FVec Ideal S9 .f32)
    (r : Fin 131072) (n : Fin 2) (k : Fin 9) :
    linD x w b (ix3 r n k) = lin (fun n d => x (ix3 r n d)) (fun k d => w (ix2 k d)) (fun k => b (ix1 k)) n k := by
  -- the stage is the product plus the spread bias; read each at (r, n, k)
  unfold linD lin
  rw [addf_apply]
  exact congrArg₂ (· + ·) (dot_rows_apply _ x w r n k) (bias_rows_apply _ _ b r n k)

theorem cat_apply (a : FVec Ideal S131072x3x9 .f32) (b c : FVec Ideal S131072x10x9 .f32) (d : FVec Ideal S131072x2x9 .f32)
    (r : Fin 131072) (n : Fin 25) (k : Fin 9) :
    cat a b c d (ix3 r n k)
      = cat4 (fun n k => a (ix3 r n k)) (fun n k => b (ix3 r n k)) (fun n k => c (ix3 r n k))
          (fun n k => d (ix3 r n k)) n k := by
  unfold cat cat4
  by_cases h1 : n.val < 3
  · -- the first group: tokens 0, 1, 2, nothing before them
    rw [dif_pos h1]
    refine concatenate_apply_piece _ _ _ (ix3 r n k) 0 (by simp) S131072x3x9 a rfl rfl 0 rfl
      (ix3 r ⟨n.val, h1⟩ k) (fun ax hax => ?_) ?_
    · match ax with
      | ⟨0, _⟩ => rfl
      | ⟨1, _⟩ => exact absurd rfl hax
      | ⟨2, _⟩ => rfl
    · show 0 + n.val = n.val
      omega
  · rw [dif_neg h1]
    by_cases h2 : n.val < 13
    · -- the second group: tokens 3 to 12, after the first group's 3
      rw [dif_pos h2]
      refine concatenate_apply_piece _ _ _ (ix3 r n k) 1 (by simp) S131072x10x9 b rfl rfl 3 rfl
        (ix3 r ⟨n.val - 3, by omega⟩ k) (fun ax hax => ?_) ?_
      · match ax with
        | ⟨0, _⟩ => rfl
        | ⟨1, _⟩ => exact absurd rfl hax
        | ⟨2, _⟩ => rfl
      · show 3 + (n.val - 3) = n.val
        omega
    · rw [dif_neg h2]
      by_cases h3 : n.val < 23
      · -- the third group: tokens 13 to 22, after 3 + 10
        rw [dif_pos h3]
        refine concatenate_apply_piece _ _ _ (ix3 r n k) 2 (by simp) S131072x10x9 c rfl rfl 13 rfl
          (ix3 r ⟨n.val - 13, by omega⟩ k) (fun ax hax => ?_) ?_
        · match ax with
          | ⟨0, _⟩ => rfl
          | ⟨1, _⟩ => exact absurd rfl hax
          | ⟨2, _⟩ => rfl
        · show 13 + (n.val - 13) = n.val
          omega
      · -- the last group: tokens 23 and 24, after 3 + 10 + 10
        rw [dif_neg h3]
        have hn := n.isLt
        refine concatenate_apply_piece _ _ _ (ix3 r n k) 3 (by simp) S131072x2x9 d rfl rfl 23 rfl
          (ix3 r ⟨n.val - 23, by omega⟩ k) (fun ax hax => ?_) ?_
        · match ax with
          | ⟨0, _⟩ => rfl
          | ⟨1, _⟩ => exact absurd rfl hax
          | ⟨2, _⟩ => rfl
        · show 23 + (n.val - 23) = n.val
          omega

end Cert.ReferenceIdeal.Stages

end
-- ==== Proof.RAttn.lean ====
/-
  The attention stage and the last stage of the reference read at an index: row r of the whole array goes through
  the row's own formula.  The one place the two programs spell a number differently is here: the reference divides
  the scores by the root of nine, which is three, and a quotient by three is the product with one third.
-/
import proofs.«406663_j42339787604121_3_alg».proof.Proof.RStages
import proofs.«406663_j42339787604121_3_alg».proof.Proof.RowMath
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.PureOps.Reduce

noncomputable section

open scoped BigOperators

namespace Cert.ReferenceIdeal.Stages

open Idealize.ShloMosaic Idealize.ShloMosaic.ValueIdx Cert.ReferenceIdeal Cert.ReferenceIdeal.Gen Cert.RowMath

/-! ## The two batched products' operand indices

Both products carry the row as a batch axis and contract one axis.  At result index (r, q, ·) and contraction
coordinate c the operands are read at the same row r. -/

/-- Keys against keys: both operands contract their width (axis 2). -/
private abbrev dK := dot_S131072x25x9_S131072x25x9_S131072x25x25_2_2_1_1_0_0

/-- At result (r, q, s) and width coordinate k the left operand is read at (r, q, k). -/
private theorem dK_lhsIdx (r : Fin 131072) (q s : Fin 25) (k : Fin 9) :
    dK.lhsIdx (ix3 r q s) ((contrEquiv1 dK 9 rfl rfl).symm k) = ix3 r q k := by
  funext a
  match a with
  | ⟨0, _⟩ => exact Fin.ext rfl
  | ⟨1, _⟩ => exact Fin.ext rfl
  | ⟨2, _⟩ => exact Fin.ext rfl

/-- … and the right operand at (r, s, k). -/
private theorem dK_rhsIdx (r : Fin 131072) (q s : Fin 25) (k : Fin 9) :
    dK.rhsIdx (ix3 r q s) ((contrEquiv1 dK 9 rfl rfl).symm k) = ix3 r s k := by
  funext a
  match a with
  | ⟨0, _⟩ => exact Fin.ext rfl
  | ⟨1, _⟩ => exact Fin.ext rfl
  | ⟨2, _⟩ => exact Fin.ext rfl

/-- Weights against values: the weights contract their last axis, the values their token axis. -/
private abbrev dP := dot_S131072x25x25_S131072x25x9_S131072x25x9_2_1_1_2_0_0

/-- At result (r, q, k) and token coordinate s the weights are read at (r, q, s). -/
private theorem dP_lhsIdx (r : Fin 131072) (q : Fin 25) (k : Fin 9) (s : Fin 25) :
    dP.lhsIdx (ix3 r q k) ((contrEquiv1 dP 25 rfl rfl).symm s) = ix3 r q s := by
  funext a
  match a with
  | ⟨0, _⟩ => exact Fin.ext rfl
  | ⟨1, _⟩ => exact Fin.ext rfl
  | ⟨2, _⟩ => exact Fin.ext rfl

/-- … and the values at (r, s, k). -/
private theorem dP_rhsIdx (r : Fin 131072) (q : Fin 25) (k : Fin 9) (s : Fin 25) :
    dP.rhsIdx (ix3 r q k) ((contrEquiv1 dP 25 rfl rfl).symm s) = ix3 r s k := by
  funext a
  match a with
  | ⟨0, _⟩ => exact Fin.ext rfl
  | ⟨1, _⟩ => exact Fin.ext rfl
  | ⟨2, _⟩ => exact Fin.ext rfl

/-! ## The reductions over the last axis

The index over (r, q) with coordinate c inserted on the dropped last axis is (r, q, c). -/

private theorem redS : S131072x25x25.Reduces [2] S131072x25 := by decide

private theorem redS_lift (r : Fin 131072) (q : Fin 25) (s : Fin 25) : redS.lift (ix2 r q) s = ix3 r q s := by
  funext a
  match a with
  | ⟨0, _⟩ => exact Fin.ext rfl
  | ⟨1, _⟩ => exact Fin.ext rfl
  | ⟨2, _⟩ => exact Fin.ext rfl

private theorem redO : S131072x25x9.Reduces [2] S131072x25 := by decide

private theorem redO_lift (r : Fin 131072) (q : Fin 25) (k : Fin 9) : redO.lift (ix2 r q) k = ix3 r q k := by
  funext a
  match a with
  | ⟨0, _⟩ => exact Fin.ext rfl
  | ⟨1, _⟩ => exact Fin.ext rfl
  | ⟨2, _⟩ => exact Fin.ext rfl

/-! ## The constants -/

/-- The word 0x41100000 denotes the real nine. -/
private theorem nine_eq : Ideal.ofBits .f32 0x41100000#32 = ((9 : ℝ) : EReal) := by
  simp [Ideal.ofBits, Ideal.ieee, -EReal.coe_mul]; norm_num

/-- The root of nine is three: 9 = 3 · 3. -/
private theorem sqrt_nine : Ideal.sqrt (Ideal.ofBits .f32 0x41100000#32) = ((3 : ℝ) : EReal) := by
  rw [nine_eq, Ideal.sqrt_coe, if_neg (by norm_num)]
  rw [show (9 : ℝ) = 3 * 3 by norm_num, Real.sqrt_mul_self (by norm_num)]

/-- The word 0xFF800000 denotes minus infinity, the least extended real. -/
private theorem negInf_eq : Ideal.ofBits .f32 0xFF800000#32 = (⊥ : EReal) := by
  simp [Ideal.ofBits, Ideal.ieee]

/-- The host's exponential at an index is the exponential of the element. -/
private theorem hostExp_apply {s : Shape} {φ : FTy} (x : FVec Ideal s φ) (i : s.Idx) :
    Host.exp x i = Ideal.exp (x i) := rfl

/-! ## Stage 1: the scores -/

/-- The score of tokens q and s of row r: the inner product of their keys over the width, divided by the root of
    nine.  The root is three, and the quotient by three is the product with one third. -/
theorem scoresV_apply (K : FVec Ideal S131072x25x9 .f32) (r : Fin 131072) (q s : Fin 25) :
    scoresV K (ix3 r q s) = score (fun q k => K (ix3 r q k)) q s := by
  unfold scoresV score
  refine (hostDivf_apply _ _ _).trans ?_
  rw [broadcastInDim_scalar_apply]
  show Ideal.div _ (Ideal.sqrt (Ideal.ofBits .f32 0x41100000#32)) = _
  rw [sqrt_nine, Ideal.div_coe (by norm_num)]
  congr 1
  -- the product at (r, q, s) is the sum over the width of K (r, q, k) · K (r, s, k)
  refine (Ideal.dotGeneral_apply _ _ _ _ _ _).trans ?_
  rw [← Equiv.sum_comp (contrEquiv1 dK 9 rfl rfl).symm]
  refine Finset.sum_congr rfl fun k _ => ?_
  rw [dK_lhsIdx, dK_rhsIdx]

/-! ## Stage 2: the exponentials -/

/-- The largest score of token q of row r: the maximum over s from minus infinity; the further maximum with minus
    infinity changes nothing. -/
private theorem rowMax_apply (S : FVec Ideal S131072x25x25 .f32) (r : Fin 131072) (q : Fin 25) :
    maximumf (broadcastInDim S131072x25 ![] bcast_S_S131072x25 (constant (F := Ideal) S_ .f32 0xFF800000#32))
        (Host.reduce FloatOps.maximumf S (constant (F := Ideal) S_ .f32 0xFF800000#32) reducesTo_S131072x25x25_S131072x25_d2 h_S_)
        (ix2 r q)
      = top (fun q s => S (ix3 r q s)) q := by
  rw [maximumf_apply, broadcastInDim_scalar_apply, constant_apply, negInf_eq, max_eq_right bot_le]
  refine (Host.reduce_eq_fold_single _ _ _ _ redS _ _).trans ?_
  rw [constant_apply, negInf_eq]
  unfold top
  have e : (S ∘ redS.lift (ix2 r q)) = (fun q s => S (ix3 r q s)) q :=
    funext fun s => congrArg S (redS_lift r q s)
  rw [e]; rfl

/-- The exponential of a score's distance below its token's largest score. -/
theorem exposV_apply (S : FVec Ideal S131072x25x25 .f32) (r : Fin 131072) (q s : Fin 25) :
    exposV S (ix3 r q s) = expo (fun q s => S (ix3 r q s)) q s := by
  unfold exposV expo
  refine (hostExp_apply _ _).trans ?_
  rw [subf_apply]
  refine congrArg (fun t => Ideal.exp (S (ix3 r q s) - t)) ?_
  -- the largest score is spread back over the last axis: read it at (r, q)
  refine (broadcastInDim_apply _ _ _ (ix3 r q s) (ix3 r q (0 : Fin 1)) ?_).trans ?_
  · intro a; match a with | ⟨0, _⟩ => rfl | ⟨1, _⟩ => rfl | ⟨2, _⟩ => rfl
  refine (broadcastInDim_apply _ _ _ (ix3 r q (0 : Fin 1)) (ix2 r q) ?_).trans ?_
  · intro a; match a with | ⟨0, _⟩ => rfl | ⟨1, _⟩ => rfl
  exact rowMax_apply S r q

/-! ## Stage 3: the weighted mix -/

/-- The sum of a token's exponentials: zero plus the sum over s. -/
private theorem rowSum_apply (E : FVec Ideal S131072x25x25 .f32) (r : Fin 131072) (q : Fin 25) :
    Host.reduceAdd (F := Ideal) E (constant (F := Ideal) S_ .f32 0x00000000#32) reducesTo_S131072x25x25_S131072x25_d2 h_S_ (ix2 r q)
      = ∑ s' : Fin 25, E (ix3 r q s') := by
  refine (hostReduceAdd_apply _ _ _ _ _).trans ?_
  refine (Ideal.hostReduceAdd_single _ redS _ _ _).trans ?_
  rw [constant_apply, Ideal.ofBits_zero_f32, zero_add]
  exact Finset.sum_congr rfl fun s' _ => congrArg E (redS_lift r q s')

/-- The softmax weights: each exponential over its token's sum. -/
private theorem weightsV_apply (E : FVec Ideal S131072x25x25 .f32) (r : Fin 131072) (q s : Fin 25) :
    Host.divf (F := Ideal) E (broadcastInDim S131072x25x25 ![0, 1, 2] bcast_S131072x25x1_S131072x25x25_0_1_2
        (broadcastInDim S131072x25x1 ![0, 1] bcast_S131072x25_S131072x25x1_0_1
          (Host.reduceAdd (F := Ideal) E (constant (F := Ideal) S_ .f32 0x00000000#32) reducesTo_S131072x25x25_S131072x25_d2 h_S_)))
        (ix3 r q s)
      = Ideal.div (E (ix3 r q s)) (∑ s' : Fin 25, E (ix3 r q s')) := by
  refine (hostDivf_apply _ _ _).trans ?_
  refine congrArg (Ideal.div (E (ix3 r q s))) ?_
  refine (broadcastInDim_apply _ _ _ (ix3 r q s) (ix3 r q (0 : Fin 1)) ?_).trans ?_
  · intro a; match a with | ⟨0, _⟩ => rfl | ⟨1, _⟩ => rfl | ⟨2, _⟩ => rfl
  refine (broadcastInDim_apply _ _ _ (ix3 r q (0 : Fin 1)) (ix2 r q) ?_).trans ?_
  · intro a; match a with | ⟨0, _⟩ => rfl | ⟨1, _⟩ => rfl
  exact rowSum_apply E r q

/-- The mix at (r, q, k): the sum over tokens s of the weight of s for q times the value of s at k, plus the
    residual. -/
theorem mixedV_apply (E : FVec Ideal S131072x25x25 .f32) (V R : FVec Ideal S131072x25x9 .f32)
    (r : Fin 131072) (q : Fin 25) (k : Fin 9) :
    mixedV E V R (ix3 r q k)
      = mix (fun q s => Ideal.div (E (ix3 r q s)) (∑ s' : Fin 25, E (ix3 r q s')))
          (fun s k => V (ix3 r s k)) (fun q k => R (ix3 r q k)) q k := by
  unfold mixedV mix
  rw [addf_apply]
  refine congrArg (· + R (ix3 r q k)) ?_
  refine (Ideal.dotGeneral_apply _ _ _ _ _ _).trans ?_
  rw [← Equiv.sum_comp (contrEquiv1 dP 25 rfl rfl).symm]
  refine Finset.sum_congr rfl fun s _ => ?_
  rw [dP_lhsIdx, dP_rhsIdx, weightsV_apply]

/-! ## Stage 4: the mean and the centring -/

/-- The sum of a token's nine entries. -/
private theorem tokSum_apply (O : FVec Ideal S131072x25x9 .f32) (r : Fin 131072) (q : Fin 25) :
    Host.reduceAdd (F := Ideal) O (constant (F := Ideal) S_ .f32 0x00000000#32) reducesTo_S131072x25x9_S131072x25_d2 h_S_ (ix2 r q)
      = ∑ k : Fin 9, O (ix3 r q k) := by
  refine (hostReduceAdd_apply _ _ _ _ _).trans ?_
  refine (Ideal.hostReduceAdd_single _ redO _ _ _).trans ?_
  rw [constant_apply, Ideal.ofBits_zero_f32, zero_add]
  exact Finset.sum_congr rfl fun k _ => congrArg O (redO_lift r q k)

/-- A token's mean: the sum of its entries over the word of nine, kept as that word's value. -/
theorem meanV_apply (O : FVec Ideal S131072x25x9 .f32) (r : Fin 131072) (q : Fin 25) :
    meanV O (ix3 r q (0 : Fin 1)) = mean (fun q k => O (ix3 r q k)) q := by
  unfold meanV mean
  refine (hostDivf_apply _ _ _).trans ?_
  rw [broadcastInDim_scalar_apply, constant_apply]
  refine congrArg (fun t => Ideal.div t nine) ?_
  refine (broadcastInDim_apply _ _ _ (ix3 r q (0 : Fin 1)) (ix2 r q) ?_).trans ?_
  · intro a; match a with | ⟨0, _⟩ => rfl | ⟨1, _⟩ => rfl
  exact tokSum_apply O r q

/-- An entry less its token's mean. -/
theorem centredOf_apply (O : FVec Ideal S131072x25x9 .f32) (r : Fin 131072) (q : Fin 25) (k : Fin 9) :
    centredOf O (ix3 r q k) = cen (fun q k => O (ix3 r q k)) q k := by
  unfold centredOf cen
  rw [subf_apply]
  refine congrArg (fun t => O (ix3 r q k) - t) ?_
  refine (broadcastInDim_apply _ _ _ (ix3 r q k) (ix3 r q (0 : Fin 1)) ?_).trans ?_
  · intro a; match a with | ⟨0, _⟩ => rfl | ⟨1, _⟩ => rfl | ⟨2, _⟩ => rfl
  exact meanV_apply O r q

/-! ## The chain -/

theorem centredV_apply (K V R : FVec Ideal S131072x25x9 .f32) (r : Fin 131072) (q : Fin 25) (k : Fin 9) :
    centredV K V R (ix3 r q k)
      = centred (fun q k => K (ix3 r q k)) (fun s k => V (ix3 r s k)) (fun q k => R (ix3 r q k)) q k := by
  unfold centredV centred
  -- row r of the scores is the row's own score function of row r of the keys
  have hS : (fun q s => scoresV K (ix3 r q s)) = score (fun q k => K (ix3 r q k)) :=
    funext fun q => funext fun s => scoresV_apply K r q s
  -- so row r of the exponentials is the row's own
  have hE : ∀ q s, exposV (scoresV K) (ix3 r q s) = expo (score (fun q k => K (ix3 r q k))) q s := fun q s => by
    rw [exposV_apply, hS]
  -- and the quotients by the tokens' sums are the softmax weights
  have hW : (fun q s => Ideal.div (exposV (scoresV K) (ix3 r q s)) (∑ s' : Fin 25, exposV (scoresV K) (ix3 r q s')))
      = weight (score (fun q k => K (ix3 r q k))) := by
    funext q s
    unfold weight
    rw [hE q s]
    exact congrArg _ (Finset.sum_congr rfl fun s' _ => hE q s')
  have hM : (fun q k => mixedV (exposV (scoresV K)) V R (ix3 r q k))
      = mix (weight (score (fun q k => K (ix3 r q k)))) (fun s k => V (ix3 r s k)) (fun q k => R (ix3 r q k)) := by
    funext q k
    rw [mixedV_apply, hW]
  rw [centredOf_apply, hM]

end Cert.ReferenceIdeal.Stages

end
-- ==== Proof.RFinish.lean ====
/-
  The last stage of the reference read at an index: the centred entry over the root of its token's mean square
  (plus the small constant), times the scale, plus the shift.
-/
import proofs.«406663_j42339787604121_3_alg».proof.Proof.RStages
import proofs.«406663_j42339787604121_3_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.ReferenceIdeal.Stages

open Idealize.ShloMosaic Idealize.ShloMosaic.ValueIdx Cert.ReferenceIdeal Cert.ReferenceIdeal.Gen Cert.RowMath

/-- The sum of squares of token (r, q): the reduction over the last axis from the zero word, read at (r, q). -/
theorem sumSq_apply (C : FVec Ideal S131072x25x9 .f32) (r : Fin 131072) (q : Fin 25) :
    Host.reduceAdd (F := Ideal) (mulf C C) (constant (F := Ideal) S_ .f32 0x00000000#32)
        reducesTo_S131072x25x9_S131072x25_d2 h_S_ (ix2 r q)
      = ∑ k' : Fin 9, C (ix3 r q k') * C (ix3 r q k') := by
  have hred : S131072x25x9.Reduces [2] S131072x25 := by decide
  show Ideal.hostReduceAdd reducesTo_S131072x25x9_S131072x25_d2 (mulf C C) (Ideal.ofBits .f32 0x00000000#32) (ix2 r q) = _
  refine (Ideal.hostReduceAdd_single _ hred _ _ _).trans ?_
  -- the initial value is zero
  rw [Ideal.ofBits_zero_f32, zero_add]
  refine Finset.sum_congr rfl fun k' _ => ?_
  -- the index put back on the summed axis is (r, q, k')
  have hl : hred.lift (ix2 r q) k' = ix3 r q k' := by
    funext a
    match a with
    | ⟨0, _⟩ => rfl
    | ⟨1, _⟩ => rfl
    | ⟨2, _⟩ => rfl
  rw [hl]
  rfl

/-- A vector of 9 spread first to [1, 1, 9] and then over rows and tokens: at (r, q, k) it is the vector at k. -/
theorem rowSpread_apply (g : FVec Ideal S9 .f32) (r : Fin 131072) (q : Fin 25) (k : Fin 9) :
    broadcastInDim S131072x25x9 ![0, 1, 2] bcast_S1x1x9_S131072x25x9_0_1_2
        (broadcastInDim S1x1x9 ![2] bcast_S9_S1x1x9_2 g) (ix3 r q k)
      = g (ix1 k) := by
  refine (broadcastInDim_apply _ _ _ (ix3 r q k) (ix3 (0 : Fin 1) (0 : Fin 1) k) ?_).trans ?_
  · intro a
    match a with
    | ⟨0, _⟩ => rfl
    | ⟨1, _⟩ => rfl
    | ⟨2, _⟩ => rfl
  · refine broadcastInDim_apply _ _ g _ (ix1 k) ?_
    intro a
    match a with
    | ⟨0, _⟩ => rfl

/-- The factor every entry of token (r, q) is multiplied by: the reciprocal root of the token's mean square plus the
    small constant, kept on a last axis of extent one and spread back over the 9 entries. -/
theorem invRoot_apply (C : FVec Ideal S131072x25x9 .f32) (r : Fin 131072) (q : Fin 25) (k : Fin 9) :
    broadcastInDim S131072x25x9 ![0, 1, 2] bcast_S131072x25x1_S131072x25x9_0_1_2
        (Host.rsqrt (F := Ideal) (addf (Host.divf (F := Ideal)
            (broadcastInDim S131072x25x1 ![0, 1] bcast_S131072x25_S131072x25x1_0_1
              (Host.reduceAdd (F := Ideal) (mulf C C) (constant (F := Ideal) S_ .f32 0x00000000#32)
                reducesTo_S131072x25x9_S131072x25_d2 h_S_))
            (broadcastInDim S131072x25x1 ![] bcast_S_S131072x25x1 (constant (F := Ideal) S_ .f32 0x41100000#32)))
          (broadcastInDim S131072x25x1 ![] bcast_S_S131072x25x1 (constant (F := Ideal) S_ .f32 0x3727C5AC#32))))
        (ix3 r q k)
      = Ideal.rsqrt (Ideal.div (∑ k' : Fin 9, C (ix3 r q k') * C (ix3 r q k')) nine + tiny) := by
  -- the spread reads the kept axis at 0
  refine (broadcastInDim_apply _ _ _ (ix3 r q k) (ix3 r q (0 : Fin 1)) ?_).trans ?_
  · intro a
    match a with
    | ⟨0, _⟩ => rfl
    | ⟨1, _⟩ => rfl
    | ⟨2, _⟩ => rfl
  -- the kept axis reads the sum at (r, q)
  · have h1 : broadcastInDim S131072x25x1 ![0, 1] bcast_S131072x25_S131072x25x1_0_1
          (Host.reduceAdd (F := Ideal) (mulf C C) (constant (F := Ideal) S_ .f32 0x00000000#32)
            reducesTo_S131072x25x9_S131072x25_d2 h_S_) (ix3 r q (0 : Fin 1))
        = ∑ k' : Fin 9, C (ix3 r q k') * C (ix3 r q k') := by
      refine (broadcastInDim_apply _ _ _ (ix3 r q (0 : Fin 1)) (ix2 r q) ?_).trans (sumSq_apply C r q)
      intro a
      match a with
      | ⟨0, _⟩ => rfl
      | ⟨1, _⟩ => rfl
    -- a scalar spread over every axis is that scalar everywhere
    have h2 : ∀ w : BitVec 32, broadcastInDim S131072x25x1 ![] bcast_S_S131072x25x1
          (constant (F := Ideal) S_ .f32 w) (ix3 r q (0 : Fin 1)) = Ideal.ofBits .f32 w := fun w =>
      (broadcastInDim_apply _ _ _ (ix3 r q (0 : Fin 1)) ix0 (fun a => a.elim0)).trans rfl
    show Ideal.rsqrt (Ideal.div
        (broadcastInDim S131072x25x1 ![0, 1] bcast_S131072x25_S131072x25x1_0_1
          (Host.reduceAdd (F := Ideal) (mulf C C) (constant (F := Ideal) S_ .f32 0x00000000#32)
            reducesTo_S131072x25x9_S131072x25_d2 h_S_) (ix3 r q (0 : Fin 1)))
        (broadcastInDim S131072x25x1 ![] bcast_S_S131072x25x1 (constant (F := Ideal) S_ .f32 0x41100000#32) (ix3 r q (0 : Fin 1)))
      + broadcastInDim S131072x25x1 ![] bcast_S_S131072x25x1 (constant (F := Ideal) S_ .f32 0x3727C5AC#32) (ix3 r q (0 : Fin 1))) = _
    rw [h1, h2, h2]

theorem finishV_apply (C : FVec Ideal S131072x25x9 .f32) (g β : FVec Ideal S9 .f32) (r : Fin 131072) (q : Fin 25) (k : Fin 9) :
    finishV C g β (ix3 r q k)
      = scaleShift (fun q k => C (ix3 r q k)) (fun k => g (ix1 k)) (fun k => β (ix1 k)) q k := by
  unfold finishV
  simp only [addf_apply, mulf_apply]
  rw [invRoot_apply C r q k, rowSpread_apply g r q k, rowSpread_apply β r q k]
  rfl

end Cert.ReferenceIdeal.Stages

end
-- ==== Proof.RValue.lean ====
/-
  The reference's result at an index: entry (b, q, k) is the row formula of row b of the input.  The stages are read
  one at a time: the last stage, the attention stage, the three projections, each group's affine map, and where each
  group sits in the row.
-/
import proofs.«406663_j42339787604121_3_alg».proof.Proof.RResult
import proofs.«406663_j42339787604121_3_alg».proof.Proof.RLin
import proofs.«406663_j42339787604121_3_alg».proof.Proof.RAttn
import proofs.«406663_j42339787604121_3_alg».proof.Proof.RFinish
import proofs.«406663_j42339787604121_3_alg».proof.Proof.Groups
import proofs.«406663_j42339787604121_3_alg».proof.Proof.Whole

noncomputable section

namespace Cert.ReferenceIdeal.Result

open Idealize.ShloMosaic Idealize.ShloMosaic.TcCoe Idealize.ShloMosaic.StableHlo Idealize.ShloMosaic.ValueIdx
  Cert.ReferenceIdeal Cert.ReferenceIdeal.Gen Cert.ReferenceIdeal.Value Cert.ReferenceIdeal.Stages Cert.RowMath

/-- Row r of one projection of the whole array: the four groups' affine maps laid end to end, each group read off
    the input's row. -/
theorem proj_row (V0 : Valuation τ sig (Elt Ideal)) (wa : FVec Ideal S9x9 .f32) (ba : FVec Ideal S9 .f32)
    (wb : FVec Ideal S9x17 .f32) (bb : FVec Ideal S9 .f32) (wc : FVec Ideal S9x11 .f32) (bc : FVec Ideal S9 .f32)
    (wd : FVec Ideal S9x11 .f32) (bd : FVec Ideal S9 .f32) (r : Fin 131072) :
    (fun q k => cat (linA (res_main_v1 V0) wa ba) (linB (res_main_v3 V0) wb bb) (linC (res_main_v5 V0) wc bc)
        (linD (res_main_v7 V0) wd bd) (ix3 r q k))
      = proj (fun j => (V0 (Proc.devRef .tc main_arg0)) (ix2 r j))
          (fun k d => wa (ix2 k d)) (fun k => ba (ix1 k)) (fun k d => wb (ix2 k d)) (fun k => bb (ix1 k))
          (fun k d => wc (ix2 k d)) (fun k => bc (ix1 k)) (fun k d => wd (ix2 k d)) (fun k => bd (ix1 k)) := by
  have hA : (fun (n : Fin 3) (d : Fin 9) => res_main_v1 V0 (ix3 r n d)) = grpA (fun j => (V0 (Proc.devRef .tc main_arg0)) (ix2 r j)) :=
    funext fun n => funext fun d => Cert.Groups.grpA_read (V0 (Proc.devRef .tc main_arg0)) _ _ r n d
  have hB : (fun (n : Fin 10) (d : Fin 17) => res_main_v3 V0 (ix3 r n d)) = grpB (fun j => (V0 (Proc.devRef .tc main_arg0)) (ix2 r j)) :=
    funext fun n => funext fun d => Cert.Groups.grpB_read (V0 (Proc.devRef .tc main_arg0)) _ _ r n d
  have hC : (fun (n : Fin 10) (d : Fin 11) => res_main_v5 V0 (ix3 r n d)) = grpC (fun j => (V0 (Proc.devRef .tc main_arg0)) (ix2 r j)) :=
    funext fun n => funext fun d => Cert.Groups.grpC_read (V0 (Proc.devRef .tc main_arg0)) _ _ r n d
  have hD : (fun (n : Fin 2) (d : Fin 11) => res_main_v7 V0 (ix3 r n d)) = grpD (fun j => (V0 (Proc.devRef .tc main_arg0)) (ix2 r j)) :=
    funext fun n => funext fun d => Cert.Groups.grpD_read (V0 (Proc.devRef .tc main_arg0)) _ _ r n d
  funext q k
  rw [cat_apply]
  unfold proj
  have eA : (fun n k => linA (res_main_v1 V0) wa ba (ix3 r n k))
      = lin (grpA (fun j => (V0 (Proc.devRef .tc main_arg0)) (ix2 r j))) (fun k d => wa (ix2 k d)) (fun k => ba (ix1 k)) := by
    funext n k; rw [linA_apply, hA]
  have eB : (fun n k => linB (res_main_v3 V0) wb bb (ix3 r n k))
      = lin (grpB (fun j => (V0 (Proc.devRef .tc main_arg0)) (ix2 r j))) (fun k d => wb (ix2 k d)) (fun k => bb (ix1 k)) := by
    funext n k; rw [linB_apply, hB]
  have eC : (fun n k => linC (res_main_v5 V0) wc bc (ix3 r n k))
      = lin (grpC (fun j => (V0 (Proc.devRef .tc main_arg0)) (ix2 r j))) (fun k d => wc (ix2 k d)) (fun k => bc (ix1 k)) := by
    funext n k; rw [linC_apply, hC]
  have eD : (fun n k => linD (res_main_v7 V0) wd bd (ix3 r n k))
      = lin (grpD (fun j => (V0 (Proc.devRef .tc main_arg0)) (ix2 r j))) (fun k d => wd (ix2 k d)) (fun k => bd (ix1 k)) := by
    funext n k; rw [linD_apply, hD]
  rw [eA, eB, eC, eD]

set_option maxRecDepth 8192 in
/-- The reference's result term is the whole-array function of the argument arrays. -/
theorem result_fn (V0 : Valuation τ sig (Elt Ideal)) :
    (addf (mulf (mulf (subf (res_main_v75 V0) (broadcastInDim S131072x25x9 ![0, 1, 2] bcast_S131072x25x1_S131072x25x9_0_1_2 (res_main_v79 V0))) (broadcastInDim S131072x25x9 ![0, 1, 2] bcast_S131072x25x1_S131072x25x9_0_1_2 (Host.rsqrt (F := Ideal) (addf (Host.divf (F := Ideal) (broadcastInDim S131072x25x1 ![0, 1] bcast_S131072x25_S131072x25x1_0_1 (Host.reduceAdd (F := Ideal) (mulf (res_main_v81 V0) (res_main_v81 V0)) (constant (F := Ideal) S_ .f32 0x00000000#32) reducesTo_S131072x25x9_S131072x25_d2 h_S_)) (broadcastInDim S131072x25x1 ![] bcast_S_S131072x25x1 (constant (F := Ideal) S_ .f32 0x41100000#32))) (broadcastInDim S131072x25x1 ![] bcast_S_S131072x25x1 (constant (F := Ideal) S_ .f32 0x3727C5AC#32)))))) (broadcastInDim S131072x25x9 ![0, 1, 2] bcast_S1x1x9_S131072x25x9_0_1_2 (broadcastInDim S1x1x9 ![2] bcast_S9_S1x1x9_2 (V0 (Proc.devRef .tc main_arg25))))) (broadcastInDim S131072x25x9 ![0, 1, 2] bcast_S1x1x9_S131072x25x9_0_1_2 (broadcastInDim S1x1x9 ![2] bcast_S9_S1x1x9_2 (V0 (Proc.devRef .tc main_arg26)))) : FVec Ideal S131072x25x9 .f32)
      = Cert.Whole.G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  rw [result_eq]
  funext i
  obtain ⟨b, q, k, rfl⟩ : ∃ (b : Fin 131072) (q : Fin 25) (k : Fin 9), i = ix3 b q k := ⟨i 0, i 1, i 2, eq_ix3 i⟩
  rw [Cert.Whole.G_apply, finishV_apply]
  unfold Cert.Whole.rowOut attend
  -- both sides are the last stage of a centred array at (q, k): compare the centred arrays
  refine congrArg (fun C => scaleShift C _ _ q k) ?_
  funext q k
  rw [centredV_apply, proj_row, proj_row, proj_row]

end Cert.ReferenceIdeal.Result

end
-- ==== Proof.lean ====
/-
  The certificate.  Both programs compute, for each of the 131072 rows, the same function of the row: three
  projections of its 25 tokens (each token group through its own affine map), keys attending to keys with scores
  scaled by one third, a softmax, the weighted mix of the values plus the residuals, and a normalisation of each
  token's 9 entries.  The kernel works on blocks of 64 rows and multiplies the scores by the constant named one
  third; the reference works on the whole array and divides by the root of nine.  Over the extended reals a quotient
  by three is the product with one third, and every other step is the same operation on both sides, so the two
  results are one function of the arguments, index by index.  The two kernel programs' frames are the generated frame proofs, the reference's frame is its generated run with the
  result dropped, and the idealization's one rewrite is the named constant.
-/
import proofs.«406663_j42339787604121_3_alg».proof.Defs
import proofs.«406663_j42339787604121_3_alg».proof.Proof.Gen.Kernel
import proofs.«406663_j42339787604121_3_alg».proof.Proof.Gen.Kernel.Skeleton
import proofs.«406663_j42339787604121_3_alg».proof.Proof.Gen.Kernel.Launch
import proofs.«406663_j42339787604121_3_alg».proof.Proof.Gen.Kernel.Points
import proofs.«406663_j42339787604121_3_alg».proof.Proof.KernelFrame
import proofs.«406663_j42339787604121_3_alg».proof.Proof.Gen.KernelIdeal
import proofs.«406663_j42339787604121_3_alg».proof.Proof.Gen.KernelIdeal.Skeleton
import proofs.«406663_j42339787604121_3_alg».proof.Proof.Gen.KernelIdeal.Launch
import proofs.«406663_j42339787604121_3_alg».proof.Proof.Gen.KernelIdeal.Points
import proofs.«406663_j42339787604121_3_alg».proof.Proof.KernelIdealFrame
import proofs.«406663_j42339787604121_3_alg».proof.Proof.Gen.ReferenceIdeal
import proofs.«406663_j42339787604121_3_alg».proof.Proof.Gen.Pre_finite_inputs
import proofs.«406663_j42339787604121_3_alg».proof.Proof.KernelIdealValue
import proofs.«406663_j42339787604121_3_alg».proof.Proof.Gen.ReferenceIdeal.Run
import proofs.«406663_j42339787604121_3_alg».proof.Proof.KArray
import proofs.«406663_j42339787604121_3_alg».proof.Proof.RValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the constant named "inv_3" denotes one third. -/
theorem preserves : Cert.preserves_Kernel_KernelIdeal :=
  IdealRules.named_const.statement Cert.KernelIdeal.κ "inv_3" .f32 0x3EAAAAAB#32 ((1 / 3 : ℝ) : EReal) rfl

/-- Both runs end at the whole-array function of their arguments, and the arguments agree. -/
theorem algebraic : Cert.algebraic_KernelIdeal_ReferenceIdeal := by
  intro m ρ m' ρ' _ hagree
  refine ⟨fun c => Cert.KernelIdeal.Whole.GK m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Result.result_fn]
  obtain ⟨h0, h1, h2, h3, h4, h5, h6, h7, h8, h9, h10, h11, h12, h13, h14, h15, h16, h17, h18, h19, h20, h21, h22, h23, h24, h25, h26⟩ := hagree c
  show Cert.Whole.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) = _
  rw [h0, h1, h2, h3, h4, h5, h6, h7, h8, h9, h10, h11, h12, h13, h14, h15, h16, h17, h18, h19, h20, h21, h22, h23, h24, h25, h26]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
